-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v88)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v88) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v155) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x600000 : Shape := ⟨2, ![2, 600000]⟩
abbrev S600000x16 : Shape := ⟨2, ![600000, 16]⟩
abbrev S50000 : Shape := ⟨1, ![50000]⟩
abbrev S64x128 : Shape := ⟨2, ![64, 128]⟩
abbrev S128 : Shape := ⟨1, ![128]⟩
abbrev S16x64 : Shape := ⟨2, ![16, 64]⟩
abbrev S64 : Shape := ⟨1, ![64]⟩
abbrev S3x128x128 : Shape := ⟨3, ![3, 128, 128]⟩
abbrev S3x128 : Shape := ⟨2, ![3, 128]⟩
abbrev S128x64 : Shape := ⟨2, ![128, 64]⟩
abbrev S64x1 : Shape := ⟨2, ![64, 1]⟩
abbrev S1 : Shape := ⟨1, ![1]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S600000x16 : S_.BroadcastsInDim S600000x16 (![] : Fin 0 → Fin S600000x16.rank)
  reducesTo_S600000x16_S_d0_1 : S600000x16.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S16x64 : S_.BroadcastsInDim S16x64 (![] : Fin 0 → Fin S16x64.rank)
  reducesTo_S16x64_S_d0_1 : S16x64.ReducesTo [0, 1] S_
  bcast_S_S64 : S_.BroadcastsInDim S64 (![] : Fin 0 → Fin S64.rank)
  reducesTo_S64_S_d0 : S64.ReducesTo [0] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S128x64 : S_.BroadcastsInDim S128x64 (![] : Fin 0 → Fin S128x64.rank)
  reducesTo_S128x64_S_d0_1 : S128x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg13 : FVec F S64 .f32) (main_arg14 : FVec F S64x1 .f32) (main_arg15 : FVec F S1 .f32) (main_v48 : IVec S_ 1) (main_v49 : FVec F S128x64 .f32) (main_v50 : FVec F S128x64 .f32) : IVec S_ 1 :=
  let main_v51 : IVec S128x64 1 := cmpf .olt main_v49 main_v50
  let main_c_19 : IVec S_ 1 := constantI S_ 1 1#1
  let main_v52 : IVec S_ 1 := (fun x v => Host.reduce IntOp.andi x v reducesTo_S128x64_S_d0_1 h_S_) main_v51 main_c_19
  let main_v53 : IVec S_ 1 := andi main_v48 main_v52
  let main_v54 : FVec F S64 .f32 := Host.absf main_arg13
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x1 .f32 := Host.absf main_arg14
  let main_cst_22 : FVec F S_ .f32 := constant S_ .f32 0x7F800000#32
  let main_v60 : FVec F S64x1 .f32 := broadcastInDim S64x1 ![] bcast_S_S64x1 main_cst_22
  let main_v61 : IVec S64x1 1 := cmpf .olt main_v59 main_v60
  let main_c_23 : IVec S_ 1 := constantI S_ 1 1#1
  let main_v62 : IVec S_ 1 := (fun x v => Host.reduce IntOp.andi x v reducesTo_S64x1_S_d0_1 h_S_) main_v61 main_c_23
  let main_v63 : IVec S_ 1 := andi main_v58 main_v62
  let main_v64 : FVec F S1 .f32 := Host.absf main_arg15
  let main_cst_24 : FVec F S_ .f32 := constant S_ .f32 0x7F800000#32
  let main_v65 : FVec F S1 .f32 := broadcastInDim S1 ![] bcast_S_S1 main_cst_24
  let main_v66 : IVec S1 1 := cmpf .olt main_v64 main_v65
  let main_c_25 : IVec S_ 1 := constantI S_ 1 1#1
  let main_v67 : IVec S_ 1 := (fun x v => Host.reduce IntOp.andi x v reducesTo_S1_S_d0 h_S_) main_v66 main_c_25
  fn_part4 (F := F) main_v63 main_v67

def fn_part2 {F : FTy → Type} [FloatOps F] (main_arg9 : FVec F S64 .f32) (main_arg10 : FVec F S3x128x128 .f32) (main_arg11 : FVec F S3x128 .f32) (main_arg12 : FVec F S128x64 .f32) (main_arg13 : FVec F S64 .f32) (main_arg14 : FVec F S64x1 .f32) (main_arg15 : FVec F S1 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S3x128x128 .f32 := Host.absf main_arg10
  let main_cst_14 : FVec F S_ .f32 := constant S_ .f32 0x7F800000#32
  let main_v40 : FVec F S3x128x128 .f32 := broadcastInDim S3x128x128 ![] bcast_S_S3x128x128 main_cst_14
  let main_v41 : IVec S3x128x128 1 := cmpf .olt main_v39 main_v40
  let main_c_15 : IVec S_ 1 := constantI S_ 1 1#1
  let main_v42 : IVec S_ 1 := (fun x v => Host.reduce IntOp.andi x v reducesTo_S3x128x128_S_d0_1_2 h_S_) main_v41 main_c_15
  let main_v43 : IVec S_ 1 := andi main_v38 main_v42
  let main_v44 : FVec F S3x128 .f32 := Host.absf main_arg11
  let main_cst_16 : FVec F S_ .f32 := constant S_ .f32 0x7F800000#32
  let main_v45 : FVec F S3x128 .f32 := broadcastInDim S3x128 ![] bcast_S_S3x128 main_cst_16
  let main_v46 : IVec S3x128 1 := cmpf .olt main_v44 main_v45
  let main_c_17 : IVec S_ 1 := constantI S_ 1 1#1
  let main_v47 : IVec S_ 1 := (fun x v => Host.reduce IntOp.andi x v reducesTo_S3x128_S_d0_1 h_S_) main_v46 main_c_17
  let main_v48 : IVec S_ 1 := andi main_v43 main_v47
  let main_v49 : FVec F S128x64 .f32 := Host.absf main_arg12
  let main_cst_18 : FVec F S_ .f32 := constant S_ .f32 0x7F800000#32
  let main_v50 : FVec F S128x64 .f32 := broadcastInDim S128x64 ![] bcast_S_S128x64 main_cst_18
  fn_part3 (F := F) main_arg13 main_arg14 main_arg15 main_v48 main_v49 main_v50

def fn_part1 {F : FTy → Type} [FloatOps F] (main_arg6 : FVec F S128 .f32) (main_arg7 : FVec F S128 .f32) (main_arg8 : FVec F S16x64 .f32) (main_arg9 : FVec F S64 .f32) (main_arg10 : FVec F S3x128x128 .f32) (main_arg11 : FVec F S3x128 .f32) (main_arg12 : FVec F S128x64 .f32) (main_arg13 : FVec F S64 .f32) (main_arg14 : FVec F S64x1 .f32) (main_arg15 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S16x64 .f32 := Host.absf main_arg8
  let main_cst_10 : FVec F S_ .f32 := constant S_ .f32 0x7F800000#32
  let main_v30 : FVec F S16x64 .f32 := broadcastInDim S16x64 ![] bcast_S_S16x64 main_cst_10
  let main_v31 : IVec S16x64 1 := cmpf .olt main_v29 main_v30
  let main_c_11 : IVec S_ 1 := constantI S_ 1 1#1
  let main_v32 : IVec S_ 1 := (fun x v => Host.reduce IntOp.andi x v reducesTo_S16x64_S_d0_1 h_S_) main_v31 main_c_11
  let main_v33 : IVec S_ 1 := andi main_v28 main_v32
  fn_part2 (F := F) main_arg9 main_arg10 main_arg11 main_arg12 main_arg13 main_arg14 main_arg15 main_v33

def fn {F : FTy → Type} [FloatOps F] (main_arg0 : FVec F S50000x64 .f32) (main_arg1 : IVec S2x600000 32) (main_arg2 : FVec F S600000x16 .f32) (main_arg3 : IVec S50000 32) (main_arg4 : FVec F S64x128 .f32) (main_arg5 : FVec F S128 .f32) (main_arg6 : FVec F S128 .f32) (main_arg7 : FVec F S128 .f32) (main_arg8 : FVec F S16x64 .f32) (main_arg9 : FVec F S64 .f32) (main_arg10 : FVec F S3x128x128 .f32) (main_arg11 : FVec F S3x128 .f32) (main_arg12 : FVec F S128x64 .f32) (main_arg13 : FVec F S64 .f32) (main_arg14 : FVec F S64x1 .f32) (main_arg15 : FVec F S1 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S600000x16 .f32 := Host.absf main_arg2
  let main_cst_0 : FVec F S_ .f32 := constant S_ .f32 0x7F800000#32
  let main_v5 : FVec F S600000x16 .f32 := broadcastInDim S600000x16 ![] bcast_S_S600000x16 main_cst_0
  let main_v6 : IVec S600000x16 1 := cmpf .olt main_v4 main_v5
  let main_c_1 : IVec S_ 1 := constantI S_ 1 1#1
  let main_v7 : IVec S_ 1 := (fun x v => Host.reduce IntOp.andi x v reducesTo_S600000x16_S_d0_1 h_S_) main_v6 main_c_1
  let main_v8 : IVec S_ 1 := andi main_v3 main_v7
  let main_v9 : FVec F S64x128 .f32 := Host.absf main_arg4
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_arg15 main_v13 main_v16
-- ==== Kernel.lean ====
abbrev S50000x64 : Shape := ⟨2, ![50000, 64]⟩
abbrev S2x600000 : Shape := ⟨2, ![2, 600000]⟩
abbrev S600000x16 : Shape := ⟨2, ![600000, 16]⟩
abbrev S50000 : Shape := ⟨1, ![50000]⟩
abbrev S64x128 : Shape := ⟨2, ![64, 128]⟩
abbrev S128 : Shape := ⟨1, ![128]⟩
abbrev S16x64 : Shape := ⟨2, ![16, 64]⟩
abbrev S64 : Shape := ⟨1, ![64]⟩
abbrev S3x128x128 : Shape := ⟨3, ![3, 128, 128]⟩
abbrev S3x128 : Shape := ⟨2, ![3, 128]⟩
abbrev S128x64 : Shape := ⟨2, ![128, 64]⟩
abbrev S64x1 : Shape := ⟨2, ![64, 1]⟩
abbrev S1 : Shape := ⟨1, ![1]⟩
abbrev S1x600000 : Shape := ⟨2, ![1, 600000]⟩
abbrev S600000 : Shape := ⟨1, ![600000]⟩
abbrev S50000x1 : Shape := ⟨2, ![50000, 1]⟩
abbrev S_ : Shape := ⟨0, ![]⟩
abbrev S600000x1 : Shape := ⟨2, ![600000, 1]⟩
abbrev S1x128 : Shape := ⟨2, ![1, 128]⟩
abbrev S1x128x128 : Shape := ⟨3, ![1, 128, 128]⟩
abbrev S128x128 : Shape := ⟨2, ![128, 128]⟩
abbrev S50000x128 : Shape := ⟨2, ![50000, 128]⟩
abbrev S5000x64 : Shape := ⟨2, ![5000, 64]⟩
abbrev S5000x1 : Shape := ⟨2, ![5000, 1]⟩
abbrev S5000x128 : Shape := ⟨2, ![5000, 128]⟩
abbrev S5000 : Shape := ⟨1, ![5000]⟩
abbrev S600000x128 : Shape := ⟨2, ![600000, 128]⟩
abbrev S64x5000 : Shape := ⟨2, ![64, 5000]⟩
abbrev S64x64 : Shape := ⟨2, ![64, 64]⟩
abbrev S1x64 : Shape := ⟨2, ![1, 64]⟩
abbrev S1x1 : Shape := ⟨2, ![1, 1]⟩

abbrev nBuf : Space → Nat
  | .hbm => 122
  | .vmem => 42
  | .smem => 0
  | _ => 0

abbrev bufTy : (tb : Table) → Fin (tcTables nBuf tb) → BufTy
  | .hbm, ⟨0, _⟩ => ⟨S50000x64, .f32⟩
  | .hbm, ⟨1, _⟩ => ⟨S2x600000, .i32⟩
  | .hbm, ⟨2, _⟩ => ⟨S600000x16, .f32⟩
  | .hbm, ⟨3, _⟩ => ⟨S50000, .i32⟩
  | .hbm, ⟨4, _⟩ => ⟨S64x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S16x64, .f32⟩
  | .hbm, ⟨9, _⟩ => ⟨S64, .f32⟩
  | .hbm, ⟨10, _⟩ => ⟨S3x128x128, .f32⟩
  | .hbm, ⟨11, _⟩ => ⟨S3x128, .f32⟩
  | .hbm, ⟨12, _⟩ => ⟨S128x64, .f32⟩
  | .hbm, ⟨13, _⟩ => ⟨S64, .f32⟩
  | .hbm, ⟨14, _⟩ => ⟨S64x1, .f32⟩
  | .hbm, ⟨15, _⟩ => ⟨S1, .f32⟩
  | .hbm, ⟨16, _⟩ => ⟨S1x600000, .i32⟩
  | .hbm, ⟨17, _⟩ => ⟨S600000, .i32⟩
  | .hbm, ⟨18, _⟩ => ⟨S1x600000, .i32⟩
  | .hbm, ⟨19, _⟩ => ⟨S600000, .i32⟩
  | .hbm, ⟨20, _⟩ => ⟨S50000x1, .i32⟩
  | .hbm, ⟨21, _⟩ => ⟨S_, .f32⟩
  | .hbm, ⟨22, _⟩ => ⟨S600000, .f32⟩
  | .hbm, ⟨23, _⟩ => ⟨S_, .f32⟩
  | .hbm, ⟨24, _⟩ => ⟨S50000, .f32⟩
  | .hbm, ⟨25, _⟩ => ⟨S600000x1, .i32⟩
  | .hbm, ⟨26, _⟩ => ⟨S50000, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S50000, .f32⟩
  | .hbm, ⟨31, _⟩ => ⟨S50000x1, .f32⟩
  | .hbm, ⟨32, _⟩ => ⟨S1x128, .f32⟩
  | .hbm, ⟨33, _⟩ => ⟨S1x128, .f32⟩
  | .hbm, ⟨34, _⟩ => ⟨S1x128, .f32⟩
  | .hbm, ⟨35, _⟩ => ⟨S1x128x128, .f32⟩
  | .hbm, ⟨36, _⟩ => ⟨S128x128, .f32⟩
  | .hbm, ⟨37, _⟩ => ⟨S50000x128, .f32⟩
  | .hbm, ⟨38, _⟩ => ⟨S50000x128, .bf16⟩
  | .hbm, ⟨39, _⟩ => ⟨S_, .i32⟩
  | .hbm, ⟨40, _⟩ => ⟨S600000, .i32⟩
  | .hbm, ⟨41, _⟩ => ⟨S600000, .i1⟩
  | .hbm, ⟨42, _⟩ => ⟨S_, .i32⟩
  | .hbm, ⟨43, _⟩ => ⟨S600000, .i32⟩
  | .hbm, ⟨44, _⟩ => ⟨S600000, .i32⟩
  | .hbm, ⟨45, _⟩ => ⟨S600000, .i32⟩
  | .hbm, ⟨46, _⟩ => ⟨S600000x1, .i32⟩
  | .hbm, ⟨47, _⟩ => ⟨S600000x128, .bf16⟩
  | .hbm, ⟨48, _⟩ => ⟨S600000x128, .f32⟩
  | .hbm, ⟨49, _⟩ => ⟨S_, .f32⟩
  | .hbm, ⟨50, _⟩ => ⟨S50000x128, .f32⟩
  | .hbm, ⟨51, _⟩ => ⟨S600000x1, .i32⟩
  | .hbm, ⟨52, _⟩ => ⟨S50000x128, .f32⟩
  | .hbm, ⟨53, _⟩ => ⟨S1x128, .f32⟩
  | .hbm, ⟨54, _⟩ => ⟨S128, .f32⟩
  | .hbm, ⟨55, _⟩ => ⟨S1x128, .f32⟩
  | .hbm, ⟨56, _⟩ => ⟨S1x128x128, .f32⟩
  | .hbm, ⟨57, _⟩ => ⟨S128x128, .f32⟩
  | .hbm, ⟨58, _⟩ => ⟨S50000x128, .f32⟩
  | .hbm, ⟨59, _⟩ => ⟨S50000x128, .bf16⟩
  | .hbm, ⟨60, _⟩ => ⟨S_, .i32⟩
  | .hbm, ⟨61, _⟩ => ⟨S600000, .i32⟩
  | .hbm, ⟨62, _⟩ => ⟨S600000, .i1⟩
  | .hbm, ⟨63, _⟩ => ⟨S_, .i32⟩
  | .hbm, ⟨64, _⟩ => ⟨S600000, .i32⟩
  | .hbm, ⟨65, _⟩ => ⟨S600000, .i32⟩
  | .hbm, ⟨66, _⟩ => ⟨S600000, .i32⟩
  | .hbm, ⟨67, _⟩ => ⟨S600000x1, .i32⟩
  | .hbm, ⟨68, _⟩ => ⟨S600000x128, .bf16⟩
  | .hbm, ⟨69, _⟩ => ⟨S600000x128, .f32⟩
  | .hbm, ⟨70, _⟩ => ⟨S_, .f32⟩
  | .hbm, ⟨71, _⟩ => ⟨S50000x128, .f32⟩
  | .hbm, ⟨72, _⟩ => ⟨S600000x1, .i32⟩
  | .hbm, ⟨73, _⟩ => ⟨S50000x128, .f32⟩
  | .hbm, ⟨74, _⟩ => ⟨S1x128, .f32⟩
  | .hbm, ⟨75, _⟩ => ⟨S128, .f32⟩
  | .hbm, ⟨76, _⟩ => ⟨S1x128, .f32⟩
  | .hbm, ⟨77, _⟩ => ⟨S1x128x128, .f32⟩
  | .hbm, ⟨78, _⟩ => ⟨S128x128, .f32⟩
  | .hbm, ⟨79, _⟩ => ⟨S50000x128, .f32⟩
  | .hbm, ⟨80, _⟩ => ⟨S50000x128, .bf16⟩
  | .hbm, ⟨81, _⟩ => ⟨S_, .i32⟩
  | .hbm, ⟨82, _⟩ => ⟨S600000, .i32⟩
  | .hbm, ⟨83, _⟩ => ⟨S600000, .i1⟩
  | .hbm, ⟨84, _⟩ => ⟨S_, .i32⟩
  | .hbm, ⟨85, _⟩ => ⟨S600000, .i32⟩
  | .hbm, ⟨86, _⟩ => ⟨S600000, .i32⟩
  | .hbm, ⟨87, _⟩ => ⟨S600000, .i32⟩
  | .hbm, ⟨88, _⟩ => ⟨S600000x1, .i32⟩
  | .hbm, ⟨89, _⟩ => ⟨S600000x128, .bf16⟩
  | .hbm, ⟨90, _⟩ => ⟨S600000x128, .f32⟩
  | .hbm, ⟨91, _⟩ => ⟨S_, .f32⟩
  | .hbm, ⟨92, _⟩ => ⟨S50000x128, .f32⟩
  | .hbm, ⟨93, _⟩ => ⟨S600000x1, .i32⟩
  | .hbm, ⟨94, _⟩ => ⟨S50000x128, .f32⟩
  | .hbm, ⟨95, _⟩ => ⟨S1x128, .f32⟩
  | .hbm, ⟨96, _⟩ => ⟨S128, .f32⟩
  | .hbm, ⟨97, _⟩ => ⟨S1x128, .f32⟩
  | .hbm, ⟨98, _⟩ => ⟨S64x128, .f32⟩
  | .hbm, ⟨99, _⟩ => ⟨S_, .f32⟩
  | .hbm, ⟨100, _⟩ => ⟨S50000, .f32⟩
  | .hbm, ⟨101, _⟩ => ⟨S_, .f32⟩
  | .hbm, ⟨102, _⟩ => ⟨S64, .f32⟩
  | .hbm, ⟨103, _⟩ => ⟨S50000x1, .i32⟩
  | .hbm, ⟨104, _⟩ => ⟨S64, .f32⟩
  | .hbm, ⟨105, _⟩ => ⟨S_, .f32⟩
  | .hbm, ⟨106, _⟩ => ⟨S64, .f32⟩
  | .hbm, ⟨107, _⟩ => ⟨S64, .f32⟩
  | .hbm, ⟨108, _⟩ => ⟨S64x1, .f32⟩
  | .hbm, ⟨109, _⟩ => ⟨S64x128, .f32⟩
  | .hbm, ⟨110, _⟩ => ⟨S64x128, .f32⟩
  | .hbm, ⟨111, _⟩ => ⟨S64x64, .f32⟩
  | .hbm, ⟨112, _⟩ => ⟨S1x64, .f32⟩
  | .hbm, ⟨113, _⟩ => ⟨S64x64, .f32⟩
  | .hbm, ⟨114, _⟩ => ⟨S64x64, .f32⟩
  | .hbm, ⟨115, _⟩ => ⟨S_, .f32⟩
  | .hbm, ⟨116, _⟩ => ⟨S64x64, .f32⟩
  | .hbm, ⟨117, _⟩ => ⟨S64x64, .f32⟩
  | .hbm, ⟨118, _⟩ => ⟨S64x1, .f32⟩
  | .hbm, ⟨119, _⟩ => ⟨S1x1, .f32⟩
  | .hbm, ⟨120, _⟩ => ⟨S64x1, .f32⟩
  | .hbm, ⟨121, _⟩ => ⟨S64x1, .f32⟩
  | .local _ .vmem, ⟨0, _⟩ => ⟨S5000x64, .f32⟩
  | .local _ .vmem, ⟨1, _⟩ => ⟨S5000x64, .f32⟩
  | .local _ .vmem, ⟨2, _⟩ => ⟨S64x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S128x128, .f32⟩
  | .local _ .vmem, ⟨7, _⟩ => ⟨S5000x1, .f32⟩
  | .local _ .vmem, ⟨8, _⟩ => ⟨S5000x1, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x1, .f32⟩
  | .local _ .vmem, ⟨16, _⟩ => ⟨S5000x1, .f32⟩
  | .local _ .vmem, ⟨17, _⟩ => ⟨S1x128, .f32⟩
  | .local _ .vmem, ⟨18, _⟩ => ⟨S128x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x1, .f32⟩
  | .local _ .vmem, ⟨26, _⟩ => ⟨S5000x1, .f32⟩
  | .local _ .vmem, ⟨27, _⟩ => ⟨S1x128, .f32⟩
  | .local _ .vmem, ⟨28, _⟩ => ⟨S128x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x1, .f32⟩
  | .local _ .vmem, ⟨36, _⟩ => ⟨S5000x1, .f32⟩
  | .local _ .vmem, ⟨37, _⟩ => ⟨S1x128, .f32⟩
  | .local _ .vmem, ⟨38, _⟩ => ⟨S5000x1, .i32⟩
  | .local _ .vmem, ⟨39, _⟩ => ⟨S5000x1, .i32⟩
  | .local _ .vmem, ⟨40, _⟩ => ⟨S64x128, .f32⟩
  | .local _ .vmem, ⟨41, _⟩ => ⟨S64x128, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_cst : Ref sig .tc := ⟨.hbm, 21, rfl⟩
abbrev main_v5 : Ref sig .tc := ⟨.hbm, 22, rfl⟩
abbrev main_cst_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_cst_1 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_c : Ref sig .tc := ⟨.hbm, 39, rfl⟩
abbrev main_v20 : Ref sig .tc := ⟨.hbm, 40, rfl⟩
abbrev main_v21 : Ref sig .tc := ⟨.hbm, 41, rfl⟩
abbrev main_c_2 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_3 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_c_4 : Ref sig .tc := ⟨.hbm, 60, rfl⟩
abbrev main_v38 : Ref sig .tc := ⟨.hbm, 61, rfl⟩
abbrev main_v39 : Ref sig .tc := ⟨.hbm, 62, rfl⟩
abbrev main_c_5 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_6 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_c_7 : Ref sig .tc := ⟨.hbm, 81, rfl⟩
abbrev main_v56 : Ref sig .tc := ⟨.hbm, 82, rfl⟩
abbrev main_v57 : Ref sig .tc := ⟨.hbm, 83, rfl⟩
abbrev main_c_8 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_9 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_cst_10 : Ref sig .tc := ⟨.hbm, 99, rfl⟩
abbrev main_v71 : Ref sig .tc := ⟨.hbm, 100, rfl⟩
abbrev main_cst_11 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_cst_12 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_call0_cst : Ref sig .tc := ⟨.hbm, 115, rfl⟩
abbrev main_call0_v0 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg5_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg2_1 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg5_1 : Ref sig .tc := ⟨.vmem, 30, rfl⟩
abbrev cc3_stg0_0 : Ref sig .tc := ⟨.vmem, 31, rfl⟩
abbrev cc3_stg0_1 : Ref sig .tc := ⟨.vmem, 32, rfl⟩
abbrev cc3_stg1_0 : Ref sig .tc := ⟨.vmem, 33, rfl⟩
abbrev cc3_stg1_1 : Ref sig .tc := ⟨.vmem, 34, rfl⟩
abbrev cc3_stg2_0 : Ref sig .tc := ⟨.vmem, 35, rfl⟩
abbrev cc3_stg2_1 : Ref sig .tc := ⟨.vmem, 36, rfl⟩
abbrev cc3_stg3_0 : Ref sig .tc := ⟨.vmem, 37, rfl⟩
abbrev cc3_stg4_0 : Ref sig .tc := ⟨.vmem, 38, rfl⟩
abbrev cc3_stg4_1 : Ref sig .tc := ⟨.vmem, 39, rfl⟩
abbrev cc3_stg5_0 : Ref sig .tc := ⟨.vmem, 40, rfl⟩
abbrev cc3_scratch0 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem5_1 : DmaSem sig := 20
abbrev cc2_sem0_0 : DmaSem sig := 21
abbrev cc2_sem0_1 : DmaSem sig := 22
abbrev cc2_sem1_0 : DmaSem sig := 23
abbrev cc2_sem1_1 : DmaSem sig := 24
abbrev cc2_sem2_0 : DmaSem sig := 25
abbrev cc2_sem2_1 : DmaSem sig := 26
abbrev cc2_sem3_0 : DmaSem sig := 27
abbrev cc2_sem4_0 : DmaSem sig := 28
abbrev cc2_sem5_0 : DmaSem sig := 29
abbrev cc2_sem5_1 : DmaSem sig := 30
abbrev cc3_sem0_0 : DmaSem sig := 31
abbrev cc3_sem0_1 : DmaSem sig := 32
abbrev cc3_sem1_0 : DmaSem sig := 33
abbrev cc3_sem1_1 : DmaSem sig := 34
abbrev cc3_sem2_0 : DmaSem sig := 35
abbrev cc3_sem2_1 : DmaSem sig := 36
abbrev cc3_sem3_0 : DmaSem sig := 37
abbrev cc3_sem4_0 : DmaSem sig := 38
abbrev cc3_sem4_1 : DmaSem sig := 39
abbrev cc3_sem5_0 : DmaSem sig := 40

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S5000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def k3_cond2 (i : grid3.Coords) : BitVec 1 :=
  let arg0 : BitVec 32 := BitVec.ofNat 32 (i 0).val
  let c9_i32 : BitVec 32 := 9#32
  let v34 : BitVec 1 := Scalar.cmpi .eq arg0 c9_i32
  let v35 : BitVec 32 := Scalar.extui v34
  let c0_i32_15 : BitVec 32 := 0#32
  let v36 : BitVec 1 := Scalar.cmpi .ne v35 c0_i32_15
  v36

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x1 .i32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 1 → Memref sig .tc .vmem S64x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  shapeCasts_S50000_S50000x1 : S50000.ShapeCasts S50000x1
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  shapeCasts_S128_S1x128 : S128.ShapeCasts S1x128
  slices_S3x128x128_S1x128x128_0_0_0 : S3x128x128.Slices ![0, 0, 0] S1x128x128
  shapeCasts_S1x128x128_S128x128 : S1x128x128.ShapeCasts S128x128
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S5000 : S5000x128.Reduces [1] S5000
  shapeCasts_S5000_S5000x1 : S5000.ShapeCasts S5000x1
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S5000x128_S5000x128_0_0 : ∀ a, (![0, 0] : Fin 2 → Nat) a + S5000x128.size a ≤ S5000x128.size a
  h_S5000x128 : 0 < S5000x128.numel
  bcast_S_S50000x128 : S_.BroadcastsInDim S50000x128 (![] : Fin 0 → Fin S50000x128.rank)
  slices_S3x128_S1x128_0_0 : S3x128.Slices ![0, 0] S1x128
  shapeCasts_S1x128_S128 : S1x128.ShapeCasts S128
  slices_S3x128x128_S1x128x128_1_0_0 : S3x128x128.Slices ![1, 0, 0] S1x128x128
  shapeCasts_S5000x128_S5000x128 : S5000x128.ShapeCasts S5000x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  shapeCasts_S64x128_S64x128 : S64x128.ShapeCasts S64x128
  iota_S5000x64_d1_w32 : S5000x64.Iotas .tc 32 [1]
  broadcasts_S5000x1_S5000x64 : S5000x1.Broadcasts S5000x64
  natLt_1_32 : 1 < 32
  transposes_S5000x64_p1_0_S64x5000 : S5000x64.Transposes [1, 0] S64x5000
  bcast_S_S64 : S_.BroadcastsInDim S64 (![] : Fin 0 → Fin S64.rank)
  bcast_S50000_S50000x1_0 : S50000.BroadcastsInDim S50000x1 (![0] : Fin 1 → Fin S50000x1.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S64_S1x64_1 : S64.BroadcastsInDim S1x64 (![1] : Fin 1 → Fin S1x64.rank)
  bcast_S1x64_S64x64_0_1 : S1x64.BroadcastsInDim S64x64 (![0, 1] : Fin 2 → Fin S64x64.rank)
  bcast_S_S64x64 : S_.BroadcastsInDim S64x64 (![] : Fin 0 → Fin S64x64.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  scatter_S50000_S600000x1_S600000_n_0_0_1_wf : ScatterDims.WF S50000 S600000x1 S600000 [] [0] [0] 1
  dot_S5000x64_S64x128_S5000x128_1_0_0_1_n_n_wf : DotDims.WF S5000x64 S64x128 S5000x128 [1] [0] [0] [1] [] []
  dot_S5000x128_S128x128_S5000x128_1_0_0_1_n_n_wf : DotDims.WF S5000x128 S128x128 S5000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S64x5000_S5000x128_S64x128_1_0_0_1_n_n_wf : DotDims.WF S64x5000 S5000x128 S64x128 [1] [0] [0] [1] [] []
  scatter_S64_S50000x1_S50000_n_0_0_1_wf : ScatterDims.WF S64 S50000x1 S50000 [] [0] [0] 1
  dot_S64x128_S128x64_S64x64_1_0_0_1_n_n_wf : DotDims.WF S64x128 S128x64 S64x64 [1] [0] [0] [1] [] []
  dot_S64x64_S64x1_S64x1_1_0_0_1_n_n_wf : DotDims.WF S64x64 S64x1 S64x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x1.size a ≤ S50000x1.size a
  hwx0_6 : ∀ i : grid0.Coords, EltTy.bits .f32 = 32 ∨ (Rect.block (s := S50000x1) S5000x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x128.size a ≤ S50000x128.size a
  hwx0_7 : ∀ i : grid0.Coords, EltTy.bits .f32 = 32 ∨ (Rect.block (s := S50000x128) S5000x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S50000x1.size a
  hwx2_2 : ∀ i : grid2.Coords, EltTy.bits .f32 = 32 ∨ (Rect.block (s := S50000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S50000x1.size a
  hwx3_2 : ∀ i : grid3.Coords, EltTy.bits .f32 = 32 ∨ (Rect.block (s := S50000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x1.size a ≤ S50000x1.size a
  hwx3_4 : ∀ i : grid3.Coords, EltTy.bits .i32 = 32 ∨ (Rect.block (s := S50000x1) S5000x1.size (cc3_transform_4 i) (hinb3_4 i)).WholeWords (EltTy.packing .i32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S64x128.size a ≤ S64x128.size a
  hwx3_5 : ∀ i : grid3.Coords, EltTy.bits .f32 = 32 ∨ (Rect.block (s := S64x128) S64x128.size (cc3_transform_5 i) (hinb3_5 i)).WholeWords (EltTy.packing .f32)

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S64x5000_S5000x128_S64x128_1_0_0_1_n_n : DotDims S64x5000 S5000x128 S64x128 where
  lhsContracting := [1]
  rhsContracting := [0]
  lhsNonContracting := [0]
  rhsNonContracting := [1]
  lhsBatch := []
  rhsBatch := []
  wf := dot_S64x5000_S5000x128_S64x128_1_0_0_1_n_n_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x128_S128x64_S64x64_1_0_0_1_n_n : DotDims S64x128 S128x64 S64x64 where
  lhsContracting := [1]
  rhsContracting := [0]
  lhsNonContracting := [0]
  rhsNonContracting := [1]
  lhsBatch := []
  rhsBatch := []
  wf := dot_S64x128_S128x64_S64x64_1_0_0_1_n_n_wf
def dot_S64x64_S64x1_S64x1_1_0_0_1_n_n : DotDims S64x64 S64x1 S64x1 where
  lhsContracting := [1]
  rhsContracting := [0]
  lhsNonContracting := [0]
  rhsNonContracting := [1]
  lhsBatch := []
  rhsBatch := []
  wf := dot_S64x64_S64x1_S64x1_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v12) S5000x1.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v18) S5000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v30) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v33) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v35) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v36) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v48) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v36) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v12) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v51) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v53) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v54) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v66) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v54) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v12) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v69) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v4) S5000x1.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v70) S64x128.size cc3_transform_5 reads3_5 true true 1 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev idle3 : Fin 6 → grid3.Coords → Bool := fun | 0 => fun _ => false | 1 => fun _ => false | 2 => fun _ => false | 3 => fun _ => false | 4 => fun _ => false | 5 => fun i => !(k3_cond2 i == 1#1) | ⟨_ + 6, h⟩ => absurd h (Nat.not_lt.2 (Nat.le_add_left _ _))

class Facts : Prop extends Facts₀ where

variable [Facts]
-- ==== ReferenceIdeal.lean ====
abbrev S50000x64 : Shape := ⟨2, ![50000, 64]⟩
abbrev S2x600000 : Shape := ⟨2, ![2, 600000]⟩
abbrev S600000x16 : Shape := ⟨2, ![600000, 16]⟩
abbrev S50000 : Shape := ⟨1, ![50000]⟩
abbrev S64x128 : Shape := ⟨2, ![64, 128]⟩
abbrev S128 : Shape := ⟨1, ![128]⟩
abbrev S16x64 : Shape := ⟨2, ![16, 64]⟩
abbrev S64 : Shape := ⟨1, ![64]⟩
abbrev S3x128x128 : Shape := ⟨3, ![3, 128, 128]⟩
abbrev S3x128 : Shape := ⟨2, ![3, 128]⟩
abbrev S128x64 : Shape := ⟨2, ![128, 64]⟩
abbrev S64x1 : Shape := ⟨2, ![64, 1]⟩
abbrev S1 : Shape := ⟨1, ![1]⟩
abbrev S1x600000 : Shape := ⟨2, ![1, 600000]⟩
abbrev S600000 : Shape := ⟨1, ![600000]⟩
abbrev S50000x128 : Shape := ⟨2, ![50000, 128]⟩
abbrev S1x128 : Shape := ⟨2, ![1, 128]⟩
abbrev S_ : Shape := ⟨0, ![]⟩
abbrev S50000x1 : Shape := ⟨2, ![50000, 1]⟩
abbrev S600000x64 : Shape := ⟨2, ![600000, 64]⟩
abbrev S1x64 : Shape := ⟨2, ![1, 64]⟩
abbrev S600000x1 : Shape := ⟨2, ![600000, 1]⟩
abbrev S1x128x128 : Shape := ⟨3, ![1, 128, 128]⟩
abbrev S128x128 : Shape := ⟨2, ![128, 128]⟩
abbrev S600000x128 : Shape := ⟨2, ![600000, 128]⟩
abbrev S64x64 : Shape := ⟨2, ![64, 64]⟩
abbrev S1x1 : Shape := ⟨2, ![1, 1]⟩

abbrev nBuf : Space → Nat
  | .hbm => 209
  | .vmem => 0
  | .smem => 0
  | _ => 0

abbrev hbmTy0_0 (i : Nat) : BufTy := match i % 128 with
  | 0 => ⟨S50000x64, .f32⟩
  | 1 => ⟨S2x600000, .i32⟩
  | 2 => ⟨S600000x16, .f32⟩
  | 3 => ⟨S50000, .i32⟩
  | 4 => ⟨S64x128, .f32⟩
  | 5 => ⟨S128, .f32⟩
  | 6 => ⟨S128, .f32⟩
  | 7 => ⟨S128, .f32⟩
  | 8 => ⟨S16x64, .f32⟩
  | 9 => ⟨S64, .f32⟩
  | 10 => ⟨S3x128x128, .f32⟩
  | 11 => ⟨S3x128, .f32⟩
  | 12 => ⟨S128x64, .f32⟩
  | 13 => ⟨S64, .f32⟩
  | 14 => ⟨S64x1, .f32⟩
  | 15 => ⟨S1, .f32⟩
  | 16 => ⟨S1x600000, .i32⟩
  | 17 => ⟨S600000, .i32⟩
  | 18 => ⟨S1x600000, .i32⟩
  | 19 => ⟨S600000, .i32⟩
  | 20 => ⟨S50000x128, .f32⟩
  | 21 => ⟨S1x128, .f32⟩
  | 22 => ⟨S50000x128, .f32⟩
  | 23 => ⟨S50000x128, .f32⟩
  | 24 => ⟨S_, .f32⟩
  | 25 => ⟨S50000x128, .f32⟩
  | 26 => ⟨S50000x128, .f32⟩
  | 27 => ⟨S_, .f32⟩
  | 28 => ⟨S50000, .f32⟩
  | 29 => ⟨S50000x1, .f32⟩
  | 30 => ⟨S_, .f32⟩
  | 31 => ⟨S50000x1, .f32⟩
  | 32 => ⟨S50000x1, .f32⟩
  | 33 => ⟨S50000x128, .f32⟩
  | 34 => ⟨S50000x128, .f32⟩
  | 35 => ⟨S50000x128, .f32⟩
  | 36 => ⟨S_, .f32⟩
  | 37 => ⟨S50000, .f32⟩
  | 38 => ⟨S50000x1, .f32⟩
  | 39 => ⟨S_, .f32⟩
  | 40 => ⟨S50000x1, .f32⟩
  | 41 => ⟨S50000x1, .f32⟩
  | 42 => ⟨S50000x128, .f32⟩
  | 43 => ⟨S50000x128, .f32⟩
  | 44 => ⟨S_, .f32⟩
  | 45 => ⟨S50000x1, .f32⟩
  | 46 => ⟨S50000x1, .f32⟩
  | 47 => ⟨S50000x1, .f32⟩
  | 48 => ⟨S50000x128, .f32⟩
  | 49 => ⟨S50000x128, .f32⟩
  | 50 => ⟨S1x128, .f32⟩
  | 51 => ⟨S50000x128, .f32⟩
  | 52 => ⟨S50000x128, .f32⟩
  | 53 => ⟨S1x128, .f32⟩
  | 54 => ⟨S50000x128, .f32⟩
  | 55 => ⟨S50000x128, .f32⟩
  | 56 => ⟨S600000x64, .f32⟩
  | 57 => ⟨S1x64, .f32⟩
  | 58 => ⟨S600000x64, .f32⟩
  | 59 => ⟨S600000x64, .f32⟩
  | 60 => ⟨S_, .f32⟩
  | 61 => ⟨S600000x64, .f32⟩
  | 62 => ⟨S600000x64, .f32⟩
  | 63 => ⟨S_, .f32⟩
  | 64 => ⟨S600000, .f32⟩
  | 65 => ⟨S_, .f32⟩
  | 66 => ⟨S50000, .f32⟩
  | 67 => ⟨S600000x1, .i32⟩
  | 68 => ⟨S50000, .f32⟩
  | 69 => ⟨S_, .f32⟩
  | 70 => ⟨S50000, .f32⟩
  | 71 => ⟨S50000, .f32⟩
  | 72 => ⟨S50000, .f32⟩
  | 73 => ⟨S_, .i32⟩
  | 74 => ⟨S600000, .i32⟩
  | 75 => ⟨S600000, .i1⟩
  | 76 => ⟨S_, .i32⟩
  | 77 => ⟨S600000, .i32⟩
  | 78 => ⟨S600000, .i32⟩
  | 79 => ⟨S600000, .i32⟩
  | 80 => ⟨S600000x1, .i32⟩
  | 81 => ⟨S600000, .f32⟩
  | 82 => ⟨S_, .i32⟩
  | 83 => ⟨S600000, .i32⟩
  | 84 => ⟨S600000, .i1⟩
  | 85 => ⟨S_, .i32⟩
  | 86 => ⟨S600000, .i32⟩
  | 87 => ⟨S600000, .i32⟩
  | 88 => ⟨S600000, .i32⟩
  | 89 => ⟨S600000x1, .i32⟩
  | 90 => ⟨S600000, .f32⟩
  | 91 => ⟨S600000, .f32⟩
  | 92 => ⟨S600000x1, .f32⟩
  | 93 => ⟨S50000, .f32⟩
  | 94 => ⟨S50000x1, .f32⟩
  | 95 => ⟨S1x128x128, .f32⟩
  | 96 => ⟨S128x128, .f32⟩
  | 97 => ⟨S50000x128, .f32⟩
  | 98 => ⟨S_, .i32⟩
  | 99 => ⟨S600000, .i32⟩
  | 100 => ⟨S600000, .i1⟩
  | 101 => ⟨S_, .i32⟩
  | 102 => ⟨S600000, .i32⟩
  | 103 => ⟨S600000, .i32⟩
  | 104 => ⟨S600000, .i32⟩
  | 105 => ⟨S600000x1, .i32⟩
  | 106 => ⟨S600000x128, .f32⟩
  | 107 => ⟨S600000x128, .f32⟩
  | 108 => ⟨S600000x128, .f32⟩
  | 109 => ⟨S_, .f32⟩
  | 110 => ⟨S50000x128, .f32⟩
  | 111 => ⟨S600000x1, .i32⟩
  | 112 => ⟨S50000x128, .f32⟩
  | 113 => ⟨S50000x128, .f32⟩
  | 114 => ⟨S50000x128, .f32⟩
  | 115 => ⟨S50000x128, .f32⟩
  | 116 => ⟨S1x128, .f32⟩
  | 117 => ⟨S128, .f32⟩
  | 118 => ⟨S1x128, .f32⟩
  | 119 => ⟨S50000x128, .f32⟩
  | 120 => ⟨S50000x128, .f32⟩
  | 121 => ⟨S_, .f32⟩
  | 122 => ⟨S50000x128, .f32⟩
  | 123 => ⟨S50000x128, .f32⟩
  | 124 => ⟨S1x128x128, .f32⟩
  | 125 => ⟨S128x128, .f32⟩
  | 126 => ⟨S50000x128, .f32⟩
  | 127 => ⟨S_, .i32⟩
  | _ => ⟨S50000x64, .f32⟩

abbrev hbmTy0_1 (i : Nat) : BufTy := match i % 128 with
  | 0 => ⟨S600000, .i32⟩
  | 1 => ⟨S600000, .i1⟩
  | 2 => ⟨S_, .i32⟩
  | 3 => ⟨S600000, .i32⟩
  | 4 => ⟨S600000, .i32⟩
  | 5 => ⟨S600000, .i32⟩
  | 6 => ⟨S600000x1, .i32⟩
  | 7 => ⟨S600000x128, .f32⟩
  | 8 => ⟨S600000x128, .f32⟩
  | 9 => ⟨S600000x128, .f32⟩
  | 10 => ⟨S_, .f32⟩
  | 11 => ⟨S50000x128, .f32⟩
  | 12 => ⟨S600000x1, .i32⟩
  | 13 => ⟨S50000x128, .f32⟩
  | 14 => ⟨S50000x128, .f32⟩
  | 15 => ⟨S50000x128, .f32⟩
  | 16 => ⟨S50000x128, .f32⟩
  | 17 => ⟨S1x128, .f32⟩
  | 18 => ⟨S128, .f32⟩
  | 19 => ⟨S1x128, .f32⟩
  | 20 => ⟨S50000x128, .f32⟩
  | 21 => ⟨S50000x128, .f32⟩
  | 22 => ⟨S_, .f32⟩
  | 23 => ⟨S50000x128, .f32⟩
  | 24 => ⟨S50000x128, .f32⟩
  | 25 => ⟨S1x128x128, .f32⟩
  | 26 => ⟨S128x128, .f32⟩
  | 27 => ⟨S50000x128, .f32⟩
  | 28 => ⟨S_, .i32⟩
  | 29 => ⟨S600000, .i32⟩
  | 30 => ⟨S600000, .i1⟩
  | 31 => ⟨S_, .i32⟩
  | 32 => ⟨S600000, .i32⟩
  | 33 => ⟨S600000, .i32⟩
  | 34 => ⟨S600000, .i32⟩
  | 35 => ⟨S600000x1, .i32⟩
  | 36 => ⟨S600000x128, .f32⟩
  | 37 => ⟨S600000x128, .f32⟩
  | 38 => ⟨S600000x128, .f32⟩
  | 39 => ⟨S_, .f32⟩
  | 40 => ⟨S50000x128, .f32⟩
  | 41 => ⟨S600000x1, .i32⟩
  | 42 => ⟨S50000x128, .f32⟩
  | 43 => ⟨S50000x128, .f32⟩
  | 44 => ⟨S50000x128, .f32⟩
  | 45 => ⟨S50000x128, .f32⟩
  | 46 => ⟨S1x128, .f32⟩
  | 47 => ⟨S128, .f32⟩
  | 48 => ⟨S1x128, .f32⟩
  | 49 => ⟨S50000x128, .f32⟩
  | 50 => ⟨S50000x128, .f32⟩
  | 51 => ⟨S_, .f32⟩
  | 52 => ⟨S50000x128, .f32⟩
  | 53 => ⟨S50000x128, .f32⟩
  | 54 => ⟨S_, .f32⟩
  | 55 => ⟨S64x128, .f32⟩
  | 56 => ⟨S50000x1, .i32⟩
  | 57 => ⟨S64x128, .f32⟩
  | 58 => ⟨S_, .f32⟩
  | 59 => ⟨S50000, .f32⟩
  | 60 => ⟨S_, .f32⟩
  | 61 => ⟨S64, .f32⟩
  | 62 => ⟨S50000x1, .i32⟩
  | 63 => ⟨S64, .f32⟩
  | 64 => ⟨S_, .f32⟩
  | 65 => ⟨S64, .f32⟩
  | 66 => ⟨S64, .f32⟩
  | 67 => ⟨S64x1, .f32⟩
  | 68 => ⟨S64x128, .f32⟩
  | 69 => ⟨S64x128, .f32⟩
  | 70 => ⟨S64x64, .f32⟩
  | 71 => ⟨S1x64, .f32⟩
  | 72 => ⟨S64x64, .f32⟩
  | 73 => ⟨S64x64, .f32⟩
  | 74 => ⟨S_, .f32⟩
  | 75 => ⟨S64x64, .f32⟩
  | 76 => ⟨S64x64, .f32⟩
  | 77 => ⟨S64x1, .f32⟩
  | 78 => ⟨S1x1, .f32⟩
  | 79 => ⟨S64x1, .f32⟩
  | 80 => ⟨S64x1, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_call0_cst : Ref sig .tc := ⟨.hbm, 24, rfl⟩
abbrev main_call0_v0 : Ref sig .tc := ⟨.hbm, 25, rfl⟩
abbrev main_v8 : Ref sig .tc := ⟨.hbm, 26, rfl⟩
abbrev main_cst : Ref sig .tc := ⟨.hbm, 27, rfl⟩
abbrev main_v9 : Ref sig .tc := ⟨.hbm, 28, rfl⟩
abbrev main_v10 : Ref sig .tc := ⟨.hbm, 29, rfl⟩
abbrev main_cst_0 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst_1 : Ref sig .tc := ⟨.hbm, 36, rfl⟩
abbrev main_v16 : Ref sig .tc := ⟨.hbm, 37, rfl⟩
abbrev main_v17 : Ref sig .tc := ⟨.hbm, 38, rfl⟩
abbrev main_cst_2 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_cst_3 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_call1_cst : Ref sig .tc := ⟨.hbm, 60, rfl⟩
abbrev main_call1_v0 : Ref sig .tc := ⟨.hbm, 61, rfl⟩
abbrev main_v37 : Ref sig .tc := ⟨.hbm, 62, rfl⟩
abbrev main_cst_4 : Ref sig .tc := ⟨.hbm, 63, rfl⟩
abbrev main_v38 : Ref sig .tc := ⟨.hbm, 64, rfl⟩
abbrev main_cst_5 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_cst_6 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_c : Ref sig .tc := ⟨.hbm, 73, rfl⟩
abbrev main_v45 : Ref sig .tc := ⟨.hbm, 74, rfl⟩
abbrev main_v46 : Ref sig .tc := ⟨.hbm, 75, rfl⟩
abbrev main_c_7 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_c_8 : Ref sig .tc := ⟨.hbm, 82, rfl⟩
abbrev main_v52 : Ref sig .tc := ⟨.hbm, 83, rfl⟩
abbrev main_v53 : Ref sig .tc := ⟨.hbm, 84, rfl⟩
abbrev main_c_9 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_c_10 : Ref sig .tc := ⟨.hbm, 98, rfl⟩
abbrev main_v66 : Ref sig .tc := ⟨.hbm, 99, rfl⟩
abbrev main_v67 : Ref sig .tc := ⟨.hbm, 100, rfl⟩
abbrev main_c_11 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_cst_12 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_call2_cst : Ref sig .tc := ⟨.hbm, 121, rfl⟩
abbrev main_call2_v0 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_c_13 : Ref sig .tc := ⟨.hbm, 127, rfl⟩
abbrev main_v90 : Ref sig .tc := ⟨.hbm, 128, rfl⟩
abbrev main_v91 : Ref sig .tc := ⟨.hbm, 129, rfl⟩
abbrev main_c_14 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_cst_15 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_call3_cst : Ref sig .tc := ⟨.hbm, 150, rfl⟩
abbrev main_call3_v0 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_c_16 : Ref sig .tc := ⟨.hbm, 156, rfl⟩
abbrev main_v114 : Ref sig .tc := ⟨.hbm, 157, rfl⟩
abbrev main_v115 : Ref sig .tc := ⟨.hbm, 158, rfl⟩
abbrev main_c_17 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_cst_18 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_call4_cst : Ref sig .tc := ⟨.hbm, 179, rfl⟩
abbrev main_call4_v0 : Ref sig .tc := ⟨.hbm, 180, rfl⟩
abbrev main_v134 : Ref sig .tc := ⟨.hbm, 181, rfl⟩
abbrev main_cst_19 : Ref sig .tc := ⟨.hbm, 182, rfl⟩
abbrev main_v135 : Ref sig .tc := ⟨.hbm, 183, rfl⟩
abbrev main_v136 : Ref sig .tc := ⟨.hbm, 184, rfl⟩
abbrev main_v137 : Ref sig .tc := ⟨.hbm, 185, rfl⟩
abbrev main_cst_20 : Ref sig .tc := ⟨.hbm, 186, rfl⟩
abbrev main_v138 : Ref sig .tc := ⟨.hbm, 187, rfl⟩
abbrev main_cst_21 : Ref sig .tc := ⟨.hbm, 188, rfl⟩
abbrev main_v139 : Ref sig .tc := ⟨.hbm, 189, rfl⟩
abbrev main_v140 : Ref sig .tc := ⟨.hbm, 190, rfl⟩
abbrev main_v141 : Ref sig .tc := ⟨.hbm, 191, rfl⟩
abbrev main_cst_22 : Ref sig .tc := ⟨.hbm, 192, rfl⟩
abbrev main_v142 : Ref sig .tc := ⟨.hbm, 193, rfl⟩
abbrev main_v143 : Ref sig .tc := ⟨.hbm, 194, rfl⟩
abbrev main_v144 : Ref sig .tc := ⟨.hbm, 195, rfl⟩
abbrev main_v145 : Ref sig .tc := ⟨.hbm, 196, rfl⟩
abbrev main_v146 : Ref sig .tc := ⟨.hbm, 197, rfl⟩
abbrev main_v147 : Ref sig .tc := ⟨.hbm, 198, rfl⟩
abbrev main_v148 : Ref sig .tc := ⟨.hbm, 199, rfl⟩
abbrev main_v149 : Ref sig .tc := ⟨.hbm, 200, rfl⟩
abbrev main_v150 : Ref sig .tc := ⟨.hbm, 201, rfl⟩
abbrev main_call5_cst : Ref sig .tc := ⟨.hbm, 202, rfl⟩
abbrev main_call5_v0 : Ref sig .tc := ⟨.hbm, 203, rfl⟩
abbrev main_v151 : Ref sig .tc := ⟨.hbm, 204, rfl⟩
abbrev main_v152 : Ref sig .tc := ⟨.hbm, 205, rfl⟩
abbrev main_v153 : Ref sig .tc := ⟨.hbm, 206, rfl⟩
abbrev main_v154 : Ref sig .tc := ⟨.hbm, 207, rfl⟩
abbrev main_v155 : Ref sig .tc := ⟨.hbm, 208, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  reducesTo_S50000x128_S50000_d1 : S50000x128.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  bcast_S64_S1x64_1 : S64.BroadcastsInDim S1x64 (![1] : Fin 1 → Fin S1x64.rank)
  bcast_S1x64_S600000x64_0_1 : S1x64.BroadcastsInDim S600000x64 (![0, 1] : Fin 2 → Fin S600000x64.rank)
  bcast_S_S600000x64 : S_.BroadcastsInDim S600000x64 (![] : Fin 0 → Fin S600000x64.rank)
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  slices_S3x128x128_S1x128x128_0_0_0 : S3x128x128.Slices ![0, 0, 0] S1x128x128
  shapeCasts_S1x128x128_S128x128 : S1x128x128.ShapeCasts S128x128
  bcast_S600000x1_S600000x128_0_1 : S600000x1.BroadcastsInDim S600000x128 (![0, 1] : Fin 2 → Fin S600000x128.rank)
  slices_S3x128_S1x128_0_0 : S3x128.Slices ![0, 0] S1x128
  shapeCasts_S1x128_S128 : S1x128.ShapeCasts S128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S_S64x128 : S_.BroadcastsInDim S64x128 (![] : Fin 0 → Fin S64x128.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S1x64_S64x64_0_1 : S1x64.BroadcastsInDim S64x64 (![0, 1] : Fin 2 → Fin S64x64.rank)
  bcast_S_S64x64 : S_.BroadcastsInDim S64x64 (![] : Fin 0 → Fin S64x64.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  dot_S50000x64_S64x128_S50000x128_1_0_0_1_n_n_wf : DotDims.WF S50000x64 S64x128 S50000x128 [1] [0] [0] [1] [] []
  dot_S600000x16_S16x64_S600000x64_1_0_0_1_n_n_wf : DotDims.WF S600000x16 S16x64 S600000x64 [1] [0] [0] [1] [] []
  scatter_S50000_S600000x1_S600000_n_0_0_1_wf : ScatterDims.WF S50000 S600000x1 S600000 [] [0] [0] 1
  gather_S50000_S600000x1_S600000_n_0_n_n_0_1_1_wf : GatherDims.WF S50000 S600000x1 S600000 [] [0] [] [0] [] 1 ![1]
  dot_S50000x128_S128x128_S50000x128_1_0_0_1_n_n_wf : DotDims.WF S50000x128 S128x128 S50000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S64x128_S50000x1_S50000x128_1_0_0_1_wf : ScatterDims.WF S64x128 S50000x1 S50000x128 [1] [0] [0] 1
  scatter_S64_S50000x1_S50000_n_0_0_1_wf : ScatterDims.WF S64 S50000x1 S50000 [] [0] [0] 1
  dot_S64x128_S128x64_S64x64_1_0_0_1_n_n_wf : DotDims.WF S64x128 S128x64 S64x64 [1] [0] [0] [1] [] []
  dot_S64x64_S64x1_S64x1_1_0_0_1_n_n_wf : DotDims.WF S64x64 S64x1 S64x1 [1] [0] [0] [1] [] []

variable [Facts₀]

def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def dot_S600000x16_S16x64_S600000x64_1_0_0_1_n_n : DotDims S600000x16 S16x64 S600000x64 where
  lhsContracting := [1]
  rhsContracting := [0]
  lhsNonContracting := [0]
  rhsNonContracting := [1]
  lhsBatch := []
  rhsBatch := []
  wf := dot_S600000x16_S16x64_S600000x64_1_0_0_1_n_n_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000_S600000x1_S600000_n_0_n_n_0_1_1 : GatherDims S50000 S600000x1 S600000 where
  offsetDims := []
  collapsedSliceDims := [0]
  operandBatchingDims := []
  startIndicesBatchingDims := []
  startIndexMap := [0]
  indexVectorDim := 1
  sliceSizes := ![1]
  wf := gather_S50000_S600000x1_S600000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x128_S128x64_S64x64_1_0_0_1_n_n : DotDims S64x128 S128x64 S64x64 where
  lhsContracting := [1]
  rhsContracting := [0]
  lhsNonContracting := [0]
  rhsNonContracting := [1]
  lhsBatch := []
  rhsBatch := []
  wf := dot_S64x128_S128x64_S64x64_1_0_0_1_n_n_wf
def dot_S64x64_S64x1_S64x1_1_0_0_1_n_n : DotDims S64x64 S64x1 S64x1 where
  lhsContracting := [1]
  rhsContracting := [0]
  lhsNonContracting := [0]
  rhsNonContracting := [1]
  lhsBatch := []
  rhsBatch := []
  wf := dot_S64x64_S64x1_S64x1_1_0_0_1_n_n_wf

class Facts : Prop extends Facts₀ where

variable [Facts]
-- ==== Proof.KData0.lean ====
import proofs.«430762_j39556648796267_2_alg».proof.Proof.Gen.Kernel.Launch
import proofs.«430762_j39556648796267_2_alg».proof.Proof.Gen.Kernel.Skeleton
import proofs.«430762_j39556648796267_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! Pipeline 0 (the node encoder fused with the first linear step): the blocks its windows hold at a grid point,
    what the body leaves in the output window's buffer as a function of those blocks, and the proof data over
    them, all at the buffer contents `V` the region is entered with. -/

variable (V : (c : Dev nD) → (b : Ref sig .tc) → Buf (Elt F) ((c : Thread nD τ).loc b))

/-- Window `w`'s block at point `t`: the rows `5000 t … 5000 t + 4999` of the node features and of the
    normalisation column, all of each parameter array. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole of a 5000×64 buffer. -/
abbrev r0_X : Rect S5000x64 := Rect.unit (s := S5000x64) ![0, 0] S5000x64.size inb_S5000x64_S5000x64_0_0
/-- The whole of a 64×128 buffer. -/
abbrev r0_E : Rect S64x128 := Rect.unit (s := S64x128) ![0, 0] S64x128.size inb_S64x128_S64x128_0_0
/-- The whole of a 1×128 buffer. -/
abbrev r0_B : Rect S1x128 := Rect.unit (s := S1x128) ![0, 0] S1x128.size inb_S1x128_S1x128_0_0
/-- The whole of a 128×128 buffer. -/
abbrev r0_W : Rect S128x128 := Rect.unit (s := S128x128) ![0, 0] S128x128.size inb_S128x128_S128x128_0_0
/-- The whole of a 5000×1 buffer. -/
abbrev r0_C : Rect S5000x1 := Rect.unit (s := S5000x1) ![0, 0] S5000x1.size inb_S5000x1_S5000x1_0_0
/-- The whole of a 5000×128 buffer. -/
abbrev r0_A : Rect S5000x128 := Rect.unit (s := S5000x128) ![0, 0] S5000x128.size inb_S5000x128_S5000x128_0_0

/-- What the body leaves in the output window's buffer, from the blocks of the node features `x0`, the encoder
    weight `x1` and bias `x2`, the normalisation's scale `x3` and shift `x4`, the first layer's weight `x5` and
    the degree column `x6`: its one store, of the whole buffer. -/
def out0_7 (x0 : Vec F S5000x64 .f32) (x1 : Vec F S64x128 .f32) (x2 x3 x4 : Vec F S1x128 .f32) (x5 : Vec F S128x128 .f32)
    (x6 : Vec F S5000x1 .f32) : Vec F S5000x128 .f32 :=
  View.canon [⟨r0_A, k0_pay1 (k0_pay2 (View.ld x0 r0_X) (View.ld x1 r0_E) (View.ld x2 r0_B) (View.ld x3 r0_B) (View.ld x4 r0_B))
    (k0_pay3 (View.ld x5 r0_W)) (View.ld x6 r0_C)⟩]

/-- The proof data of pipeline 0 on core `c`: the arrays as the region finds them; after the body at point `t`
    every input's buffer still at its block and the output's at `out0_7` of the input blocks; the scoped rest and
    the generator register as the invariant; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t
    = out0_7 (iblk0 V c 0 t) (iblk0 V c 1 t) (iblk0 V c 2 t) (iblk0 V c 3 t) (iblk0 V c 4 t) (iblk0 V c 5 t) (iblk0 V c 6 t) := by
  dsimp only [dat0]

end Cert.Kernel.Hand

end
-- ==== Proof.KRegion0.lean ====
import proofs.«430762_j39556648796267_2_alg».proof.Proof.KData0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The frame half of pipeline 0 (the node encoder, its layer norm and the first linear step): at every grid point
    the body finds each input window's block in that window's staging buffer, and leaves the inputs as they were
    and the output buffer at `out0_7` of the seven input blocks. -/

variable (V : (c : Dev nD) → (b : Ref sig .tc) → Buf (Elt F) ((c : Thread nD τ).loc b))

/-! ## What the body finds in the input windows' buffers -/

/-- Input window 0's current staging buffer holds its block at every point (it is fetched at every point), for any proof data whose
    array is the entry contents' and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point (it is fetched at the first point only, and its block index never moves, so an unfetched point still holds the block), for any proof data whose
    array is the entry contents' and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point (it is fetched at the first point only, and its block index never moves, so an unfetched point still holds the block), for any proof data whose
    array is the entry contents' and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point (it is fetched at the first point only, and its block index never moves, so an unfetched point still holds the block), for any proof data whose
    array is the entry contents' and whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point (it is fetched at the first point only, and its block index never moves, so an unfetched point still holds the block), for any proof data whose
    array is the entry contents' and whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point (it is fetched at the first point only, and its block index never moves, so an unfetched point still holds the block), for any proof data whose
    array is the entry contents' and whose body leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every point (it is fetched at every point), for any proof data whose
    array is the entry contents' and whose body leaves the block in place. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The output buffer after the body -/

/-- The body's one store is of the whole 5000×128 buffer, so it covers it. -/
theorem cover0_7 (p0 : Vec F S5000x128 .f32) (y : S5000x128.Idx) :
    ∃ pc ∈ ([⟨r0_A, p0⟩] : List (View.Piece (Elt F) S5000x128 .f32)), y ∈ pc.1.set :=
  View.cover_of_tiled [⟨r0_A, p0⟩] S5000x128.size (by rfl) y

/-! ## The body's triple -/

set_option maxHeartbeats 1000000 in
/-- The kernel body on whole staging memrefs, the seven inputs' at read contents `x0 … x6` and the output's at
    anything, runs to the continuation holding the inputs' as they were and the output's at `out0_7` of them: the
    body reads the seven inputs whole (six of them inside its first part), reads the output buffer once without
    using what it read, and stores the whole output buffer once. -/
theorem sound_kernel0 (c : Dev nD) (E : Set ℕ) (i : grid0.Coords) (arg0 : Memref sig .tc .vmem S5000x64 .f32) (harg0 : arg0.IsWhole) (arg1 : Memref sig .tc .vmem S64x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S5000x1 .f32) (harg6 : arg6.IsWhole) (arg7 : Memref sig .tc .vmem S5000x128 .f32) (harg7 : arg7.IsWhole)
    (x0 : Vec F S5000x64 .f32) (x1 : Vec F S64x128 .f32) (x2 : Vec F S1x128 .f32) (x3 : Vec F S1x128 .f32) (x4 : Vec F S1x128 .f32) (x5 : Vec F S128x128 .f32) (x6 : Vec F S5000x1 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (out0_7 x0 x1 x2 x3 x4 x5 x6)) -∗ K ⟨⟩))
      ⊢ wp frame (wpE (defs₀ (F := F)) Variants.none c none) E (cc0__encode_linear_kernel i arg0 harg0 arg1 harg1 arg2 harg2 arg3 harg3 arg4 harg4 arg5 harg5 arg6 harg6 arg7 harg7) K := by
  simp only [cc0__encode_linear_kernel_eq_skeleton]; unfold cc0__encode_linear_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover0_7 _)

/-! ## At the proof data of this pipeline -/

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

/-- What the body is called with at point `t`: the invariant, the core's debts, and each window's current staging
    buffer at what the pipeline left there. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns: the same, each staging buffer at what the body leaves there. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

/-- The body at any point: the input buffers hold their blocks, so the body's triple applies at those blocks; the
    invariant and the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ (iblk0 V c 0 t) (iblk0 V c 1 t) (iblk0 V c 2 t) (iblk0 V c 3 t)
    (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KData1.lean ====
import proofs.«430762_j39556648796267_2_alg».proof.Proof.Gen.Kernel.Launch
import proofs.«430762_j39556648796267_2_alg».proof.Proof.Gen.Kernel.Skeleton
import proofs.«430762_j39556648796267_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! Pipeline 1 (the fused combine-and-linear step): the blocks its windows hold at a grid point, what the body
    leaves in the output window's buffer as a function of those blocks, and the proof data over them, all at
    the buffer contents `V` the region is entered with. -/

variable (V : (c : Dev nD) → (b : Ref sig .tc) → Buf (Elt F) ((c : Thread nD τ).loc b))

/-- Window `w`'s block at point `t`: the rows `5000 t … 5000 t + 4999` of its array (all of it for the bias and
    the weight), read off the array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole of a 5000×128 buffer. -/
abbrev r1_A : Rect S5000x128 := Rect.unit (s := S5000x128) ![0, 0] S5000x128.size inb_S5000x128_S5000x128_0_0
/-- The whole of a 5000×1 buffer. -/
abbrev r1_C : Rect S5000x1 := Rect.unit (s := S5000x1) ![0, 0] S5000x1.size inb_S5000x1_S5000x1_0_0
/-- The whole of a 1×128 buffer. -/
abbrev r1_B : Rect S1x128 := Rect.unit (s := S1x128) ![0, 0] S1x128.size inb_S1x128_S1x128_0_0
/-- The whole of a 128×128 buffer. -/
abbrev r1_W : Rect S128x128 := Rect.unit (s := S128x128) ![0, 0] S128x128.size inb_S128x128_S128x128_0_0

/-- What the body leaves in the output window's buffer, from the blocks of the aggregate `x0`, the message `x1`,
    the normalisation column `x2`, the bias `x3` and the weight `x4`: its one store, of the whole buffer. -/
def out1_5 (x0 x1 : Vec F S5000x128 .f32) (x2 : Vec F S5000x1 .f32) (x3 : Vec F S1x128 .f32) (x4 : Vec F S128x128 .f32) :
    Vec F S5000x128 .f32 :=
  View.canon [⟨r1_A, k1_pay1 (View.ld x2 r1_C) (View.ld x0 r1_A) (View.ld x1 r1_A) (View.ld x3 r1_B) (View.ld x4 r1_W) (View.ld x2 r1_C)⟩]

/-- The proof data of pipeline 1 on core `c`: the arrays as the region finds them; after the body at point `t`
    every input's buffer still at its block and the output's at `out1_5` of the input blocks; the scoped rest and
    the generator register as the invariant; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t
    = out1_5 (iblk1 V c 0 t) (iblk1 V c 1 t) (iblk1 V c 2 t) (iblk1 V c 3 t) (iblk1 V c 4 t) := by dsimp only [dat1]

end Cert.Kernel.Hand

end
-- ==== Proof.KRegion1.lean ====
import proofs.«430762_j39556648796267_2_alg».proof.Proof.Gen.Kernel.Launch
import proofs.«430762_j39556648796267_2_alg».proof.Proof.Gen.Kernel.Skeleton
import proofs.«430762_j39556648796267_2_alg».proof.Proof.Gen.Kernel.Points
import proofs.«430762_j39556648796267_2_alg».proof.Proof.KData1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! Pipeline 1 (the fused combine-and-linear step), the frame half: every input window's buffer holds its block
    when the body is called, the body's triple on whole buffers, and from the two the body obligation at every
    grid point. -/

variable (V : (c : Dev nD) → (b : Ref sig .tc) → Buf (Elt F) ((c : Thread nD τ).loc b))

/-- Input window 0's current buffer holds its block at every point, fetched there or not, for any proof data
    whose array is `V`'s and whose body leaves the block in place: where the window is not fetched its block index
    has not moved, so the block already there is this point's. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current buffer holds its block at every point, fetched there or not, for any proof data
    whose array is `V`'s and whose body leaves the block in place: where the window is not fetched its block index
    has not moved, so the block already there is this point's. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current buffer holds its block at every point, fetched there or not, for any proof data
    whose array is `V`'s and whose body leaves the block in place: where the window is not fetched its block index
    has not moved, so the block already there is this point's. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current buffer holds its block at every point, fetched there or not, for any proof data
    whose array is `V`'s and whose body leaves the block in place: where the window is not fetched its block index
    has not moved, so the block already there is this point's. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current buffer holds its block at every point, fetched there or not, for any proof data
    whose array is `V`'s and whose body leaves the block in place: where the window is not fetched its block index
    has not moved, so the block already there is this point's. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Each input's current buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body's triple -/

/-- The body's one store is of the whole output buffer, so it covers it. -/
theorem cover1_5 (p0 : Vec F S5000x128 .f32) (y : S5000x128.Idx) :
    ∃ pc ∈ ([⟨r1_A, p0⟩] : List (View.Piece (Elt F) S5000x128 .f32)), y ∈ pc.1.set :=
  View.cover_of_tiled [⟨r1_A, p0⟩] S5000x128.size (by rfl) y

set_option maxHeartbeats 1000000 in
/-- The kernel body on whole buffers, the five inputs' at contents `x0 … x4` and the output's at anything, runs to
    the continuation with the inputs' as they were and the output's at `out1_5` of the inputs': it reads the
    normalisation column, the aggregate, the message, the bias, the weight and the column again, reads the output
    buffer (a value it never uses), and stores the whole output buffer once. -/
theorem sound_kernel1 (c : Dev nD) (E : Set ℕ) (i : grid1.Coords)
    (arg1 : Memref sig .tc .vmem S5000x128 .f32) (harg1 : arg1.IsWhole) (arg2 : Memref sig .tc .vmem S5000x128 .f32) (harg2 : arg2.IsWhole)
    (arg3 : Memref sig .tc .vmem S5000x1 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S5000x128 .f32) (harg6 : arg6.IsWhole)
    (x0 x1 : Vec F S5000x128 .f32) (x2 : Vec F S5000x1 .f32) (x3 : Vec F S1x128 .f32) (x4 : Vec F S128x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__combine_linear_kernel i arg1 harg1 arg2 harg2 arg3 harg3 arg4 harg4 arg5 harg5 arg6 harg6) K := by
  simp only [cc1__combine_linear_kernel_eq_skeleton]; unfold cc1__combine_linear_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The body obligation, at a generic point -/

/-- What the body is called with at point `t`: the invariant, what the core owes, and the six windows' current
    buffers, each at what the pipeline leaves in it before the body. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- What the body returns: the same invariant and debt, and the six buffers at the proof data's `after`. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' buffers hold their blocks, so the body's triple applies; the invariant and
    the core's debt pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of pipeline 1, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KData2.lean ====
import proofs.«430762_j39556648796267_2_alg».proof.Proof.Gen.Kernel.Launch
import proofs.«430762_j39556648796267_2_alg».proof.Proof.Gen.Kernel.Skeleton
import proofs.«430762_j39556648796267_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! Pipeline 2 (the fused combine-and-linear step): the blocks its windows hold at a grid point, what the body
    leaves in the output window's buffer as a function of those blocks, and the proof data over them, all at
    the buffer contents `V` the region is entered with. -/

variable (V : (c : Dev nD) → (b : Ref sig .tc) → Buf (Elt F) ((c : Thread nD τ).loc b))

/-- Window `w`'s block at point `t`: the rows `5000 t … 5000 t + 4999` of its array (all of it for the bias and
    the weight), read off the array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The whole of a 5000×128 buffer. -/
abbrev r2_A : Rect S5000x128 := Rect.unit (s := S5000x128) ![0, 0] S5000x128.size inb_S5000x128_S5000x128_0_0
/-- The whole of a 5000×1 buffer. -/
abbrev r2_C : Rect S5000x1 := Rect.unit (s := S5000x1) ![0, 0] S5000x1.size inb_S5000x1_S5000x1_0_0
/-- The whole of a 1×128 buffer. -/
abbrev r2_B : Rect S1x128 := Rect.unit (s := S1x128) ![0, 0] S1x128.size inb_S1x128_S1x128_0_0
/-- The whole of a 128×128 buffer. -/
abbrev r2_W : Rect S128x128 := Rect.unit (s := S128x128) ![0, 0] S128x128.size inb_S128x128_S128x128_0_0

/-- What the body leaves in the output window's buffer, from the blocks of the aggregate `x0`, the message `x1`,
    the normalisation column `x2`, the bias `x3` and the weight `x4`: its one store, of the whole buffer. -/
def out2_5 (x0 x1 : Vec F S5000x128 .f32) (x2 : Vec F S5000x1 .f32) (x3 : Vec F S1x128 .f32) (x4 : Vec F S128x128 .f32) :
    Vec F S5000x128 .f32 :=
  View.canon [⟨r2_A, k2_pay1 (View.ld x2 r2_C) (View.ld x0 r2_A) (View.ld x1 r2_A) (View.ld x3 r2_B) (View.ld x4 r2_W) (View.ld x2 r2_C)⟩]

/-- The proof data of pipeline 2 on core `c`: the arrays as the region finds them; after the body at point `t`
    every input's buffer still at its block and the output's at `out2_5` of the input blocks; the scoped rest and
    the generator register as the invariant; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t
    = out2_5 (iblk2 V c 0 t) (iblk2 V c 1 t) (iblk2 V c 2 t) (iblk2 V c 3 t) (iblk2 V c 4 t) := by dsimp only [dat2]

end Cert.Kernel.Hand

end
-- ==== Proof.KRegion2.lean ====

import proofs.«430762_j39556648796267_2_alg».proof.Proof.Gen.Kernel.Launch
import proofs.«430762_j39556648796267_2_alg».proof.Proof.Gen.Kernel.Skeleton
import proofs.«430762_j39556648796267_2_alg».proof.Proof.Gen.Kernel.Points
import proofs.«430762_j39556648796267_2_alg».proof.Proof.KData2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! pipeline 2 (the fused combine-and-linear step), the frame half: every input window's buffer holds its block
    when the body is called, the body's triple on whole buffers, and from the two the body obligation at every
    grid point. -/

variable (V : (c : Dev nD) → (b : Ref sig .tc) → Buf (Elt F) ((c : Thread nD τ).loc b))

/-- Input window 0's current buffer holds its block at every point, fetched there or not, for any proof data
    whose array is `V`'s and whose body leaves the block in place: where the window is not fetched its block index
    has not moved, so the block already there is this point's. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current buffer holds its block at every point, fetched there or not, for any proof data
    whose array is `V`'s and whose body leaves the block in place: where the window is not fetched its block index
    has not moved, so the block already there is this point's. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current buffer holds its block at every point, fetched there or not, for any proof data
    whose array is `V`'s and whose body leaves the block in place: where the window is not fetched its block index
    has not moved, so the block already there is this point's. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current buffer holds its block at every point, fetched there or not, for any proof data
    whose array is `V`'s and whose body leaves the block in place: where the window is not fetched its block index
    has not moved, so the block already there is this point's. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current buffer holds its block at every point, fetched there or not, for any proof data
    whose array is `V`'s and whose body leaves the block in place: where the window is not fetched its block index
    has not moved, so the block already there is this point's. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Each input's current buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body's triple -/

/-- The body's one store is of the whole output buffer, so it covers it. -/
theorem cover2_5 (p0 : Vec F S5000x128 .f32) (y : S5000x128.Idx) :
    ∃ pc ∈ ([⟨r2_A, p0⟩] : List (View.Piece (Elt F) S5000x128 .f32)), y ∈ pc.1.set :=
  View.cover_of_tiled [⟨r2_A, p0⟩] S5000x128.size (by rfl) y

set_option maxHeartbeats 1000000 in
/-- The kernel body on whole buffers, the five inputs' at contents `x0 … x4` and the output's at anything, runs to
    the continuation with the inputs' as they were and the output's at `out2_5` of the inputs': it reads the
    normalisation column, the aggregate, the message, the bias, the weight and the column again, reads the output
    buffer (a value it never uses), and stores the whole output buffer once. -/
theorem sound_kernel2 (c : Dev nD) (E : Set ℕ) (i : grid2.Coords)
    (arg1 : Memref sig .tc .vmem S5000x128 .f32) (harg1 : arg1.IsWhole) (arg2 : Memref sig .tc .vmem S5000x128 .f32) (harg2 : arg2.IsWhole)
    (arg3 : Memref sig .tc .vmem S5000x1 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S5000x128 .f32) (harg6 : arg6.IsWhole)
    (x0 x1 : Vec F S5000x128 .f32) (x2 : Vec F S5000x1 .f32) (x3 : Vec F S1x128 .f32) (x4 : Vec F S128x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out2_5 x0 x1 x2 x3 x4)) -∗ K ⟨⟩))
      ⊢ wp frame (wpE (defs₀ (F := F)) Variants.none c none) E (cc2__combine_linear_kernel i arg1 harg1 arg2 harg2 arg3 harg3 arg4 harg4 arg5 harg5 arg6 harg6) K := by
  simp only [cc2__combine_linear_kernel_eq_skeleton]; unfold cc2__combine_linear_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The body obligation, at a generic point -/

/-- What the body is called with at point `t`: the invariant, what the core owes, and the six windows' current
    buffers, each at what the pipeline leaves in it before the body. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- What the body returns: the same invariant and debt, and the six buffers at the proof data's `after`. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' buffers hold their blocks, so the body's triple applies; the invariant and
    the core's debt pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of pipeline 2, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KData3.lean ====
import proofs.«430762_j39556648796267_2_alg».proof.Proof.Gen.Kernel.Launch
import proofs.«430762_j39556648796267_2_alg».proof.Proof.Gen.Kernel.Skeleton
import proofs.«430762_j39556648796267_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Kit
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! Pipeline 3 (the last combine step fused with the per-graph sums): the blocks its windows hold at a grid point,
    the running sums its scratch accumulator holds after each point, and the proof data over them, all at the
    buffer contents `V` the region is entered with. The accumulator is cleared at the first point, every point
    adds its 5000 rows' contribution, and the last point copies it into the output window's buffer. -/

variable (V : (c : Dev nD) → (b : Ref sig .tc) → Buf (Elt F) ((c : Thread nD τ).loc b))

/-- Window `w`'s block at point `t`: the rows `5000 t … 5000 t + 4999` of the aggregate, the message, the degree
    column and the graph ids; all of the bias; the whole 64×128 result. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The whole of a 5000×128 buffer. -/
abbrev r3_A : Rect S5000x128 := Rect.unit (s := S5000x128) ![0, 0] S5000x128.size inb_S5000x128_S5000x128_0_0
/-- The whole of a 5000×1 buffer. -/
abbrev r3_C : Rect S5000x1 := Rect.unit (s := S5000x1) ![0, 0] S5000x1.size inb_S5000x1_S5000x1_0_0
/-- The whole of a 1×128 buffer. -/
abbrev r3_B : Rect S1x128 := Rect.unit (s := S1x128) ![0, 0] S1x128.size inb_S1x128_S1x128_0_0
/-- The whole of a 64×128 buffer. -/
abbrev r3_O : Rect S64x128 := Rect.unit (s := S64x128) ![0, 0] S64x128.size inb_S64x128_S64x128_0_0

/-- The grid point at position `n` (positions past the grid wrap; only `n < 10` is ever read). -/
def pt3 (n : ℕ) : Fin cfg3.N := ⟨n % 10, Nat.mod_lt _ (by decide)⟩

/-- One point's update of the accumulator: the sums `s` so far plus this block's contribution, computed from the
    blocks of the aggregate `x0`, the message `x1`, the degree column `x2`, the bias `x3` and the graph ids `x4`. -/
def step3 (x0 x1 : Vec F S5000x128 .f32) (x2 : Vec F S5000x1 .f32) (x3 : Vec F S1x128 .f32) (x4 : Vec F S5000x1 .i32)
    (s : Vec F S64x128 .f32) : Vec F S64x128 .f32 :=
  k3_pay2 (View.ld x2 r3_C) (View.ld x0 r3_A) (View.ld x1 r3_A) (View.ld x3 r3_B) (View.ld x4 r3_C) s

/-- The accumulator after the body at position `n`: cleared and updated at the first point, updated from what the
    point before left at every later one. -/
def acc3 (c : Dev nD) : ℕ → Vec F S64x128 .f32
  | 0 => step3 (iblk3 V c 0 (pt3 0)) (iblk3 V c 1 (pt3 0)) (iblk3 V c 2 (pt3 0)) (iblk3 V c 3 (pt3 0)) (iblk3 V c 4 (pt3 0)) (k3_pay1 (F := F))
  | n + 1 => step3 (iblk3 V c 0 (pt3 (n + 1))) (iblk3 V c 1 (pt3 (n + 1))) (iblk3 V c 2 (pt3 (n + 1))) (iblk3 V c 3 (pt3 (n + 1)))
      (iblk3 V c 4 (pt3 (n + 1))) (acc3 c n)

/-- The region invariant before position `n`: before the first point the scoped rest at anything and the generator
    register; afterwards the accumulator at what the point before left in it, the other scoped buffers at anything,
    and the generator register. -/
def PhiS3 (c : Dev nD) : ℕ → sProp 𝕄
  | 0 => Pipeline.ΦA spec3 c
  | n + 1 => iprop((((c.tc : Thread nD τ).loc cc3_scratch0) ↦{fullShare} (acc3 V c n))
      ∗ Pipeline.scopedRestBut (Ix := Unit) (Name := ℕ) (U := UR sig nD τ) (Lvl := ℕ) (Val := Elt F) spec3 c [cc3_scratch0]
      ∗ ∃ r, prngReg c r)

/-- The proof data of pipeline 3 on core `c`: the arrays as the region finds them; after the body at point `t`
    every input's buffer still at its block and the output's at the accumulator's contents (read only at the last
    point, where it is written back); the invariant `PhiS3`; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => acc3 V c t.val
  Φ t := PhiS3 V c t.val
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = acc3 V c t.val := by dsimp only [dat3]

end Cert.Kernel.Hand

end
-- ==== Proof.KRegion3.lean ====
import proofs.«430762_j39556648796267_2_alg».proof.Proof.Gen.Kernel.Launch
import proofs.«430762_j39556648796267_2_alg».proof.Proof.Gen.Kernel.Skeleton
import proofs.«430762_j39556648796267_2_alg».proof.Proof.Gen.Kernel.Points
import proofs.«430762_j39556648796267_2_alg».proof.Proof.KData3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Kit
import Idealize.ShloMosaic.Lib.Pipeline.Value
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! Pipeline 3 (the last combine step fused with the per-graph sums): the frame half. The body's two conditions in
    closed form over the ten grid points; the body's run in each of its three control cases (first point: the
    accumulator cleared, then updated; middle points: updated; last point: updated, then copied into the output's
    buffer); the body obligation over the proof data `dat3`, by cases on the point; and the two ends of the
    invariant (the class invariant before the first point and after the last). -/

variable (V : (c : Dev nD) → (b : Ref sig .tc) → Buf (Elt F) ((c : Thread nD τ).loc b))

/-! ## The two conditions of the body, over the grid

The body clears the accumulator under the first condition (the grid coordinate is 0) and copies it into the
output under the second (the grid coordinate is 9). Both are computed from the grid coordinate alone, so each is
decided point by point over the ten points. -/

/-- The condition of the clearing branch, from the grid coordinate. -/
abbrev cond3_0 (i : grid3.Coords) : Prop :=
  (Scalar.cmpi .ne (Scalar.extui (Scalar.cmpi .eq (BitVec.ofNat 32 (i 0).val) 0#32)) 0#32) = 1#1
/-- It holds at the first point only. -/
theorem hcond3_0 : ∀ t : Fin cfg3.N, cond3_0 (grid3.coords t) ↔ t.val = 0 :=
  (by decide +kernel : ∀ t : Fin grid3.N, cond3_0 (grid3.coords t) ↔ t.val = 0)

/-- The condition of the copying branch, from the grid coordinate. -/
abbrev cond3_1 (i : grid3.Coords) : Prop := k3_cond2 i = 1#1
/-- It holds at the last point only. -/
theorem hcond3_1 : ∀ t : Fin cfg3.N, cond3_1 (grid3.coords t) ↔ t.val = 9 :=
  (by decide +kernel : ∀ t : Fin grid3.N, cond3_1 (grid3.coords t) ↔ t.val = 9)

/-! ## Where the windows are idle -/

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem liveAt3_3 : ∀ t : Fin cfg3.N, cfg3.idle 3 (grid3.coords t) = false := by decide +kernel
theorem liveAt3_4 : ∀ t : Fin cfg3.N, cfg3.idle 4 (grid3.coords t) = false := by decide +kernel
/-- Away from the last point the output window is idle (the body stores nothing into it there), -/
theorem idleAt3_5 : ∀ t : Fin cfg3.N, ¬cond3_1 (grid3.coords t) → cfg3.idle 5 (grid3.coords t) = true := by decide +kernel
/-- and is not written back. -/
theorem noFlush3_5 : ∀ t : Fin cfg3.N, ¬cond3_1 (grid3.coords t) → (cfg3.win 5).flush t = false := by decide +kernel
/-- At the last point it is live. -/
theorem liveAt3_5 : ∀ t : Fin cfg3.N, cond3_1 (grid3.coords t) → cfg3.idle 5 (grid3.coords t) = false := by decide +kernel

/-! ## What the inputs' staging buffers hold

Each input window's current staging buffer holds the window's block at every point, whether the point fetched it
or not (an unfetched window's block index has not moved). -/

theorem before3_0 (c : Dev nD) (t : Fin cfg3.N) (d) : (dat3 V c).before 0 t d = iblk3 V c 0 t :=
  ((dat3 V c).before_in_eq_fetched 0 rfl (fun _ => rfl) (fun _ _ _ => rfl)
    (fun t => by rw [after3_0]; unfold Dat.blockOf iblk3; rw [A_eq3]; try rfl) t d).trans
    (by unfold Dat.fetched Dat.blockOf iblk3; rw [A_eq3]; try rfl)

theorem before3_1 (c : Dev nD) (t : Fin cfg3.N) (d) : (dat3 V c).before 1 t d = iblk3 V c 1 t :=
  ((dat3 V c).before_in_eq_fetched 1 rfl (fun _ => rfl) (fun _ _ _ => rfl)
    (fun t => by rw [after3_1]; unfold Dat.blockOf iblk3; rw [A_eq3]; try rfl) t d).trans
    (by unfold Dat.fetched Dat.blockOf iblk3; rw [A_eq3]; try rfl)

theorem before3_2 (c : Dev nD) (t : Fin cfg3.N) (d) : (dat3 V c).before 2 t d = iblk3 V c 2 t :=
  ((dat3 V c).before_in_eq_fetched 2 rfl (fun _ => rfl) (fun _ _ _ => rfl)
    (fun t => by rw [after3_2]; unfold Dat.blockOf iblk3; rw [A_eq3]; try rfl) t d).trans
    (by unfold Dat.fetched Dat.blockOf iblk3; rw [A_eq3]; try rfl)

theorem before3_3 (c : Dev nD) (t : Fin cfg3.N) (d) : (dat3 V c).before 3 t d = iblk3 V c 3 t :=
  ((dat3 V c).before_in_eq_fetched 3 rfl (fun _ => rfl) (fun _ _ _ => rfl)
    (fun t => by rw [after3_3]; unfold Dat.blockOf iblk3; rw [A_eq3]; try rfl) t d).trans
    (by unfold Dat.fetched Dat.blockOf iblk3; rw [A_eq3]; try rfl)

theorem before3_4 (c : Dev nD) (t : Fin cfg3.N) (d) : (dat3 V c).before 4 t d = iblk3 V c 4 t :=
  ((dat3 V c).before_in_eq_fetched 4 rfl (fun _ => rfl) (fun _ _ _ => rfl)
    (fun t => by rw [after3_4]; unfold Dat.blockOf iblk3; rw [A_eq3]; try rfl) t d).trans
    (by unfold Dat.fetched Dat.blockOf iblk3; rw [A_eq3]; try rfl)

/-- The zero offsets of a whole-buffer rectangle, as a constant function. -/
theorem hz3 : (![0, 0] : Fin 2 → Nat) = fun _ => 0 := funext fun a => by fin_cases a <;> rfl

set_option maxHeartbeats 1000000 in
/-- The body at the first point: the accumulator, found at anything, is cleared and then updated from the point's
    blocks (the update's load reads the zeros back); the output's buffer is handed back as found. -/
theorem run3_first (c : Dev nD) (i : grid3.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x1 .i32) (harg5 : arg5.IsWhole) (arg6 : Memref sig .tc .vmem S64x128 .f32) (harg6 : arg6.IsWhole) (arg7 : Memref sig .tc .vmem S64x128 .f32) (harg7 : arg7.IsWhole) (hc0 : cond3_0 i) (hc1 : ¬cond3_1 i)
    (x0 x1 : Vec F S5000x128 .f32) (x2 : Vec F S5000x1 .f32) (x3 : Vec F S1x128 .f32) (x4 : Vec F S5000x1 .i32) (xi5 : Vec F S64x128 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare xi5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare xi5
            ∗ owns (c : Thread nD τ) arg7 fullShare (step3 x0 x1 x2 x3 x4 (k3_pay1 (F := F)))) -∗ K ⟨⟩))
      ⊢ wp frame (wpE (defs₀ (F := F)) Variants.none c none) E (cc3__combine_pool_kernel i arg1 harg1 arg2 harg2 arg3 harg3 arg4 harg4 arg5 harg5 arg6 harg6 arg7 harg7) K := by
  simp only [cc3__combine_pool_kernel_eq_skeleton]; unfold cc3__combine_pool_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  iexists _; isplitr
  swap; · iexact HS0
  ipureintro
  sl_unfold_run_names
  rw [View.read_writes_eq_canon _ _ _ (fun y => ⟨_, List.mem_cons_self, View.mem_set_unit_zero hz3 inb_S64x128_S64x128_0_0 y⟩)]
  rw [View.canon_cons_unit_zero hz3]
  simp only [View.readAt_eq_ld, Memref.IsWhole.read_unread, View.readCov_unit_zero (S := S64x128) _ hz3]
  rfl

set_option maxHeartbeats 1000000 in
/-- The body at a point that is neither the first nor the last: the accumulator, found at `xs`, is updated from the
    point's blocks; the output's buffer is handed back as found. -/
theorem run3_middle (c : Dev nD) (i : grid3.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x1 .i32) (harg5 : arg5.IsWhole) (arg6 : Memref sig .tc .vmem S64x128 .f32) (harg6 : arg6.IsWhole) (arg7 : Memref sig .tc .vmem S64x128 .f32) (harg7 : arg7.IsWhole) (hc0 : ¬cond3_0 i) (hc1 : ¬cond3_1 i)
    (x0 x1 : Vec F S5000x128 .f32) (x2 : Vec F S5000x1 .f32) (x3 : Vec F S1x128 .f32) (x4 : Vec F S5000x1 .i32) (xi5 : Vec F S64x128 .f32) (xs : Vec F S64x128 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare xi5
        ∗ owns (c : Thread nD τ) arg7 fullShare xs
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare xi5
            ∗ owns (c : Thread nD τ) arg7 fullShare (step3 x0 x1 x2 x3 x4 xs)) -∗ K ⟨⟩))
      ⊢ wp frame (wpE (defs₀ (F := F)) Variants.none c none) E (cc3__combine_pool_kernel i arg1 harg1 arg2 harg2 arg3 harg3 arg4 harg4 arg5 harg5 arg6 harg6 arg7 harg7) K := by
  simp only [cc3__combine_pool_kernel_eq_skeleton]; unfold cc3__combine_pool_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5; obtain rfl := harg7.eq_unread hfs0
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  iexists _; isplitr
  swap; · iexact HS0
  ipureintro
  sl_unfold_run_names
  rw [View.read_writes_eq_canon _ _ _ (fun y => ⟨_, List.mem_cons_self, View.mem_set_unit_zero hz3 inb_S64x128_S64x128_0_0 y⟩)]
  rw [View.canon_unit_zero hz3]
  simp only [View.readAt_eq_ld, Memref.IsWhole.read_unread, View.ld_unit_zero (S := S64x128) hz3]
  rfl

set_option maxHeartbeats 1000000 in
/-- The body at the last point: the accumulator, found at `xs`, is updated from the point's blocks and then copied
    into the output's buffer, found at anything. -/
theorem run3_last (c : Dev nD) (i : grid3.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x1 .i32) (harg5 : arg5.IsWhole) (arg6 : Memref sig .tc .vmem S64x128 .f32) (harg6 : arg6.IsWhole) (arg7 : Memref sig .tc .vmem S64x128 .f32) (harg7 : arg7.IsWhole) (hc0 : ¬cond3_0 i) (hc1 : cond3_1 i)
    (x0 x1 : Vec F S5000x128 .f32) (x2 : Vec F S5000x1 .f32) (x3 : Vec F S1x128 .f32) (x4 : Vec F S5000x1 .i32) (xs : Vec F S64x128 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ owns (c : Thread nD τ) arg7 fullShare xs
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare (step3 x0 x1 x2 x3 x4 xs)
            ∗ owns (c : Thread nD τ) arg7 fullShare (step3 x0 x1 x2 x3 x4 xs)) -∗ K ⟨⟩))
      ⊢ wp frame (wpE (defs₀ (F := F)) Variants.none c none) E (cc3__combine_pool_kernel i arg1 harg1 arg2 harg2 arg3 harg3 arg4 harg4 arg5 harg5 arg6 harg6 arg7 harg7) K := by
  simp only [cc3__combine_pool_kernel_eq_skeleton]; unfold cc3__combine_pool_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
  obtain rfl := harg1.eq_unread hf0; obtain rfl := harg2.eq_unread hf1; obtain rfl := harg3.eq_unread hf2
  obtain rfl := harg4.eq_unread hf3; obtain rfl := harg5.eq_unread hf4; obtain rfl := harg7.eq_unread hfs0
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr
    swap; · iexact H5
    ipureintro
    sl_unfold_run_names
    rw [View.read_writes_eq_canon _ _ _ (fun y => ⟨_, List.mem_cons_self, View.mem_set_unit_zero hz3 inb_S64x128_S64x128_0_0 y⟩)]
    rw [View.canon_unit_zero hz3]
    simp only [View.readAt_eq_ld, Memref.IsWhole.read_unread, View.readCov_unit_zero (S := S64x128) _ hz3, View.ld_unit_zero (S := S64x128) hz3]
    rfl
  iexists _; isplitr
  swap; · iexact HS0
  ipureintro
  sl_unfold_run_names
  rw [View.read_writes_eq_canon _ _ _ (fun y => ⟨_, List.mem_cons_self, View.mem_set_unit_zero hz3 inb_S64x128_S64x128_0_0 y⟩)]
  rw [View.canon_unit_zero hz3]
  simp only [View.readAt_eq_ld, Memref.IsWhole.read_unread, View.ld_unit_zero (S := S64x128) hz3]
  rfl

/-! ## The accumulator and the invariant, point by point -/

/-- The grid point at position `t.val` is `t`. -/
theorem pt3_val (t : Fin cfg3.N) : pt3 t.val = t := by
  unfold pt3; exact Fin.ext (Nat.mod_eq_of_lt (lt_of_lt_of_eq t.isLt N_3))

/-- At the first point the accumulator ends at the update of the cleared accumulator by the point's blocks. -/
theorem acc3_first (c : Dev nD) (t : Fin cfg3.N) (h : t.val = 0) :
    acc3 V c t.val = step3 (iblk3 V c 0 t) (iblk3 V c 1 t) (iblk3 V c 2 t) (iblk3 V c 3 t) (iblk3 V c 4 t) (k3_pay1 (F := F)) := by
  have e : pt3 0 = t := by rw [← h]; exact pt3_val t
  rw [h]
  show step3 (iblk3 V c 0 (pt3 0)) (iblk3 V c 1 (pt3 0)) (iblk3 V c 2 (pt3 0)) (iblk3 V c 3 (pt3 0)) (iblk3 V c 4 (pt3 0)) (k3_pay1 (F := F)) = _
  rw [e]

/-- At a later point it ends at the update, by the point's blocks, of what the point before left. -/
theorem acc3_later (c : Dev nD) (t : Fin cfg3.N) (n : ℕ) (h : t.val = n + 1) :
    acc3 V c t.val = step3 (iblk3 V c 0 t) (iblk3 V c 1 t) (iblk3 V c 2 t) (iblk3 V c 3 t) (iblk3 V c 4 t) (acc3 V c n) := by
  have e : pt3 (n + 1) = t := by rw [← h]; exact pt3_val t
  rw [h]
  show step3 (iblk3 V c 0 (pt3 (n + 1))) (iblk3 V c 1 (pt3 (n + 1))) (iblk3 V c 2 (pt3 (n + 1))) (iblk3 V c 3 (pt3 (n + 1)))
    (iblk3 V c 4 (pt3 (n + 1))) (acc3 V c n) = _
  rw [e]

/-- The scratch accumulator as a whole memref. -/
abbrev scM3 : Memref sig .tc .vmem S64x128 .f32 := Memref.whole cc3_scratch0

/-- The class invariant with the accumulator's buffer split out of the scoped rest. -/
theorem PhiA3_eq (c : Dev nD) :
    (Pipeline.ΦA spec3 c : sProp 𝕄)
      = iprop((iprop(∃ d, owns (c : Thread nD τ) scM3 fullShare d)
          ∗ Pipeline.scopedRestBut (Ix := Unit) (Name := ℕ) (U := UR sig nD τ) (Lvl := ℕ) (Val := Elt F) spec3 c [cc3_scratch0])
          ∗ ∃ r, prngReg c r) := by
  unfold Pipeline.ΦA; rw [scopedRest3_split]; simp only [scM3, owns_whole]; rfl

/-- The invariant before a position that is not the first: the accumulator at what the point before left. -/
theorem PhiS3_pos (c : Dev nD) (k n : ℕ) (h : k = n + 1) :
    PhiS3 V c k = iprop(owns (c : Thread nD τ) scM3 fullShare (acc3 V c n)
      ∗ Pipeline.scopedRestBut (Ix := Unit) (Name := ℕ) (U := UR sig nD τ) (Lvl := ℕ) (Val := Elt F) spec3 c [cc3_scratch0]
      ∗ ∃ r, prngReg c r) := by
  subst h; simp only [scM3, owns_whole]; rfl

/-! ## The body obligation -/

/-- Each window's current staging memref at a point, and its wholeness. -/
abbrev ms3_0 (t : Fin cfg3.N) : Memref sig .tc .vmem S5000x128 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S5000x128 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S5000x1 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1x128 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S5000x1 .i32 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S64x128 .f32 := win3_5.stage (cfg3.slots t 5)
abbrev hs3_5 (t : Fin cfg3.N) : (ms3_5 t).IsWhole := hstage3_5 ((cfg3.slots t 5).cast nbuf3_5)

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t)

/-- An input's buffer is left at its block. -/
theorem leaves3_0 (c : Dev nD) (t : Fin cfg3.N) :
    (dat3 V c).leavesExact 0 t = owns (c : Thread nD τ) (ms3_0 t) fullShare (iblk3 V c 0 t) := by
  unfold Dat.leavesExact; rw [liveAt3_0 t, after3_0]
theorem leaves3_1 (c : Dev nD) (t : Fin cfg3.N) :
    (dat3 V c).leavesExact 1 t = owns (c : Thread nD τ) (ms3_1 t) fullShare (iblk3 V c 1 t) := by
  unfold Dat.leavesExact; rw [liveAt3_1 t, after3_1]
theorem leaves3_2 (c : Dev nD) (t : Fin cfg3.N) :
    (dat3 V c).leavesExact 2 t = owns (c : Thread nD τ) (ms3_2 t) fullShare (iblk3 V c 2 t) := by
  unfold Dat.leavesExact; rw [liveAt3_2 t, after3_2]
theorem leaves3_3 (c : Dev nD) (t : Fin cfg3.N) :
    (dat3 V c).leavesExact 3 t = owns (c : Thread nD τ) (ms3_3 t) fullShare (iblk3 V c 3 t) := by
  unfold Dat.leavesExact; rw [liveAt3_3 t, after3_3]
theorem leaves3_4 (c : Dev nD) (t : Fin cfg3.N) :
    (dat3 V c).leavesExact 4 t = owns (c : Thread nD τ) (ms3_4 t) fullShare (iblk3 V c 4 t) := by
  unfold Dat.leavesExact; rw [liveAt3_4 t, after3_4]
/-- At the last point the output's buffer is left at the accumulator's contents. -/
theorem leaves3_5_last (c : Dev nD) (t : Fin cfg3.N) (h : cond3_1 (grid3.coords t)) :
    (dat3 V c).leavesExact 5 t = owns (c : Thread nD τ) (ms3_5 t) fullShare (acc3 V c t.val) := by
  unfold Dat.leavesExact; rw [liveAt3_5 t h, after3_5]

set_option maxHeartbeats 4800000 in
/-- The body at any point. The inputs' buffers hold their blocks; the closed forms of the two conditions say which
    of the three control cases the point is in. At the first point the invariant hands the body the accumulator at
    anything, and the body leaves it at the update of the cleared accumulator; at a later point it hands it at what
    the point before left, and the body leaves it at that updated; away from the last point the output's buffer goes
    back as it was found, and at the last point it ends at the accumulator's final contents. The other scoped buffers
    and the generator register pass through; the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).owesAt () t.succ = (dat3 V c).owesAt () t.castSucc from rfl]
  rw [show (dat3 V c).Φ t.succ = PhiS3 V c (t.val + 1) from rfl, PhiS3_pos V c (t.val + 1) t.val rfl]
  rw [show (dat3 V c).Φ t.castSucc = PhiS3 V c t.val from rfl]
  rw [leaves3_0 V c t, leaves3_1 V c t, leaves3_2 V c t, leaves3_3 V c t, leaves3_4 V c t]
  have hN : t.val < 10 := lt_of_lt_of_eq t.isLt N_3
  by_cases h9 : t.val = 9
  · have hc1 : cond3_1 (grid3.coords t) := (hcond3_1 t).mpr h9
    have hc0 : ¬cond3_0 (grid3.coords t) := fun h => by have := (hcond3_0 t).mp h; omega
    rw [leaves3_5_last V c t hc1, PhiS3_pos V c t.val 8 h9, acc3_later V c t 8 h9]
    iintro ⟨⟨HS, Hrest, Hg⟩, Ho, ⟨%d0, H0⟩, ⟨%d1, H1⟩, ⟨%d2, H2⟩, ⟨%d3, H3⟩, ⟨%d4, H4⟩, ⟨%d5, H5⟩⟩
    · iapply (run3_last c (grid3.coords t) _ (hs3_0 t) _ (hs3_1 t) _ (hs3_2 t) _ (hs3_3 t) _ (hs3_4 t) _ (hs3_5 t) scM3 (Memref.isWhole_whole _) hc0 hc1
        (iblk3 V c 0 t) (iblk3 V c 1 t) (iblk3 V c 2 t) (iblk3 V c 3 t) (iblk3 V c 4 t) (acc3 V c 8) Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, H5, HS⟩
      isplitl [HS Hrest Hg]
      · isplitl [HS]; · iexact HS
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      iexact H5

  · have hc1 : ¬cond3_1 (grid3.coords t) := fun h => h9 ((hcond3_1 t).mp h)
    rw [Dat.leavesExact_idle (dat3 V c) 5 t (idleAt3_5 t hc1) (noFlush3_5 t hc1)]
    by_cases h0 : t.val = 0
    · have hc0 : cond3_0 (grid3.coords t) := (hcond3_0 t).mpr h0
      rw [show PhiS3 V c t.val = Pipeline.ΦA spec3 c from by rw [h0]; rfl, PhiA3_eq, acc3_first V c t h0]
      iintro ⟨⟨⟨HS, Hrest⟩, Hg⟩, Ho, ⟨%d0, H0⟩, ⟨%d1, H1⟩, ⟨%d2, H2⟩, ⟨%d3, H3⟩, ⟨%d4, H4⟩, ⟨%d5, H5⟩⟩
      iapply (run3_first c (grid3.coords t) _ (hs3_0 t) _ (hs3_1 t) _ (hs3_2 t) _ (hs3_3 t) _ (hs3_4 t) _ (hs3_5 t) scM3 (Memref.isWhole_whole _) hc0 hc1
        (iblk3 V c 0 t) (iblk3 V c 1 t) (iblk3 V c 2 t) (iblk3 V c 3 t) (iblk3 V c 4 t) ((dat3 V c).before 5 t d5) Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS Hrest Hg]
      · isplitl [HS]; · iexact HS
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

    · have hc0 : ¬cond3_0 (grid3.coords t) := fun h => h0 ((hcond3_0 t).mp h)
      obtain ⟨n, hn⟩ : ∃ n, t.val = n + 1 := ⟨t.val - 1, by omega⟩
      rw [PhiS3_pos V c t.val n hn, acc3_later V c t n hn]
      iintro ⟨⟨HS, Hrest, Hg⟩, Ho, ⟨%d0, H0⟩, ⟨%d1, H1⟩, ⟨%d2, H2⟩, ⟨%d3, H3⟩, ⟨%d4, H4⟩, ⟨%d5, H5⟩⟩
      iapply (run3_middle c (grid3.coords t) _ (hs3_0 t) _ (hs3_1 t) _ (hs3_2 t) _ (hs3_3 t) _ (hs3_4 t) _ (hs3_5 t) scM3 (Memref.isWhole_whole _) hc0 hc1
        (iblk3 V c 0 t) (iblk3 V c 1 t) (iblk3 V c 2 t) (iblk3 V c 3 t) (iblk3 V c 4 t) ((dat3 V c).before 5 t d5) (acc3 V c n) Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS Hrest Hg]
      · isplitl [HS]; · iexact HS
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ ((dat3 (F := F) V c).Φ 0 : sProp 𝕄) :=
  Idealize.SL.BI.Entails.refl _

/-- After the last point the invariant gives the class invariant back: the accumulator's named contents are forgotten
    and its buffer rejoins the scoped rest. -/
theorem hout3 (c : Dev nD) : ((dat3 (F := F) V c).Φ (Fin.last cfg3.N) : sProp 𝕄) ⊢ Pipeline.ΦA spec3 c := by
  rw [show (dat3 V c).Φ (Fin.last cfg3.N) = PhiS3 V c 10 from rfl, PhiS3_pos V c 10 9 rfl, PhiA3_eq]
  iintro ⟨HS, Hrest, Hg⟩
  isplitl [HS Hrest]
  · isplitl [HS]
    · iexists _; iexact HS
    iexact Hrest
  iexact Hg

end Cert.Kernel.Hand

end
-- ==== Proof.KRun.lean ====
import proofs.«430762_j39556648796267_2_alg».proof.Proof.Gen.Kernel.Launch
import proofs.«430762_j39556648796267_2_alg».proof.Proof.Gen.Kernel.Skeleton
import proofs.«430762_j39556648796267_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«430762_j39556648796267_2_alg».proof.Proof.Gen.Kernel.Regions
import proofs.«430762_j39556648796267_2_alg».proof.Proof.KRegion0
import proofs.«430762_j39556648796267_2_alg».proof.Proof.KRegion1
import proofs.«430762_j39556648796267_2_alg».proof.Proof.KRegion2
import proofs.«430762_j39556648796267_2_alg».proof.Proof.KRegion3
import proofs.«430762_j39556648796267_2_alg».proof.Proof.KRunCond

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The run of the whole program: what each of the four pipelines leaves in its output array, the proof data of
    each at the contents it is entered with, and each region as a segment between the host stretches. -/

variable (m : (ℓ : Loc nD τ sig) → Buf (Elt F) ℓ)

/-- A valuation of the unscoped buffers read at the TensorCore's references. -/
abbrev EV (W : Dev nD → Valuation τ sig (Elt F)) : (c : Dev nD) → (b : Ref sig .tc) → Buf (Elt F) ((c : Thread nD τ).loc b) :=
  fun c b => W c b

/-- What pipeline 0 leaves in its output array: the write-backs of all ten points. -/
def o2 (c : Dev nD) : Buf (Elt F) ((c : Thread nD τ).loc main_v18) := (dat0 (EV (Gen.V1 m)) c).arrAt 7 cfg0.N
/-- The buffers after pipeline 0. -/
def W2 (c : Dev nD) : Valuation τ sig (Elt F) := Function.update (Gen.V1 m c) main_v18 (o2 m c)
/-- The buffers after the second host stretch. -/
def W3 (c : Dev nD) : Valuation τ sig (Elt F) := StableHlo.after hostOps1 (W2 m c)
/-- What pipeline 1 leaves in its output array. -/
def o4 (c : Dev nD) : Buf (Elt F) ((c : Thread nD τ).loc main_v36) := (dat1 (EV (W3 m)) c).arrAt 5 cfg1.N
/-- The buffers after pipeline 1. -/
def W4 (c : Dev nD) : Valuation τ sig (Elt F) := Function.update (W3 m c) main_v36 (o4 m c)
/-- The buffers after the third host stretch. -/
def W5 (c : Dev nD) : Valuation τ sig (Elt F) := StableHlo.after hostOps2 (W4 m c)
/-- What pipeline 2 leaves in its output array. -/
def o6 (c : Dev nD) : Buf (Elt F) ((c : Thread nD τ).loc main_v54) := (dat2 (EV (W5 m)) c).arrAt 5 cfg2.N
/-- The buffers after pipeline 2. -/
def W6 (c : Dev nD) : Valuation τ sig (Elt F) := Function.update (W5 m c) main_v54 (o6 m c)
/-- The buffers after the fourth host stretch. -/
def W7 (c : Dev nD) : Valuation τ sig (Elt F) := StableHlo.after hostOps3 (W6 m c)
/-- What pipeline 3 leaves in its output array: the accumulator's last contents. -/
def o8 (c : Dev nD) : Buf (Elt F) ((c : Thread nD τ).loc main_v70) := (dat3 (EV (W7 m)) c).arrAt 5 cfg3.N

/-- The buffers after pipeline 3. -/
def W8 (c : Dev nD) : Valuation τ sig (Elt F) := Function.update (W7 m c) main_v70 (o8 m c)

theorem W4_of (c : Dev nD) (r : Ref sig .tc) (h : r ≠ main_v36) : W4 m c r = W3 m c r :=
  Function.update_of_ne (StableHlo.devRef_ne_of_ne h) _ _
theorem W4_self (c : Dev nD) : W4 m c main_v36 = o4 m c := Function.update_self _ _ _
theorem W6_of (c : Dev nD) (r : Ref sig .tc) (h : r ≠ main_v54) : W6 m c r = W5 m c r :=
  Function.update_of_ne (StableHlo.devRef_ne_of_ne h) _ _
theorem W6_self (c : Dev nD) : W6 m c main_v54 = o6 m c := Function.update_self _ _ _
theorem W8_of (c : Dev nD) (r : Ref sig .tc) (h : r ≠ main_v70) : W8 m c r = W7 m c r :=
  Function.update_of_ne (StableHlo.devRef_ne_of_ne h) _ _
theorem W8_self (c : Dev nD) : W8 m c main_v70 = o8 m c := Function.update_self _ _ _

/-- What the regions leave, as one family over the references: each pipeline's output array at what the pipeline
    leaves in it (any other reference is never read). -/
def outsH : Gen.Outs (F := F) := fun _ r c =>
  if h : r = main_v18 then h ▸ o2 m c
  else if h : r = main_v36 then h ▸ o4 m c
  else if h : r = main_v54 then h ▸ o6 m c
  else if h : r = main_v70 then h ▸ o8 m c
  else Gen.V0 m c r

theorem outs_v18 (J : ℕ) (c : Dev nD) : outsH m J main_v18 c = o2 m c := by
  unfold outsH; rw [dif_pos rfl]
theorem outs_v36 (J : ℕ) (c : Dev nD) : outsH m J main_v36 c = o4 m c := by
  unfold outsH; rw [dif_neg (by decide), dif_pos rfl]
theorem outs_v54 (J : ℕ) (c : Dev nD) : outsH m J main_v54 c = o6 m c := by
  unfold outsH; rw [dif_neg (by decide), dif_neg (by decide), dif_pos rfl]
theorem outs_v70 (J : ℕ) (c : Dev nD) : outsH m J main_v70 c = o8 m c := by
  unfold outsH; rw [dif_neg (by decide), dif_neg (by decide), dif_neg (by decide), dif_pos rfl]

theorem V2_eq (c : Dev nD) : Gen.V2 m (outsH m) c = W2 m c := by
  show Function.update (Gen.V1 m c) main_v18 (outsH m 2 main_v18 c) = _; rw [outs_v18]; rfl
theorem V3_eq (c : Dev nD) : Gen.V3 m (outsH m) c = W3 m c := by
  show StableHlo.after hostOps1 (Gen.V2 m (outsH m) c) = _; rw [V2_eq]; rfl
theorem V4_eq (c : Dev nD) : Gen.V4 m (outsH m) c = W4 m c := by
  show Function.update (Gen.V3 m (outsH m) c) main_v36 (outsH m 4 main_v36 c) = _; rw [outs_v36, V3_eq]; rfl
theorem V5_eq (c : Dev nD) : Gen.V5 m (outsH m) c = W5 m c := by
  show StableHlo.after hostOps2 (Gen.V4 m (outsH m) c) = _; rw [V4_eq]; rfl
theorem V6_eq (c : Dev nD) : Gen.V6 m (outsH m) c = W6 m c := by
  show Function.update (Gen.V5 m (outsH m) c) main_v54 (outsH m 6 main_v54 c) = _; rw [outs_v54, V5_eq]; rfl
theorem V7_eq (c : Dev nD) : Gen.V7 m (outsH m) c = W7 m c := by
  show StableHlo.after hostOps3 (Gen.V6 m (outsH m) c) = _; rw [V6_eq]; rfl

theorem V8_eq (c : Dev nD) : Gen.V8 m (outsH m) c = W8 m c := by
  show Function.update (Gen.V7 m (outsH m) c) main_v70 (outsH m 8 main_v70 c) = _; rw [outs_v70, V7_eq]; rfl

/-- Every pipeline's proof data, each at the contents its region is entered with. -/
def pdats : (p : Fin 4) → (c : Dev nD) → Dat τ (Elt F) Unit ℕ (UR sig nD τ) ℕ (cfgs p) c
  | ⟨0, _⟩ => fun c => dat0 (EV (Gen.V1 m)) c
  | ⟨1, _⟩ => fun c => dat1 (EV (W3 m)) c
  | ⟨2, _⟩ => fun c => dat2 (EV (W5 m)) c
  | ⟨3, _⟩ => fun c => dat3 (EV (W7 m)) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core owing
    nothing. -/
abbrev R (c : Dev nD) : sProp 𝕄 := iprop((∃ r, prngReg c r) ∗ ∃ W, owes (c : Thread nD τ) (0 : CellTallies nD τ sig Unit) W)

theorem inputs0 : ∀ w : Fin cfg0.W, w ≠ 7 → (cfg0.win w).isOut = false ∧ Pipeline.arrRef spec0 w ∉ ([main_v18] : List (Ref sig .tc)) := by decide

theorem hF0 (c : Dev nD) (w : Fin cfg0.W) :
    (pdats m 0 c).arrAt w cfg0.N = EV (Gen.V2 m (outsH m)) c (Pipeline.arrRef spec0 w) := by
  by_cases hw : w = 7
  · subst hw
    show _ = Function.update (Gen.V1 m c) main_v18 (outsH m 2 main_v18 c) main_v18
    rw [Function.update_self, outs_v18]; rfl
  · obtain ⟨hin, hne⟩ := inputs0 w hw
    exact ((pdats m 0 c).arrAt_in w hin _).trans ((A_eq0 (EV (Gen.V1 m)) c w).trans (Gen.V2_of m (outsH m) c _ hne).symm)

theorem hrest0 (c : Dev nD) : ∀ b, b ∉ Finset.univ.image (Pipeline.arrRef spec0) → EV (Gen.V2 m (outsH m)) c b = EV (Gen.V1 m) c b :=
  fun b hb => Gen.V2_of m (outsH m) c b (fun h => hb (Finset.mem_image.mpr ⟨7, Finset.mem_univ _, (List.mem_singleton.mp h).symm⟩))

set_option backward.isDefEq.respectTransparency.types false in
/-- Pipeline 0's region as a segment: entered from the buffers after the first host stretch, left at those with its
    output array at what the pipeline leaves. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (EV (Gen.V1 m)) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (Gen.V2 m (outsH m) c) ∗ R c)
  X c := iprop(∃ r, prngReg c r)
  Y c := iprop(∃ r, prngReg c r)
  Z c := Pipeline.unscopedRest (Ix := Unit) (Name := ℕ) (U := UR sig nD τ) (Lvl := ℕ) spec0 c (EV (Gen.V1 m) c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (EV (Gen.V1 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (EV (Gen.V1 m) c) (EV (Gen.V2 m (outsH m)) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem inputs1 : ∀ w : Fin cfg1.W, w ≠ 5 → (cfg1.win w).isOut = false ∧ Pipeline.arrRef spec1 w ≠ main_v36 := by decide

theorem hF1 (c : Dev nD) (w : Fin cfg1.W) :
    (pdats m 1 c).arrAt w cfg1.N = EV (W4 m) c (Pipeline.arrRef spec1 w) := by
  by_cases hw : w = 5
  · subst hw; exact (W4_self m c).symm
  · obtain ⟨hin, hne⟩ := inputs1 w hw
    exact ((pdats m 1 c).arrAt_in w hin _).trans ((A_eq1 (EV (W3 m)) c w).trans (W4_of m c _ hne).symm)

theorem hrest1 (c : Dev nD) : ∀ b, b ∉ Finset.univ.image (Pipeline.arrRef spec1) → EV (W4 m) c b = EV (W3 m) c b :=
  fun b hb => W4_of m c b (fun h => hb (Finset.mem_image.mpr ⟨5, Finset.mem_univ _, h.symm⟩))

set_option backward.isDefEq.respectTransparency.types false in
/-- Pipeline 1's region as a segment: entered from the buffers after the host stretch before it, left at those with
    its output array at what the pipeline leaves. -/
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (EV (W3 m)) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (EV (W3 m) c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (EV (W3 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (EV (W3 m) c) (EV (W4 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem inputs2 : ∀ w : Fin cfg2.W, w ≠ 5 → (cfg2.win w).isOut = false ∧ Pipeline.arrRef spec2 w ≠ main_v54 := by decide

theorem hF2 (c : Dev nD) (w : Fin cfg2.W) :
    (pdats m 2 c).arrAt w cfg2.N = EV (W6 m) c (Pipeline.arrRef spec2 w) := by
  by_cases hw : w = 5
  · subst hw; exact (W6_self m c).symm
  · obtain ⟨hin, hne⟩ := inputs2 w hw
    exact ((pdats m 2 c).arrAt_in w hin _).trans ((A_eq2 (EV (W5 m)) c w).trans (W6_of m c _ hne).symm)

theorem hrest2 (c : Dev nD) : ∀ b, b ∉ Finset.univ.image (Pipeline.arrRef spec2) → EV (W6 m) c b = EV (W5 m) c b :=
  fun b hb => W6_of m c b (fun h => hb (Finset.mem_image.mpr ⟨5, Finset.mem_univ _, h.symm⟩))

set_option backward.isDefEq.respectTransparency.types false in
/-- Pipeline 2's region as a segment: entered from the buffers after the host stretch before it, left at those with
    its output array at what the pipeline leaves. -/
def reg2 : Pipeline.RegionSeg (pcfgs (F := F)) Gen.adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (EV (W5 m)) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (EV (W5 m) c)
  hentry c := by
    rw [Pipeline.ownSems0_none]
    have hsplit := Pipeline.arrays_of_unscopedBufs (p := 2) (pcfgs (F := F)) Gen.adm (pdats m) launch2.win launch2.arr_whole c
      ((pdats m 2 c).share_full fun _ => rfl) (EV (W5 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full fun _ => rfl)
      (EV (W5 m) c) (EV (W6 m) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem inputs3 : ∀ w : Fin cfg3.W, w ≠ 5 → (cfg3.win w).isOut = false ∧ Pipeline.arrRef spec3 w ≠ main_v70 := by decide

theorem hF3 (c : Dev nD) (w : Fin cfg3.W) :
    (pdats m 3 c).arrAt w cfg3.N = EV (W8 m) c (Pipeline.arrRef spec3 w) := by
  by_cases hw : w = 5
  · subst hw; exact (W8_self m c).symm
  · obtain ⟨hin, hne⟩ := inputs3 w hw
    exact ((pdats m 3 c).arrAt_in w hin _).trans ((A_eq3 (EV (W7 m)) c w).trans (W8_of m c _ hne).symm)

theorem hrest3 (c : Dev nD) : ∀ b, b ∉ Finset.univ.image (Pipeline.arrRef spec3) → EV (W8 m) c b = EV (W7 m) c b :=
  fun b hb => W8_of m c b (fun h => hb (Finset.mem_image.mpr ⟨5, Finset.mem_univ _, h.symm⟩))

set_option backward.isDefEq.respectTransparency.types false in
/-- Pipeline 3's region as a segment: entered from the buffers after the host stretch before it, left at those with
    its output array at what the pipeline leaves. -/
def reg3 : Pipeline.RegionSeg (pcfgs (F := F)) Gen.adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (EV (W7 m)) c).loose
  hwaits := Pipeline.hwaits_of_owed_zero _ _ _ _ L lv 3 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec3 c (EV (W7 m) c)
  hentry c := by
    rw [Pipeline.ownSems0_none]
    have hsplit := Pipeline.arrays_of_unscopedBufs (p := 3) (pcfgs (F := F)) Gen.adm (pdats m) launch3.win launch3.arr_whole c
      ((pdats m 3 c).share_full fun _ => rfl) (EV (W7 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none]
    have h : (Pipeline.ΦA (U := UR sig nD τ) spec3 c : sProp 𝕄)
        ⊢ iprop((∃ r, prngReg c r) ∗ (BI.emp : sProp 𝕄)
          ∗ Pipeline.scopedRest (Ix := Unit) (Name := ℕ) (U := UR sig nD τ) (Lvl := ℕ) (Val := Elt F) spec3 c) := by
      unfold Pipeline.ΦA
      iintro ⟨Hr, Hp⟩
      isplitl [Hp]; · iexact Hp
      isplitr; · iempintro
      iexact Hr
    exact (hout3 (EV (W7 m)) c).trans h
  hexit c := by
    have hjoin := Pipeline.unscopedBufs_of_arrays (p := 3) (pcfgs (F := F)) Gen.adm (Ix := Unit) (Name := ℕ) (U := UR sig nD τ) (Lvl := ℕ)
      launch3.win launch3.arr_whole c (pdats m) ((pdats m 3 c).share_full fun _ => rfl)
      (EV (W7 m) c) (EV (W8 m) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At the launch every core's generator register and its empty dues make the state that rides beside the buffers. -/
theorem hE0 (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄))) ∗ levAts L lv)
      ⊢ (|={Set.univ}=> bigSep Finset.univ (fun c : Dev nD => R c) : sProp 𝕄) := by
  have hR : ∀ c : Dev nD, iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄)) ⊢ (R c : sProp 𝕄) := fun c => by
    iintro ⟨-, HO, -, Hp, -⟩
    isplitl [Hp]; · iexists _; iexact Hp
    iexists ∅; iexact HO
  iintro ⟨H, -⟩
  imodintro
  have hmono : (bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄)))
      ⊢ (bigSep Finset.univ (fun c : Dev nD => R c) : sProp 𝕄) := bigSep_mono fun c _ => hR c
  ihave H' := hmono $$ H
  iexact H'

set_option backward.isDefEq.respectTransparency.types false in
/-- The frame: every weakly fair execution of the program terminates, nothing faulting, with each argument array as
    launched. -/
theorem frameH (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Gen.frame_cond m emb₁ () 𝒱₀ L lv (fun _ _ => rfl) ρ (outsH m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := hE0 ρ)
    (hE4 := fun c => by iintro ⟨-, HO⟩; iexact HO)
    (R0 := reg0 m) (hpre0 := fun c => .rfl) (hpost0 := fun c => .rfl)
    (R1 := reg1 m) (hpre1 := fun c => by rw [V3_eq]; exact .rfl) (hpost1 := fun c => by rw [V4_eq]; exact .rfl)
    (R2 := reg2 m) (hpre2 := fun c => by rw [V5_eq]; exact .rfl) (hpost2 := fun c => by rw [V6_eq]; exact .rfl)
    (R3 := reg3 m) (hpre3 := fun c => by rw [V7_eq]; exact .rfl) (hpost3 := fun c => by rw [V8_eq]; exact .rfl)

set_option backward.isDefEq.respectTransparency.types false in
/-- The run with its result: as the frame, and the result buffer ends at what the last host stretch computes from the
    last pipeline's sums. -/
theorem runH (ρ : Dev nD → PrngReg) :
    θ_run defs (onTc (τ := τ) (main (F := F))) ⟨m, fun _ => 0, ρ⟩ (fun r => ∀ c : Dev nD,
      r.2.mem ((c.tc : Thread nD τ).loc main_v88) = Gen.V11 m (outsH m) c main_v88
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  run_cond m emb₁ () 𝒱₀ L lv (fun _ _ => rfl) ρ (outsH m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := hE0 ρ)
    (hE4 := fun c => by iintro ⟨-, HO⟩; iexact HO)
    (R0 := reg0 m) (hpre0 := fun c => .rfl) (hpost0 := fun c => .rfl)
    (R1 := reg1 m) (hpre1 := fun c => by rw [V3_eq]; exact .rfl) (hpost1 := fun c => by rw [V4_eq]; exact .rfl)
    (R2 := reg2 m) (hpre2 := fun c => by rw [V5_eq]; exact .rfl) (hpost2 := fun c => by rw [V6_eq]; exact .rfl)
    (R3 := reg3 m) (hpre3 := fun c => by rw [V7_eq]; exact .rfl) (hpost3 := fun c => by rw [V8_eq]; exact .rfl)

/-- What each pipeline leaves, stated over the conditional frame's own valuations. -/
theorem outs2_eq (c : Dev nD) : outsH m 2 main_v18 c = (dat0 (EV (Gen.V1 m)) c).arrAt 7 cfg0.N := outs_v18 m 2 c
theorem outs4_eq (c : Dev nD) : outsH m 4 main_v36 c = (dat1 (EV (Gen.V3 m (outsH m))) c).arrAt 5 cfg1.N := by
  rw [outs_v36, show Gen.V3 m (outsH m) = W3 m from funext (V3_eq m)]; rfl
theorem outs6_eq (c : Dev nD) : outsH m 6 main_v54 c = (dat2 (EV (Gen.V5 m (outsH m))) c).arrAt 5 cfg2.N := by
  rw [outs_v54, show Gen.V5 m (outsH m) = W5 m from funext (V5_eq m)]; rfl
theorem outs8_eq (c : Dev nD) : outsH m 8 main_v70 c = (dat3 (EV (Gen.V7 m (outsH m))) c).arrAt 5 cfg3.N := by
  rw [outs_v70, show Gen.V7 m (outsH m) = W7 m from funext (V7_eq m)]; rfl

end Cert.Kernel.Hand

end
-- ==== Proof.KIData0.lean ====
import proofs.«430762_j39556648796267_2_alg».proof.Proof.Gen.KernelIdeal.Launch
import proofs.«430762_j39556648796267_2_alg».proof.Proof.Gen.KernelIdeal.Skeleton
import proofs.«430762_j39556648796267_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! Pipeline 0 (the node encoder fused with the first linear step): the blocks its windows hold at a grid point,
    what the body leaves in the output window's buffer as a function of those blocks, and the proof data over
    them, all at the buffer contents `V` the region is entered with. -/

variable (V : (c : Dev nD) → (b : Ref sig .tc) → Buf (Elt F) ((c : Thread nD τ).loc b))

/-- Window `w`'s block at point `t`: the rows `5000 t … 5000 t + 4999` of the node features and of the
    normalisation column, all of each parameter array. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole of a 5000×64 buffer. -/
abbrev r0_X : Rect S5000x64 := Rect.unit (s := S5000x64) ![0, 0] S5000x64.size inb_S5000x64_S5000x64_0_0
/-- The whole of a 64×128 buffer. -/
abbrev r0_E : Rect S64x128 := Rect.unit (s := S64x128) ![0, 0] S64x128.size inb_S64x128_S64x128_0_0
/-- The whole of a 1×128 buffer. -/
abbrev r0_B : Rect S1x128 := Rect.unit (s := S1x128) ![0, 0] S1x128.size inb_S1x128_S1x128_0_0
/-- The whole of a 128×128 buffer. -/
abbrev r0_W : Rect S128x128 := Rect.unit (s := S128x128) ![0, 0] S128x128.size inb_S128x128_S128x128_0_0
/-- The whole of a 5000×1 buffer. -/
abbrev r0_C : Rect S5000x1 := Rect.unit (s := S5000x1) ![0, 0] S5000x1.size inb_S5000x1_S5000x1_0_0
/-- The whole of a 5000×128 buffer. -/
abbrev r0_A : Rect S5000x128 := Rect.unit (s := S5000x128) ![0, 0] S5000x128.size inb_S5000x128_S5000x128_0_0

/-- What the body leaves in the output window's buffer, from the blocks of the node features `x0`, the encoder
    weight `x1` and bias `x2`, the normalisation's scale `x3` and shift `x4`, the first layer's weight `x5` and
    the degree column `x6`: its one store, of the whole buffer. -/
def out0_7 (x0 : Vec F S5000x64 .f32) (x1 : Vec F S64x128 .f32) (x2 x3 x4 : Vec F S1x128 .f32) (x5 : Vec F S128x128 .f32)
    (x6 : Vec F S5000x1 .f32) : Vec F S5000x128 .f32 :=
  View.canon [⟨r0_A, k0_pay1 (k0_pay2 (View.ld x0 r0_X) (View.ld x1 r0_E) (View.ld x2 r0_B) (View.ld x3 r0_B) (View.ld x4 r0_B))
    (k0_pay3 (View.ld x5 r0_W)) (View.ld x6 r0_C)⟩]

/-- The proof data of pipeline 0 on core `c`: the arrays as the region finds them; after the body at point `t`
    every input's buffer still at its block and the output's at `out0_7` of the input blocks; the scoped rest and
    the generator register as the invariant; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t
    = out0_7 (iblk0 V c 0 t) (iblk0 V c 1 t) (iblk0 V c 2 t) (iblk0 V c 3 t) (iblk0 V c 4 t) (iblk0 V c 5 t) (iblk0 V c 6 t) := by
  dsimp only [dat0]

end Cert.KernelIdeal.Hand

end
-- ==== Proof.KIRegion0.lean ====
import proofs.«430762_j39556648796267_2_alg».proof.Proof.KIData0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The frame half of pipeline 0 (the node encoder, its layer norm and the first linear step): at every grid point
    the body finds each input window's block in that window's staging buffer, and leaves the inputs as they were
    and the output buffer at `out0_7` of the seven input blocks. -/

variable (V : (c : Dev nD) → (b : Ref sig .tc) → Buf (Elt F) ((c : Thread nD τ).loc b))

/-! ## What the body finds in the input windows' buffers -/

/-- Input window 0's current staging buffer holds its block at every point (it is fetched at every point), for any proof data whose
    array is the entry contents' and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point (it is fetched at the first point only, and its block index never moves, so an unfetched point still holds the block), for any proof data whose
    array is the entry contents' and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point (it is fetched at the first point only, and its block index never moves, so an unfetched point still holds the block), for any proof data whose
    array is the entry contents' and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point (it is fetched at the first point only, and its block index never moves, so an unfetched point still holds the block), for any proof data whose
    array is the entry contents' and whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point (it is fetched at the first point only, and its block index never moves, so an unfetched point still holds the block), for any proof data whose
    array is the entry contents' and whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point (it is fetched at the first point only, and its block index never moves, so an unfetched point still holds the block), for any proof data whose
    array is the entry contents' and whose body leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every point (it is fetched at every point), for any proof data whose
    array is the entry contents' and whose body leaves the block in place. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The output buffer after the body -/

/-- The body's one store is of the whole 5000×128 buffer, so it covers it. -/
theorem cover0_7 (p0 : Vec F S5000x128 .f32) (y : S5000x128.Idx) :
    ∃ pc ∈ ([⟨r0_A, p0⟩] : List (View.Piece (Elt F) S5000x128 .f32)), y ∈ pc.1.set :=
  View.cover_of_tiled [⟨r0_A, p0⟩] S5000x128.size (by rfl) y

/-! ## The body's triple -/

set_option maxHeartbeats 1000000 in
/-- The kernel body on whole staging memrefs, the seven inputs' at read contents `x0 … x6` and the output's at
    anything, runs to the continuation holding the inputs' as they were and the output's at `out0_7` of them: the
    body reads the seven inputs whole (six of them inside its first part), reads the output buffer once without
    using what it read, and stores the whole output buffer once. -/
theorem sound_kernel0 (c : Dev nD) (E : Set ℕ) (i : grid0.Coords) (arg0 : Memref sig .tc .vmem S5000x64 .f32) (harg0 : arg0.IsWhole) (arg1 : Memref sig .tc .vmem S64x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S5000x1 .f32) (harg6 : arg6.IsWhole) (arg7 : Memref sig .tc .vmem S5000x128 .f32) (harg7 : arg7.IsWhole)
    (x0 : Vec F S5000x64 .f32) (x1 : Vec F S64x128 .f32) (x2 : Vec F S1x128 .f32) (x3 : Vec F S1x128 .f32) (x4 : Vec F S1x128 .f32) (x5 : Vec F S128x128 .f32) (x6 : Vec F S5000x1 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (out0_7 x0 x1 x2 x3 x4 x5 x6)) -∗ K ⟨⟩))
      ⊢ wp frame (wpE (defs₀ (F := F)) Variants.none c none) E (cc0__encode_linear_kernel i arg0 harg0 arg1 harg1 arg2 harg2 arg3 harg3 arg4 harg4 arg5 harg5 arg6 harg6 arg7 harg7) K := by
  simp only [cc0__encode_linear_kernel_eq_skeleton]; unfold cc0__encode_linear_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover0_7 _)

/-! ## At the proof data of this pipeline -/

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

/-- What the body is called with at point `t`: the invariant, the core's debts, and each window's current staging
    buffer at what the pipeline left there. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns: the same, each staging buffer at what the body leaves there. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

/-- The body at any point: the input buffers hold their blocks, so the body's triple applies at those blocks; the
    invariant and the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ (iblk0 V c 0 t) (iblk0 V c 1 t) (iblk0 V c 2 t) (iblk0 V c 3 t)
    (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KIData1.lean ====
import proofs.«430762_j39556648796267_2_alg».proof.Proof.Gen.KernelIdeal.Launch
import proofs.«430762_j39556648796267_2_alg».proof.Proof.Gen.KernelIdeal.Skeleton
import proofs.«430762_j39556648796267_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! Pipeline 1 (the fused combine-and-linear step): the blocks its windows hold at a grid point, what the body
    leaves in the output window's buffer as a function of those blocks, and the proof data over them, all at
    the buffer contents `V` the region is entered with. -/

variable (V : (c : Dev nD) → (b : Ref sig .tc) → Buf (Elt F) ((c : Thread nD τ).loc b))

/-- Window `w`'s block at point `t`: the rows `5000 t … 5000 t + 4999` of its array (all of it for the bias and
    the weight), read off the array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole of a 5000×128 buffer. -/
abbrev r1_A : Rect S5000x128 := Rect.unit (s := S5000x128) ![0, 0] S5000x128.size inb_S5000x128_S5000x128_0_0
/-- The whole of a 5000×1 buffer. -/
abbrev r1_C : Rect S5000x1 := Rect.unit (s := S5000x1) ![0, 0] S5000x1.size inb_S5000x1_S5000x1_0_0
/-- The whole of a 1×128 buffer. -/
abbrev r1_B : Rect S1x128 := Rect.unit (s := S1x128) ![0, 0] S1x128.size inb_S1x128_S1x128_0_0
/-- The whole of a 128×128 buffer. -/
abbrev r1_W : Rect S128x128 := Rect.unit (s := S128x128) ![0, 0] S128x128.size inb_S128x128_S128x128_0_0

/-- What the body leaves in the output window's buffer, from the blocks of the aggregate `x0`, the message `x1`,
    the normalisation column `x2`, the bias `x3` and the weight `x4`: its one store, of the whole buffer. -/
def out1_5 (x0 x1 : Vec F S5000x128 .f32) (x2 : Vec F S5000x1 .f32) (x3 : Vec F S1x128 .f32) (x4 : Vec F S128x128 .f32) :
    Vec F S5000x128 .f32 :=
  View.canon [⟨r1_A, k1_pay1 (View.ld x2 r1_C) (View.ld x0 r1_A) (View.ld x1 r1_A) (View.ld x3 r1_B) (View.ld x4 r1_W) (View.ld x2 r1_C)⟩]

/-- The proof data of pipeline 1 on core `c`: the arrays as the region finds them; after the body at point `t`
    every input's buffer still at its block and the output's at `out1_5` of the input blocks; the scoped rest and
    the generator register as the invariant; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t
    = out1_5 (iblk1 V c 0 t) (iblk1 V c 1 t) (iblk1 V c 2 t) (iblk1 V c 3 t) (iblk1 V c 4 t) := by dsimp only [dat1]

end Cert.KernelIdeal.Hand

end
-- ==== Proof.KIRegion1.lean ====
import proofs.«430762_j39556648796267_2_alg».proof.Proof.Gen.KernelIdeal.Launch
import proofs.«430762_j39556648796267_2_alg».proof.Proof.Gen.KernelIdeal.Skeleton
import proofs.«430762_j39556648796267_2_alg».proof.Proof.Gen.KernelIdeal.Points
import proofs.«430762_j39556648796267_2_alg».proof.Proof.KIData1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! Pipeline 1 (the fused combine-and-linear step), the frame half: every input window's buffer holds its block
    when the body is called, the body's triple on whole buffers, and from the two the body obligation at every
    grid point. -/

variable (V : (c : Dev nD) → (b : Ref sig .tc) → Buf (Elt F) ((c : Thread nD τ).loc b))

/-- Input window 0's current buffer holds its block at every point, fetched there or not, for any proof data
    whose array is `V`'s and whose body leaves the block in place: where the window is not fetched its block index
    has not moved, so the block already there is this point's. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current buffer holds its block at every point, fetched there or not, for any proof data
    whose array is `V`'s and whose body leaves the block in place: where the window is not fetched its block index
    has not moved, so the block already there is this point's. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current buffer holds its block at every point, fetched there or not, for any proof data
    whose array is `V`'s and whose body leaves the block in place: where the window is not fetched its block index
    has not moved, so the block already there is this point's. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current buffer holds its block at every point, fetched there or not, for any proof data
    whose array is `V`'s and whose body leaves the block in place: where the window is not fetched its block index
    has not moved, so the block already there is this point's. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current buffer holds its block at every point, fetched there or not, for any proof data
    whose array is `V`'s and whose body leaves the block in place: where the window is not fetched its block index
    has not moved, so the block already there is this point's. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Each input's current buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body's triple -/

/-- The body's one store is of the whole output buffer, so it covers it. -/
theorem cover1_5 (p0 : Vec F S5000x128 .f32) (y : S5000x128.Idx) :
    ∃ pc ∈ ([⟨r1_A, p0⟩] : List (View.Piece (Elt F) S5000x128 .f32)), y ∈ pc.1.set :=
  View.cover_of_tiled [⟨r1_A, p0⟩] S5000x128.size (by rfl) y

set_option maxHeartbeats 1000000 in
/-- The kernel body on whole buffers, the five inputs' at contents `x0 … x4` and the output's at anything, runs to
    the continuation with the inputs' as they were and the output's at `out1_5` of the inputs': it reads the
    normalisation column, the aggregate, the message, the bias, the weight and the column again, reads the output
    buffer (a value it never uses), and stores the whole output buffer once. -/
theorem sound_kernel1 (c : Dev nD) (E : Set ℕ) (i : grid1.Coords)
    (arg1 : Memref sig .tc .vmem S5000x128 .f32) (harg1 : arg1.IsWhole) (arg2 : Memref sig .tc .vmem S5000x128 .f32) (harg2 : arg2.IsWhole)
    (arg3 : Memref sig .tc .vmem S5000x1 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S5000x128 .f32) (harg6 : arg6.IsWhole)
    (x0 x1 : Vec F S5000x128 .f32) (x2 : Vec F S5000x1 .f32) (x3 : Vec F S1x128 .f32) (x4 : Vec F S128x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__combine_linear_kernel i arg1 harg1 arg2 harg2 arg3 harg3 arg4 harg4 arg5 harg5 arg6 harg6) K := by
  simp only [cc1__combine_linear_kernel_eq_skeleton]; unfold cc1__combine_linear_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The body obligation, at a generic point -/

/-- What the body is called with at point `t`: the invariant, what the core owes, and the six windows' current
    buffers, each at what the pipeline leaves in it before the body. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- What the body returns: the same invariant and debt, and the six buffers at the proof data's `after`. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' buffers hold their blocks, so the body's triple applies; the invariant and
    the core's debt pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of pipeline 1, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KIData2.lean ====
import proofs.«430762_j39556648796267_2_alg».proof.Proof.Gen.KernelIdeal.Launch
import proofs.«430762_j39556648796267_2_alg».proof.Proof.Gen.KernelIdeal.Skeleton
import proofs.«430762_j39556648796267_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! Pipeline 2 (the fused combine-and-linear step): the blocks its windows hold at a grid point, what the body
    leaves in the output window's buffer as a function of those blocks, and the proof data over them, all at
    the buffer contents `V` the region is entered with. -/

variable (V : (c : Dev nD) → (b : Ref sig .tc) → Buf (Elt F) ((c : Thread nD τ).loc b))

/-- Window `w`'s block at point `t`: the rows `5000 t … 5000 t + 4999` of its array (all of it for the bias and
    the weight), read off the array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The whole of a 5000×128 buffer. -/
abbrev r2_A : Rect S5000x128 := Rect.unit (s := S5000x128) ![0, 0] S5000x128.size inb_S5000x128_S5000x128_0_0
/-- The whole of a 5000×1 buffer. -/
abbrev r2_C : Rect S5000x1 := Rect.unit (s := S5000x1) ![0, 0] S5000x1.size inb_S5000x1_S5000x1_0_0
/-- The whole of a 1×128 buffer. -/
abbrev r2_B : Rect S1x128 := Rect.unit (s := S1x128) ![0, 0] S1x128.size inb_S1x128_S1x128_0_0
/-- The whole of a 128×128 buffer. -/
abbrev r2_W : Rect S128x128 := Rect.unit (s := S128x128) ![0, 0] S128x128.size inb_S128x128_S128x128_0_0

/-- What the body leaves in the output window's buffer, from the blocks of the aggregate `x0`, the message `x1`,
    the normalisation column `x2`, the bias `x3` and the weight `x4`: its one store, of the whole buffer. -/
def out2_5 (x0 x1 : Vec F S5000x128 .f32) (x2 : Vec F S5000x1 .f32) (x3 : Vec F S1x128 .f32) (x4 : Vec F S128x128 .f32) :
    Vec F S5000x128 .f32 :=
  View.canon [⟨r2_A, k2_pay1 (View.ld x2 r2_C) (View.ld x0 r2_A) (View.ld x1 r2_A) (View.ld x3 r2_B) (View.ld x4 r2_W) (View.ld x2 r2_C)⟩]

/-- The proof data of pipeline 2 on core `c`: the arrays as the region finds them; after the body at point `t`
    every input's buffer still at its block and the output's at `out2_5` of the input blocks; the scoped rest and
    the generator register as the invariant; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t
    = out2_5 (iblk2 V c 0 t) (iblk2 V c 1 t) (iblk2 V c 2 t) (iblk2 V c 3 t) (iblk2 V c 4 t) := by dsimp only [dat2]

end Cert.KernelIdeal.Hand

end
-- ==== Proof.KIRegion2.lean ====
import proofs.«430762_j39556648796267_2_alg».proof.Proof.Gen.KernelIdeal.Launch
import proofs.«430762_j39556648796267_2_alg».proof.Proof.Gen.KernelIdeal.Skeleton
import proofs.«430762_j39556648796267_2_alg».proof.Proof.Gen.KernelIdeal.Points
import proofs.«430762_j39556648796267_2_alg».proof.Proof.KIData2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! pipeline 2 (the fused combine-and-linear step), the frame half: every input window's buffer holds its block
    when the body is called, the body's triple on whole buffers, and from the two the body obligation at every
    grid point. -/

variable (V : (c : Dev nD) → (b : Ref sig .tc) → Buf (Elt F) ((c : Thread nD τ).loc b))

/-- Input window 0's current buffer holds its block at every point, fetched there or not, for any proof data
    whose array is `V`'s and whose body leaves the block in place: where the window is not fetched its block index
    has not moved, so the block already there is this point's. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current buffer holds its block at every point, fetched there or not, for any proof data
    whose array is `V`'s and whose body leaves the block in place: where the window is not fetched its block index
    has not moved, so the block already there is this point's. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current buffer holds its block at every point, fetched there or not, for any proof data
    whose array is `V`'s and whose body leaves the block in place: where the window is not fetched its block index
    has not moved, so the block already there is this point's. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current buffer holds its block at every point, fetched there or not, for any proof data
    whose array is `V`'s and whose body leaves the block in place: where the window is not fetched its block index
    has not moved, so the block already there is this point's. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current buffer holds its block at every point, fetched there or not, for any proof data
    whose array is `V`'s and whose body leaves the block in place: where the window is not fetched its block index
    has not moved, so the block already there is this point's. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Each input's current buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body's triple -/

/-- The body's one store is of the whole output buffer, so it covers it. -/
theorem cover2_5 (p0 : Vec F S5000x128 .f32) (y : S5000x128.Idx) :
    ∃ pc ∈ ([⟨r2_A, p0⟩] : List (View.Piece (Elt F) S5000x128 .f32)), y ∈ pc.1.set :=
  View.cover_of_tiled [⟨r2_A, p0⟩] S5000x128.size (by rfl) y

set_option maxHeartbeats 1000000 in
/-- The kernel body on whole buffers, the five inputs' at contents `x0 … x4` and the output's at anything, runs to
    the continuation with the inputs' as they were and the output's at `out2_5` of the inputs': it reads the
    normalisation column, the aggregate, the message, the bias, the weight and the column again, reads the output
    buffer (a value it never uses), and stores the whole output buffer once. -/
theorem sound_kernel2 (c : Dev nD) (E : Set ℕ) (i : grid2.Coords)
    (arg1 : Memref sig .tc .vmem S5000x128 .f32) (harg1 : arg1.IsWhole) (arg2 : Memref sig .tc .vmem S5000x128 .f32) (harg2 : arg2.IsWhole)
    (arg3 : Memref sig .tc .vmem S5000x1 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S5000x128 .f32) (harg6 : arg6.IsWhole)
    (x0 x1 : Vec F S5000x128 .f32) (x2 : Vec F S5000x1 .f32) (x3 : Vec F S1x128 .f32) (x4 : Vec F S128x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out2_5 x0 x1 x2 x3 x4)) -∗ K ⟨⟩))
      ⊢ wp frame (wpE (defs₀ (F := F)) Variants.none c none) E (cc2__combine_linear_kernel i arg1 harg1 arg2 harg2 arg3 harg3 arg4 harg4 arg5 harg5 arg6 harg6) K := by
  simp only [cc2__combine_linear_kernel_eq_skeleton]; unfold cc2__combine_linear_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The body obligation, at a generic point -/

/-- What the body is called with at point `t`: the invariant, what the core owes, and the six windows' current
    buffers, each at what the pipeline leaves in it before the body. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- What the body returns: the same invariant and debt, and the six buffers at the proof data's `after`. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' buffers hold their blocks, so the body's triple applies; the invariant and
    the core's debt pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of pipeline 2, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KIData3.lean ====
import proofs.«430762_j39556648796267_2_alg».proof.Proof.Gen.KernelIdeal.Launch
import proofs.«430762_j39556648796267_2_alg».proof.Proof.Gen.KernelIdeal.Skeleton
import proofs.«430762_j39556648796267_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Kit
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! Pipeline 3 (the last combine step fused with the per-graph sums): the blocks its windows hold at a grid point,
    the running sums its scratch accumulator holds after each point, and the proof data over them, all at the
    buffer contents `V` the region is entered with. The accumulator is cleared at the first point, every point
    adds its 5000 rows' contribution, and the last point copies it into the output window's buffer. -/

variable (V : (c : Dev nD) → (b : Ref sig .tc) → Buf (Elt F) ((c : Thread nD τ).loc b))

/-- Window `w`'s block at point `t`: the rows `5000 t … 5000 t + 4999` of the aggregate, the message, the degree
    column and the graph ids; all of the bias; the whole 64×128 result. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The whole of a 5000×128 buffer. -/
abbrev r3_A : Rect S5000x128 := Rect.unit (s := S5000x128) ![0, 0] S5000x128.size inb_S5000x128_S5000x128_0_0
/-- The whole of a 5000×1 buffer. -/
abbrev r3_C : Rect S5000x1 := Rect.unit (s := S5000x1) ![0, 0] S5000x1.size inb_S5000x1_S5000x1_0_0
/-- The whole of a 1×128 buffer. -/
abbrev r3_B : Rect S1x128 := Rect.unit (s := S1x128) ![0, 0] S1x128.size inb_S1x128_S1x128_0_0
/-- The whole of a 64×128 buffer. -/
abbrev r3_O : Rect S64x128 := Rect.unit (s := S64x128) ![0, 0] S64x128.size inb_S64x128_S64x128_0_0

/-- The grid point at position `n` (positions past the grid wrap; only `n < 10` is ever read). -/
def pt3 (n : ℕ) : Fin cfg3.N := ⟨n % 10, Nat.mod_lt _ (by decide)⟩

/-- One point's update of the accumulator: the sums `s` so far plus this block's contribution, computed from the
    blocks of the aggregate `x0`, the message `x1`, the degree column `x2`, the bias `x3` and the graph ids `x4`. -/
def step3 (x0 x1 : Vec F S5000x128 .f32) (x2 : Vec F S5000x1 .f32) (x3 : Vec F S1x128 .f32) (x4 : Vec F S5000x1 .i32)
    (s : Vec F S64x128 .f32) : Vec F S64x128 .f32 :=
  k3_pay2 (View.ld x2 r3_C) (View.ld x0 r3_A) (View.ld x1 r3_A) (View.ld x3 r3_B) (View.ld x4 r3_C) s

/-- The accumulator after the body at position `n`: cleared and updated at the first point, updated from what the
    point before left at every later one. -/
def acc3 (c : Dev nD) : ℕ → Vec F S64x128 .f32
  | 0 => step3 (iblk3 V c 0 (pt3 0)) (iblk3 V c 1 (pt3 0)) (iblk3 V c 2 (pt3 0)) (iblk3 V c 3 (pt3 0)) (iblk3 V c 4 (pt3 0)) (k3_pay1 (F := F))
  | n + 1 => step3 (iblk3 V c 0 (pt3 (n + 1))) (iblk3 V c 1 (pt3 (n + 1))) (iblk3 V c 2 (pt3 (n + 1))) (iblk3 V c 3 (pt3 (n + 1)))
      (iblk3 V c 4 (pt3 (n + 1))) (acc3 c n)

/-- The region invariant before position `n`: before the first point the scoped rest at anything and the generator
    register; afterwards the accumulator at what the point before left in it, the other scoped buffers at anything,
    and the generator register. -/
def PhiS3 (c : Dev nD) : ℕ → sProp 𝕄
  | 0 => Pipeline.ΦA spec3 c
  | n + 1 => iprop((((c.tc : Thread nD τ).loc cc3_scratch0) ↦{fullShare} (acc3 V c n))
      ∗ Pipeline.scopedRestBut (Ix := Unit) (Name := ℕ) (U := UR sig nD τ) (Lvl := ℕ) (Val := Elt F) spec3 c [cc3_scratch0]
      ∗ ∃ r, prngReg c r)

/-- The proof data of pipeline 3 on core `c`: the arrays as the region finds them; after the body at point `t`
    every input's buffer still at its block and the output's at the accumulator's contents (read only at the last
    point, where it is written back); the invariant `PhiS3`; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => acc3 V c t.val
  Φ t := PhiS3 V c t.val
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = acc3 V c t.val := by dsimp only [dat3]

end Cert.KernelIdeal.Hand

end
-- ==== Proof.KIRegion3.lean ====
import proofs.«430762_j39556648796267_2_alg».proof.Proof.Gen.KernelIdeal.Launch
import proofs.«430762_j39556648796267_2_alg».proof.Proof.Gen.KernelIdeal.Skeleton
import proofs.«430762_j39556648796267_2_alg».proof.Proof.Gen.KernelIdeal.Points
import proofs.«430762_j39556648796267_2_alg».proof.Proof.KIData3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Kit
import Idealize.ShloMosaic.Lib.Pipeline.Value
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! Pipeline 3 (the last combine step fused with the per-graph sums): the frame half. The body's two conditions in
    closed form over the ten grid points; the body's run in each of its three control cases (first point: the
    accumulator cleared, then updated; middle points: updated; last point: updated, then copied into the output's
    buffer); the body obligation over the proof data `dat3`, by cases on the point; and the two ends of the
    invariant (the class invariant before the first point and after the last). -/

variable (V : (c : Dev nD) → (b : Ref sig .tc) → Buf (Elt F) ((c : Thread nD τ).loc b))

/-! ## The two conditions of the body, over the grid

The body clears the accumulator under the first condition (the grid coordinate is 0) and copies it into the
output under the second (the grid coordinate is 9). Both are computed from the grid coordinate alone, so each is
decided point by point over the ten points. -/

/-- The condition of the clearing branch, from the grid coordinate. -/
abbrev cond3_0 (i : grid3.Coords) : Prop :=
  (Scalar.cmpi .ne (Scalar.extui (Scalar.cmpi .eq (BitVec.ofNat 32 (i 0).val) 0#32)) 0#32) = 1#1
/-- It holds at the first point only. -/
theorem hcond3_0 : ∀ t : Fin cfg3.N, cond3_0 (grid3.coords t) ↔ t.val = 0 :=
  (by decide +kernel : ∀ t : Fin grid3.N, cond3_0 (grid3.coords t) ↔ t.val = 0)

/-- The condition of the copying branch, from the grid coordinate. -/
abbrev cond3_1 (i : grid3.Coords) : Prop := k3_cond2 i = 1#1
/-- It holds at the last point only. -/
theorem hcond3_1 : ∀ t : Fin cfg3.N, cond3_1 (grid3.coords t) ↔ t.val = 9 :=
  (by decide +kernel : ∀ t : Fin grid3.N, cond3_1 (grid3.coords t) ↔ t.val = 9)

/-! ## Where the windows are idle -/

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem liveAt3_3 : ∀ t : Fin cfg3.N, cfg3.idle 3 (grid3.coords t) = false := by decide +kernel
theorem liveAt3_4 : ∀ t : Fin cfg3.N, cfg3.idle 4 (grid3.coords t) = false := by decide +kernel
/-- Away from the last point the output window is idle (the body stores nothing into it there), -/
theorem idleAt3_5 : ∀ t : Fin cfg3.N, ¬cond3_1 (grid3.coords t) → cfg3.idle 5 (grid3.coords t) = true := by decide +kernel
/-- and is not written back. -/
theorem noFlush3_5 : ∀ t : Fin cfg3.N, ¬cond3_1 (grid3.coords t) → (cfg3.win 5).flush t = false := by decide +kernel
/-- At the last point it is live. -/
theorem liveAt3_5 : ∀ t : Fin cfg3.N, cond3_1 (grid3.coords t) → cfg3.idle 5 (grid3.coords t) = false := by decide +kernel

/-! ## What the inputs' staging buffers hold

Each input window's current staging buffer holds the window's block at every point, whether the point fetched it
or not (an unfetched window's block index has not moved). -/

theorem before3_0 (c : Dev nD) (t : Fin cfg3.N) (d) : (dat3 V c).before 0 t d = iblk3 V c 0 t :=
  ((dat3 V c).before_in_eq_fetched 0 rfl (fun _ => rfl) (fun _ _ _ => rfl)
    (fun t => by rw [after3_0]; unfold Dat.blockOf iblk3; rw [A_eq3]; try rfl) t d).trans
    (by unfold Dat.fetched Dat.blockOf iblk3; rw [A_eq3]; try rfl)

theorem before3_1 (c : Dev nD) (t : Fin cfg3.N) (d) : (dat3 V c).before 1 t d = iblk3 V c 1 t :=
  ((dat3 V c).before_in_eq_fetched 1 rfl (fun _ => rfl) (fun _ _ _ => rfl)
    (fun t => by rw [after3_1]; unfold Dat.blockOf iblk3; rw [A_eq3]; try rfl) t d).trans
    (by unfold Dat.fetched Dat.blockOf iblk3; rw [A_eq3]; try rfl)

theorem before3_2 (c : Dev nD) (t : Fin cfg3.N) (d) : (dat3 V c).before 2 t d = iblk3 V c 2 t :=
  ((dat3 V c).before_in_eq_fetched 2 rfl (fun _ => rfl) (fun _ _ _ => rfl)
    (fun t => by rw [after3_2]; unfold Dat.blockOf iblk3; rw [A_eq3]; try rfl) t d).trans
    (by unfold Dat.fetched Dat.blockOf iblk3; rw [A_eq3]; try rfl)

theorem before3_3 (c : Dev nD) (t : Fin cfg3.N) (d) : (dat3 V c).before 3 t d = iblk3 V c 3 t :=
  ((dat3 V c).before_in_eq_fetched 3 rfl (fun _ => rfl) (fun _ _ _ => rfl)
    (fun t => by rw [after3_3]; unfold Dat.blockOf iblk3; rw [A_eq3]; try rfl) t d).trans
    (by unfold Dat.fetched Dat.blockOf iblk3; rw [A_eq3]; try rfl)

theorem before3_4 (c : Dev nD) (t : Fin cfg3.N) (d) : (dat3 V c).before 4 t d = iblk3 V c 4 t :=
  ((dat3 V c).before_in_eq_fetched 4 rfl (fun _ => rfl) (fun _ _ _ => rfl)
    (fun t => by rw [after3_4]; unfold Dat.blockOf iblk3; rw [A_eq3]; try rfl) t d).trans
    (by unfold Dat.fetched Dat.blockOf iblk3; rw [A_eq3]; try rfl)

/-- The zero offsets of a whole-buffer rectangle, as a constant function. -/
theorem hz3 : (![0, 0] : Fin 2 → Nat) = fun _ => 0 := funext fun a => by fin_cases a <;> rfl

set_option maxHeartbeats 1000000 in
/-- The body at the first point: the accumulator, found at anything, is cleared and then updated from the point's
    blocks (the update's load reads the zeros back); the output's buffer is handed back as found. -/
theorem run3_first (c : Dev nD) (i : grid3.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x1 .i32) (harg5 : arg5.IsWhole) (arg6 : Memref sig .tc .vmem S64x128 .f32) (harg6 : arg6.IsWhole) (arg7 : Memref sig .tc .vmem S64x128 .f32) (harg7 : arg7.IsWhole) (hc0 : cond3_0 i) (hc1 : ¬cond3_1 i)
    (x0 x1 : Vec F S5000x128 .f32) (x2 : Vec F S5000x1 .f32) (x3 : Vec F S1x128 .f32) (x4 : Vec F S5000x1 .i32) (xi5 : Vec F S64x128 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare xi5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare xi5
            ∗ owns (c : Thread nD τ) arg7 fullShare (step3 x0 x1 x2 x3 x4 (k3_pay1 (F := F)))) -∗ K ⟨⟩))
      ⊢ wp frame (wpE (defs₀ (F := F)) Variants.none c none) E (cc3__combine_pool_kernel i arg1 harg1 arg2 harg2 arg3 harg3 arg4 harg4 arg5 harg5 arg6 harg6 arg7 harg7) K := by
  simp only [cc3__combine_pool_kernel_eq_skeleton]; unfold cc3__combine_pool_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  iexists _; isplitr
  swap; · iexact HS0
  ipureintro
  sl_unfold_run_names
  rw [View.read_writes_eq_canon _ _ _ (fun y => ⟨_, List.mem_cons_self, View.mem_set_unit_zero hz3 inb_S64x128_S64x128_0_0 y⟩)]
  rw [View.canon_cons_unit_zero hz3]
  simp only [View.readAt_eq_ld, Memref.IsWhole.read_unread, View.readCov_unit_zero (S := S64x128) _ hz3]
  rfl

set_option maxHeartbeats 1000000 in
/-- The body at a point that is neither the first nor the last: the accumulator, found at `xs`, is updated from the
    point's blocks; the output's buffer is handed back as found. -/
theorem run3_middle (c : Dev nD) (i : grid3.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x1 .i32) (harg5 : arg5.IsWhole) (arg6 : Memref sig .tc .vmem S64x128 .f32) (harg6 : arg6.IsWhole) (arg7 : Memref sig .tc .vmem S64x128 .f32) (harg7 : arg7.IsWhole) (hc0 : ¬cond3_0 i) (hc1 : ¬cond3_1 i)
    (x0 x1 : Vec F S5000x128 .f32) (x2 : Vec F S5000x1 .f32) (x3 : Vec F S1x128 .f32) (x4 : Vec F S5000x1 .i32) (xi5 : Vec F S64x128 .f32) (xs : Vec F S64x128 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare xi5
        ∗ owns (c : Thread nD τ) arg7 fullShare xs
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare xi5
            ∗ owns (c : Thread nD τ) arg7 fullShare (step3 x0 x1 x2 x3 x4 xs)) -∗ K ⟨⟩))
      ⊢ wp frame (wpE (defs₀ (F := F)) Variants.none c none) E (cc3__combine_pool_kernel i arg1 harg1 arg2 harg2 arg3 harg3 arg4 harg4 arg5 harg5 arg6 harg6 arg7 harg7) K := by
  simp only [cc3__combine_pool_kernel_eq_skeleton]; unfold cc3__combine_pool_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5; obtain rfl := harg7.eq_unread hfs0
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  iexists _; isplitr
  swap; · iexact HS0
  ipureintro
  sl_unfold_run_names
  rw [View.read_writes_eq_canon _ _ _ (fun y => ⟨_, List.mem_cons_self, View.mem_set_unit_zero hz3 inb_S64x128_S64x128_0_0 y⟩)]
  rw [View.canon_unit_zero hz3]
  simp only [View.readAt_eq_ld, Memref.IsWhole.read_unread, View.ld_unit_zero (S := S64x128) hz3]
  rfl

set_option maxHeartbeats 1000000 in
/-- The body at the last point: the accumulator, found at `xs`, is updated from the point's blocks and then copied
    into the output's buffer, found at anything. -/
theorem run3_last (c : Dev nD) (i : grid3.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x1 .i32) (harg5 : arg5.IsWhole) (arg6 : Memref sig .tc .vmem S64x128 .f32) (harg6 : arg6.IsWhole) (arg7 : Memref sig .tc .vmem S64x128 .f32) (harg7 : arg7.IsWhole) (hc0 : ¬cond3_0 i) (hc1 : cond3_1 i)
    (x0 x1 : Vec F S5000x128 .f32) (x2 : Vec F S5000x1 .f32) (x3 : Vec F S1x128 .f32) (x4 : Vec F S5000x1 .i32) (xs : Vec F S64x128 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ owns (c : Thread nD τ) arg7 fullShare xs
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare (step3 x0 x1 x2 x3 x4 xs)
            ∗ owns (c : Thread nD τ) arg7 fullShare (step3 x0 x1 x2 x3 x4 xs)) -∗ K ⟨⟩))
      ⊢ wp frame (wpE (defs₀ (F := F)) Variants.none c none) E (cc3__combine_pool_kernel i arg1 harg1 arg2 harg2 arg3 harg3 arg4 harg4 arg5 harg5 arg6 harg6 arg7 harg7) K := by
  simp only [cc3__combine_pool_kernel_eq_skeleton]; unfold cc3__combine_pool_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
  obtain rfl := harg1.eq_unread hf0; obtain rfl := harg2.eq_unread hf1; obtain rfl := harg3.eq_unread hf2
  obtain rfl := harg4.eq_unread hf3; obtain rfl := harg5.eq_unread hf4; obtain rfl := harg7.eq_unread hfs0
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr
    swap; · iexact H5
    ipureintro
    sl_unfold_run_names
    rw [View.read_writes_eq_canon _ _ _ (fun y => ⟨_, List.mem_cons_self, View.mem_set_unit_zero hz3 inb_S64x128_S64x128_0_0 y⟩)]
    rw [View.canon_unit_zero hz3]
    simp only [View.readAt_eq_ld, Memref.IsWhole.read_unread, View.readCov_unit_zero (S := S64x128) _ hz3, View.ld_unit_zero (S := S64x128) hz3]
    rfl
  iexists _; isplitr
  swap; · iexact HS0
  ipureintro
  sl_unfold_run_names
  rw [View.read_writes_eq_canon _ _ _ (fun y => ⟨_, List.mem_cons_self, View.mem_set_unit_zero hz3 inb_S64x128_S64x128_0_0 y⟩)]
  rw [View.canon_unit_zero hz3]
  simp only [View.readAt_eq_ld, Memref.IsWhole.read_unread, View.ld_unit_zero (S := S64x128) hz3]
  rfl

/-! ## The accumulator and the invariant, point by point -/

/-- The grid point at position `t.val` is `t`. -/
theorem pt3_val (t : Fin cfg3.N) : pt3 t.val = t := by
  unfold pt3; exact Fin.ext (Nat.mod_eq_of_lt (lt_of_lt_of_eq t.isLt N_3))

/-- At the first point the accumulator ends at the update of the cleared accumulator by the point's blocks. -/
theorem acc3_first (c : Dev nD) (t : Fin cfg3.N) (h : t.val = 0) :
    acc3 V c t.val = step3 (iblk3 V c 0 t) (iblk3 V c 1 t) (iblk3 V c 2 t) (iblk3 V c 3 t) (iblk3 V c 4 t) (k3_pay1 (F := F)) := by
  have e : pt3 0 = t := by rw [← h]; exact pt3_val t
  rw [h]
  show step3 (iblk3 V c 0 (pt3 0)) (iblk3 V c 1 (pt3 0)) (iblk3 V c 2 (pt3 0)) (iblk3 V c 3 (pt3 0)) (iblk3 V c 4 (pt3 0)) (k3_pay1 (F := F)) = _
  rw [e]

/-- At a later point it ends at the update, by the point's blocks, of what the point before left. -/
theorem acc3_later (c : Dev nD) (t : Fin cfg3.N) (n : ℕ) (h : t.val = n + 1) :
    acc3 V c t.val = step3 (iblk3 V c 0 t) (iblk3 V c 1 t) (iblk3 V c 2 t) (iblk3 V c 3 t) (iblk3 V c 4 t) (acc3 V c n) := by
  have e : pt3 (n + 1) = t := by rw [← h]; exact pt3_val t
  rw [h]
  show step3 (iblk3 V c 0 (pt3 (n + 1))) (iblk3 V c 1 (pt3 (n + 1))) (iblk3 V c 2 (pt3 (n + 1))) (iblk3 V c 3 (pt3 (n + 1)))
    (iblk3 V c 4 (pt3 (n + 1))) (acc3 V c n) = _
  rw [e]

/-- The scratch accumulator as a whole memref. -/
abbrev scM3 : Memref sig .tc .vmem S64x128 .f32 := Memref.whole cc3_scratch0

/-- The class invariant with the accumulator's buffer split out of the scoped rest. -/
theorem PhiA3_eq (c : Dev nD) :
    (Pipeline.ΦA spec3 c : sProp 𝕄)
      = iprop((iprop(∃ d, owns (c : Thread nD τ) scM3 fullShare d)
          ∗ Pipeline.scopedRestBut (Ix := Unit) (Name := ℕ) (U := UR sig nD τ) (Lvl := ℕ) (Val := Elt F) spec3 c [cc3_scratch0])
          ∗ ∃ r, prngReg c r) := by
  unfold Pipeline.ΦA; rw [scopedRest3_split]; simp only [scM3, owns_whole]; rfl

/-- The invariant before a position that is not the first: the accumulator at what the point before left. -/
theorem PhiS3_pos (c : Dev nD) (k n : ℕ) (h : k = n + 1) :
    PhiS3 V c k = iprop(owns (c : Thread nD τ) scM3 fullShare (acc3 V c n)
      ∗ Pipeline.scopedRestBut (Ix := Unit) (Name := ℕ) (U := UR sig nD τ) (Lvl := ℕ) (Val := Elt F) spec3 c [cc3_scratch0]
      ∗ ∃ r, prngReg c r) := by
  subst h; simp only [scM3, owns_whole]; rfl

/-! ## The body obligation -/

/-- Each window's current staging memref at a point, and its wholeness. -/
abbrev ms3_0 (t : Fin cfg3.N) : Memref sig .tc .vmem S5000x128 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S5000x128 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S5000x1 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1x128 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S5000x1 .i32 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S64x128 .f32 := win3_5.stage (cfg3.slots t 5)
abbrev hs3_5 (t : Fin cfg3.N) : (ms3_5 t).IsWhole := hstage3_5 ((cfg3.slots t 5).cast nbuf3_5)

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t)

/-- An input's buffer is left at its block. -/
theorem leaves3_0 (c : Dev nD) (t : Fin cfg3.N) :
    (dat3 V c).leavesExact 0 t = owns (c : Thread nD τ) (ms3_0 t) fullShare (iblk3 V c 0 t) := by
  unfold Dat.leavesExact; rw [liveAt3_0 t, after3_0]
theorem leaves3_1 (c : Dev nD) (t : Fin cfg3.N) :
    (dat3 V c).leavesExact 1 t = owns (c : Thread nD τ) (ms3_1 t) fullShare (iblk3 V c 1 t) := by
  unfold Dat.leavesExact; rw [liveAt3_1 t, after3_1]
theorem leaves3_2 (c : Dev nD) (t : Fin cfg3.N) :
    (dat3 V c).leavesExact 2 t = owns (c : Thread nD τ) (ms3_2 t) fullShare (iblk3 V c 2 t) := by
  unfold Dat.leavesExact; rw [liveAt3_2 t, after3_2]
theorem leaves3_3 (c : Dev nD) (t : Fin cfg3.N) :
    (dat3 V c).leavesExact 3 t = owns (c : Thread nD τ) (ms3_3 t) fullShare (iblk3 V c 3 t) := by
  unfold Dat.leavesExact; rw [liveAt3_3 t, after3_3]
theorem leaves3_4 (c : Dev nD) (t : Fin cfg3.N) :
    (dat3 V c).leavesExact 4 t = owns (c : Thread nD τ) (ms3_4 t) fullShare (iblk3 V c 4 t) := by
  unfold Dat.leavesExact; rw [liveAt3_4 t, after3_4]
/-- At the last point the output's buffer is left at the accumulator's contents. -/
theorem leaves3_5_last (c : Dev nD) (t : Fin cfg3.N) (h : cond3_1 (grid3.coords t)) :
    (dat3 V c).leavesExact 5 t = owns (c : Thread nD τ) (ms3_5 t) fullShare (acc3 V c t.val) := by
  unfold Dat.leavesExact; rw [liveAt3_5 t h, after3_5]

set_option maxHeartbeats 4800000 in
/-- The body at any point. The inputs' buffers hold their blocks; the closed forms of the two conditions say which
    of the three control cases the point is in. At the first point the invariant hands the body the accumulator at
    anything, and the body leaves it at the update of the cleared accumulator; at a later point it hands it at what
    the point before left, and the body leaves it at that updated; away from the last point the output's buffer goes
    back as it was found, and at the last point it ends at the accumulator's final contents. The other scoped buffers
    and the generator register pass through; the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).owesAt () t.succ = (dat3 V c).owesAt () t.castSucc from rfl]
  rw [show (dat3 V c).Φ t.succ = PhiS3 V c (t.val + 1) from rfl, PhiS3_pos V c (t.val + 1) t.val rfl]
  rw [show (dat3 V c).Φ t.castSucc = PhiS3 V c t.val from rfl]
  rw [leaves3_0 V c t, leaves3_1 V c t, leaves3_2 V c t, leaves3_3 V c t, leaves3_4 V c t]
  have hN : t.val < 10 := lt_of_lt_of_eq t.isLt N_3
  by_cases h9 : t.val = 9
  · have hc1 : cond3_1 (grid3.coords t) := (hcond3_1 t).mpr h9
    have hc0 : ¬cond3_0 (grid3.coords t) := fun h => by have := (hcond3_0 t).mp h; omega
    rw [leaves3_5_last V c t hc1, PhiS3_pos V c t.val 8 h9, acc3_later V c t 8 h9]
    iintro ⟨⟨HS, Hrest, Hg⟩, Ho, ⟨%d0, H0⟩, ⟨%d1, H1⟩, ⟨%d2, H2⟩, ⟨%d3, H3⟩, ⟨%d4, H4⟩, ⟨%d5, H5⟩⟩
    · iapply (run3_last c (grid3.coords t) _ (hs3_0 t) _ (hs3_1 t) _ (hs3_2 t) _ (hs3_3 t) _ (hs3_4 t) _ (hs3_5 t) scM3 (Memref.isWhole_whole _) hc0 hc1
        (iblk3 V c 0 t) (iblk3 V c 1 t) (iblk3 V c 2 t) (iblk3 V c 3 t) (iblk3 V c 4 t) (acc3 V c 8) Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, H5, HS⟩
      isplitl [HS Hrest Hg]
      · isplitl [HS]; · iexact HS
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      iexact H5

  · have hc1 : ¬cond3_1 (grid3.coords t) := fun h => h9 ((hcond3_1 t).mp h)
    rw [Dat.leavesExact_idle (dat3 V c) 5 t (idleAt3_5 t hc1) (noFlush3_5 t hc1)]
    by_cases h0 : t.val = 0
    · have hc0 : cond3_0 (grid3.coords t) := (hcond3_0 t).mpr h0
      rw [show PhiS3 V c t.val = Pipeline.ΦA spec3 c from by rw [h0]; rfl, PhiA3_eq, acc3_first V c t h0]
      iintro ⟨⟨⟨HS, Hrest⟩, Hg⟩, Ho, ⟨%d0, H0⟩, ⟨%d1, H1⟩, ⟨%d2, H2⟩, ⟨%d3, H3⟩, ⟨%d4, H4⟩, ⟨%d5, H5⟩⟩
      iapply (run3_first c (grid3.coords t) _ (hs3_0 t) _ (hs3_1 t) _ (hs3_2 t) _ (hs3_3 t) _ (hs3_4 t) _ (hs3_5 t) scM3 (Memref.isWhole_whole _) hc0 hc1
        (iblk3 V c 0 t) (iblk3 V c 1 t) (iblk3 V c 2 t) (iblk3 V c 3 t) (iblk3 V c 4 t) ((dat3 V c).before 5 t d5) Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS Hrest Hg]
      · isplitl [HS]; · iexact HS
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

    · have hc0 : ¬cond3_0 (grid3.coords t) := fun h => h0 ((hcond3_0 t).mp h)
      obtain ⟨n, hn⟩ : ∃ n, t.val = n + 1 := ⟨t.val - 1, by omega⟩
      rw [PhiS3_pos V c t.val n hn, acc3_later V c t n hn]
      iintro ⟨⟨HS, Hrest, Hg⟩, Ho, ⟨%d0, H0⟩, ⟨%d1, H1⟩, ⟨%d2, H2⟩, ⟨%d3, H3⟩, ⟨%d4, H4⟩, ⟨%d5, H5⟩⟩
      iapply (run3_middle c (grid3.coords t) _ (hs3_0 t) _ (hs3_1 t) _ (hs3_2 t) _ (hs3_3 t) _ (hs3_4 t) _ (hs3_5 t) scM3 (Memref.isWhole_whole _) hc0 hc1
        (iblk3 V c 0 t) (iblk3 V c 1 t) (iblk3 V c 2 t) (iblk3 V c 3 t) (iblk3 V c 4 t) ((dat3 V c).before 5 t d5) (acc3 V c n) Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS Hrest Hg]
      · isplitl [HS]; · iexact HS
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ ((dat3 (F := F) V c).Φ 0 : sProp 𝕄) :=
  Idealize.SL.BI.Entails.refl _

/-- After the last point the invariant gives the class invariant back: the accumulator's named contents are forgotten
    and its buffer rejoins the scoped rest. -/
theorem hout3 (c : Dev nD) : ((dat3 (F := F) V c).Φ (Fin.last cfg3.N) : sProp 𝕄) ⊢ Pipeline.ΦA spec3 c := by
  rw [show (dat3 V c).Φ (Fin.last cfg3.N) = PhiS3 V c 10 from rfl, PhiS3_pos V c 10 9 rfl, PhiA3_eq]
  iintro ⟨HS, Hrest, Hg⟩
  isplitl [HS Hrest]
  · isplitl [HS]
    · iexists _; iexact HS
    iexact Hrest
  iexact Hg

end Cert.KernelIdeal.Hand

end
-- ==== Proof.KIRun.lean ====
import proofs.«430762_j39556648796267_2_alg».proof.Proof.Gen.KernelIdeal.Launch
import proofs.«430762_j39556648796267_2_alg».proof.Proof.Gen.KernelIdeal.Skeleton
import proofs.«430762_j39556648796267_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«430762_j39556648796267_2_alg».proof.Proof.Gen.KernelIdeal.Regions
import proofs.«430762_j39556648796267_2_alg».proof.Proof.KIRegion0
import proofs.«430762_j39556648796267_2_alg».proof.Proof.KIRegion1
import proofs.«430762_j39556648796267_2_alg».proof.Proof.KIRegion2
import proofs.«430762_j39556648796267_2_alg».proof.Proof.KIRegion3
import proofs.«430762_j39556648796267_2_alg».proof.Proof.KIRunCond

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The run of the whole program: what each of the four pipelines leaves in its output array, the proof data of
    each at the contents it is entered with, and each region as a segment between the host stretches. -/

variable (m : (ℓ : Loc nD τ sig) → Buf (Elt F) ℓ)

/-- A valuation of the unscoped buffers read at the TensorCore's references. -/
abbrev EV (W : Dev nD → Valuation τ sig (Elt F)) : (c : Dev nD) → (b : Ref sig .tc) → Buf (Elt F) ((c : Thread nD τ).loc b) :=
  fun c b => W c b

/-- What pipeline 0 leaves in its output array: the write-backs of all ten points. -/
def o2 (c : Dev nD) : Buf (Elt F) ((c : Thread nD τ).loc main_v18) := (dat0 (EV (Gen.V1 m)) c).arrAt 7 cfg0.N
/-- The buffers after pipeline 0. -/
def W2 (c : Dev nD) : Valuation τ sig (Elt F) := Function.update (Gen.V1 m c) main_v18 (o2 m c)
/-- The buffers after the second host stretch. -/
def W3 (c : Dev nD) : Valuation τ sig (Elt F) := StableHlo.after hostOps1 (W2 m c)
/-- What pipeline 1 leaves in its output array. -/
def o4 (c : Dev nD) : Buf (Elt F) ((c : Thread nD τ).loc main_v36) := (dat1 (EV (W3 m)) c).arrAt 5 cfg1.N
/-- The buffers after pipeline 1. -/
def W4 (c : Dev nD) : Valuation τ sig (Elt F) := Function.update (W3 m c) main_v36 (o4 m c)
/-- The buffers after the third host stretch. -/
def W5 (c : Dev nD) : Valuation τ sig (Elt F) := StableHlo.after hostOps2 (W4 m c)
/-- What pipeline 2 leaves in its output array. -/
def o6 (c : Dev nD) : Buf (Elt F) ((c : Thread nD τ).loc main_v54) := (dat2 (EV (W5 m)) c).arrAt 5 cfg2.N
/-- The buffers after pipeline 2. -/
def W6 (c : Dev nD) : Valuation τ sig (Elt F) := Function.update (W5 m c) main_v54 (o6 m c)
/-- The buffers after the fourth host stretch. -/
def W7 (c : Dev nD) : Valuation τ sig (Elt F) := StableHlo.after hostOps3 (W6 m c)
/-- What pipeline 3 leaves in its output array: the accumulator's last contents. -/
def o8 (c : Dev nD) : Buf (Elt F) ((c : Thread nD τ).loc main_v70) := (dat3 (EV (W7 m)) c).arrAt 5 cfg3.N

/-- The buffers after pipeline 3. -/
def W8 (c : Dev nD) : Valuation τ sig (Elt F) := Function.update (W7 m c) main_v70 (o8 m c)

theorem W4_of (c : Dev nD) (r : Ref sig .tc) (h : r ≠ main_v36) : W4 m c r = W3 m c r :=
  Function.update_of_ne (StableHlo.devRef_ne_of_ne h) _ _
theorem W4_self (c : Dev nD) : W4 m c main_v36 = o4 m c := Function.update_self _ _ _
theorem W6_of (c : Dev nD) (r : Ref sig .tc) (h : r ≠ main_v54) : W6 m c r = W5 m c r :=
  Function.update_of_ne (StableHlo.devRef_ne_of_ne h) _ _
theorem W6_self (c : Dev nD) : W6 m c main_v54 = o6 m c := Function.update_self _ _ _
theorem W8_of (c : Dev nD) (r : Ref sig .tc) (h : r ≠ main_v70) : W8 m c r = W7 m c r :=
  Function.update_of_ne (StableHlo.devRef_ne_of_ne h) _ _
theorem W8_self (c : Dev nD) : W8 m c main_v70 = o8 m c := Function.update_self _ _ _

/-- What the regions leave, as one family over the references: each pipeline's output array at what the pipeline
    leaves in it (any other reference is never read). -/
def outsH : Gen.Outs (F := F) := fun _ r c =>
  if h : r = main_v18 then h ▸ o2 m c
  else if h : r = main_v36 then h ▸ o4 m c
  else if h : r = main_v54 then h ▸ o6 m c
  else if h : r = main_v70 then h ▸ o8 m c
  else Gen.V0 m c r

theorem outs_v18 (J : ℕ) (c : Dev nD) : outsH m J main_v18 c = o2 m c := by
  unfold outsH; rw [dif_pos rfl]
theorem outs_v36 (J : ℕ) (c : Dev nD) : outsH m J main_v36 c = o4 m c := by
  unfold outsH; rw [dif_neg (by decide), dif_pos rfl]
theorem outs_v54 (J : ℕ) (c : Dev nD) : outsH m J main_v54 c = o6 m c := by
  unfold outsH; rw [dif_neg (by decide), dif_neg (by decide), dif_pos rfl]
theorem outs_v70 (J : ℕ) (c : Dev nD) : outsH m J main_v70 c = o8 m c := by
  unfold outsH; rw [dif_neg (by decide), dif_neg (by decide), dif_neg (by decide), dif_pos rfl]

theorem V2_eq (c : Dev nD) : Gen.V2 m (outsH m) c = W2 m c := by
  show Function.update (Gen.V1 m c) main_v18 (outsH m 2 main_v18 c) = _; rw [outs_v18]; rfl
theorem V3_eq (c : Dev nD) : Gen.V3 m (outsH m) c = W3 m c := by
  show StableHlo.after hostOps1 (Gen.V2 m (outsH m) c) = _; rw [V2_eq]; rfl
theorem V4_eq (c : Dev nD) : Gen.V4 m (outsH m) c = W4 m c := by
  show Function.update (Gen.V3 m (outsH m) c) main_v36 (outsH m 4 main_v36 c) = _; rw [outs_v36, V3_eq]; rfl
theorem V5_eq (c : Dev nD) : Gen.V5 m (outsH m) c = W5 m c := by
  show StableHlo.after hostOps2 (Gen.V4 m (outsH m) c) = _; rw [V4_eq]; rfl
theorem V6_eq (c : Dev nD) : Gen.V6 m (outsH m) c = W6 m c := by
  show Function.update (Gen.V5 m (outsH m) c) main_v54 (outsH m 6 main_v54 c) = _; rw [outs_v54, V5_eq]; rfl
theorem V7_eq (c : Dev nD) : Gen.V7 m (outsH m) c = W7 m c := by
  show StableHlo.after hostOps3 (Gen.V6 m (outsH m) c) = _; rw [V6_eq]; rfl

theorem V8_eq (c : Dev nD) : Gen.V8 m (outsH m) c = W8 m c := by
  show Function.update (Gen.V7 m (outsH m) c) main_v70 (outsH m 8 main_v70 c) = _; rw [outs_v70, V7_eq]; rfl

/-- Every pipeline's proof data, each at the contents its region is entered with. -/
def pdats : (p : Fin 4) → (c : Dev nD) → Dat τ (Elt F) Unit ℕ (UR sig nD τ) ℕ (cfgs p) c
  | ⟨0, _⟩ => fun c => dat0 (EV (Gen.V1 m)) c
  | ⟨1, _⟩ => fun c => dat1 (EV (W3 m)) c
  | ⟨2, _⟩ => fun c => dat2 (EV (W5 m)) c
  | ⟨3, _⟩ => fun c => dat3 (EV (W7 m)) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core owing
    nothing. -/
abbrev R (c : Dev nD) : sProp 𝕄 := iprop((∃ r, prngReg c r) ∗ ∃ W, owes (c : Thread nD τ) (0 : CellTallies nD τ sig Unit) W)

theorem inputs0 : ∀ w : Fin cfg0.W, w ≠ 7 → (cfg0.win w).isOut = false ∧ Pipeline.arrRef spec0 w ∉ ([main_v18] : List (Ref sig .tc)) := by decide

theorem hF0 (c : Dev nD) (w : Fin cfg0.W) :
    (pdats m 0 c).arrAt w cfg0.N = EV (Gen.V2 m (outsH m)) c (Pipeline.arrRef spec0 w) := by
  by_cases hw : w = 7
  · subst hw
    show _ = Function.update (Gen.V1 m c) main_v18 (outsH m 2 main_v18 c) main_v18
    rw [Function.update_self, outs_v18]; rfl
  · obtain ⟨hin, hne⟩ := inputs0 w hw
    exact ((pdats m 0 c).arrAt_in w hin _).trans ((A_eq0 (EV (Gen.V1 m)) c w).trans (Gen.V2_of m (outsH m) c _ hne).symm)

theorem hrest0 (c : Dev nD) : ∀ b, b ∉ Finset.univ.image (Pipeline.arrRef spec0) → EV (Gen.V2 m (outsH m)) c b = EV (Gen.V1 m) c b :=
  fun b hb => Gen.V2_of m (outsH m) c b (fun h => hb (Finset.mem_image.mpr ⟨7, Finset.mem_univ _, (List.mem_singleton.mp h).symm⟩))

set_option backward.isDefEq.respectTransparency.types false in
/-- Pipeline 0's region as a segment: entered from the buffers after the first host stretch, left at those with its
    output array at what the pipeline leaves. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (EV (Gen.V1 m)) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (Gen.V2 m (outsH m) c) ∗ R c)
  X c := iprop(∃ r, prngReg c r)
  Y c := iprop(∃ r, prngReg c r)
  Z c := Pipeline.unscopedRest (Ix := Unit) (Name := ℕ) (U := UR sig nD τ) (Lvl := ℕ) spec0 c (EV (Gen.V1 m) c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (EV (Gen.V1 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (EV (Gen.V1 m) c) (EV (Gen.V2 m (outsH m)) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem inputs1 : ∀ w : Fin cfg1.W, w ≠ 5 → (cfg1.win w).isOut = false ∧ Pipeline.arrRef spec1 w ≠ main_v36 := by decide

theorem hF1 (c : Dev nD) (w : Fin cfg1.W) :
    (pdats m 1 c).arrAt w cfg1.N = EV (W4 m) c (Pipeline.arrRef spec1 w) := by
  by_cases hw : w = 5
  · subst hw; exact (W4_self m c).symm
  · obtain ⟨hin, hne⟩ := inputs1 w hw
    exact ((pdats m 1 c).arrAt_in w hin _).trans ((A_eq1 (EV (W3 m)) c w).trans (W4_of m c _ hne).symm)

theorem hrest1 (c : Dev nD) : ∀ b, b ∉ Finset.univ.image (Pipeline.arrRef spec1) → EV (W4 m) c b = EV (W3 m) c b :=
  fun b hb => W4_of m c b (fun h => hb (Finset.mem_image.mpr ⟨5, Finset.mem_univ _, h.symm⟩))

set_option backward.isDefEq.respectTransparency.types false in
/-- Pipeline 1's region as a segment: entered from the buffers after the host stretch before it, left at those with
    its output array at what the pipeline leaves. -/
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (EV (W3 m)) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (EV (W3 m) c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (EV (W3 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (EV (W3 m) c) (EV (W4 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem inputs2 : ∀ w : Fin cfg2.W, w ≠ 5 → (cfg2.win w).isOut = false ∧ Pipeline.arrRef spec2 w ≠ main_v54 := by decide

theorem hF2 (c : Dev nD) (w : Fin cfg2.W) :
    (pdats m 2 c).arrAt w cfg2.N = EV (W6 m) c (Pipeline.arrRef spec2 w) := by
  by_cases hw : w = 5
  · subst hw; exact (W6_self m c).symm
  · obtain ⟨hin, hne⟩ := inputs2 w hw
    exact ((pdats m 2 c).arrAt_in w hin _).trans ((A_eq2 (EV (W5 m)) c w).trans (W6_of m c _ hne).symm)

theorem hrest2 (c : Dev nD) : ∀ b, b ∉ Finset.univ.image (Pipeline.arrRef spec2) → EV (W6 m) c b = EV (W5 m) c b :=
  fun b hb => W6_of m c b (fun h => hb (Finset.mem_image.mpr ⟨5, Finset.mem_univ _, h.symm⟩))

set_option backward.isDefEq.respectTransparency.types false in
/-- Pipeline 2's region as a segment: entered from the buffers after the host stretch before it, left at those with
    its output array at what the pipeline leaves. -/
def reg2 : Pipeline.RegionSeg (pcfgs (F := F)) Gen.adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (EV (W5 m)) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (EV (W5 m) c)
  hentry c := by
    rw [Pipeline.ownSems0_none]
    have hsplit := Pipeline.arrays_of_unscopedBufs (p := 2) (pcfgs (F := F)) Gen.adm (pdats m) launch2.win launch2.arr_whole c
      ((pdats m 2 c).share_full fun _ => rfl) (EV (W5 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full fun _ => rfl)
      (EV (W5 m) c) (EV (W6 m) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem inputs3 : ∀ w : Fin cfg3.W, w ≠ 5 → (cfg3.win w).isOut = false ∧ Pipeline.arrRef spec3 w ≠ main_v70 := by decide

theorem hF3 (c : Dev nD) (w : Fin cfg3.W) :
    (pdats m 3 c).arrAt w cfg3.N = EV (W8 m) c (Pipeline.arrRef spec3 w) := by
  by_cases hw : w = 5
  · subst hw; exact (W8_self m c).symm
  · obtain ⟨hin, hne⟩ := inputs3 w hw
    exact ((pdats m 3 c).arrAt_in w hin _).trans ((A_eq3 (EV (W7 m)) c w).trans (W8_of m c _ hne).symm)

theorem hrest3 (c : Dev nD) : ∀ b, b ∉ Finset.univ.image (Pipeline.arrRef spec3) → EV (W8 m) c b = EV (W7 m) c b :=
  fun b hb => W8_of m c b (fun h => hb (Finset.mem_image.mpr ⟨5, Finset.mem_univ _, h.symm⟩))

set_option backward.isDefEq.respectTransparency.types false in
/-- Pipeline 3's region as a segment: entered from the buffers after the host stretch before it, left at those with
    its output array at what the pipeline leaves. -/
def reg3 : Pipeline.RegionSeg (pcfgs (F := F)) Gen.adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (EV (W7 m)) c).loose
  hwaits := Pipeline.hwaits_of_owed_zero _ _ _ _ L lv 3 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec3 c (EV (W7 m) c)
  hentry c := by
    rw [Pipeline.ownSems0_none]
    have hsplit := Pipeline.arrays_of_unscopedBufs (p := 3) (pcfgs (F := F)) Gen.adm (pdats m) launch3.win launch3.arr_whole c
      ((pdats m 3 c).share_full fun _ => rfl) (EV (W7 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none]
    have h : (Pipeline.ΦA (U := UR sig nD τ) spec3 c : sProp 𝕄)
        ⊢ iprop((∃ r, prngReg c r) ∗ (BI.emp : sProp 𝕄)
          ∗ Pipeline.scopedRest (Ix := Unit) (Name := ℕ) (U := UR sig nD τ) (Lvl := ℕ) (Val := Elt F) spec3 c) := by
      unfold Pipeline.ΦA
      iintro ⟨Hr, Hp⟩
      isplitl [Hp]; · iexact Hp
      isplitr; · iempintro
      iexact Hr
    exact (hout3 (EV (W7 m)) c).trans h
  hexit c := by
    have hjoin := Pipeline.unscopedBufs_of_arrays (p := 3) (pcfgs (F := F)) Gen.adm (Ix := Unit) (Name := ℕ) (U := UR sig nD τ) (Lvl := ℕ)
      launch3.win launch3.arr_whole c (pdats m) ((pdats m 3 c).share_full fun _ => rfl)
      (EV (W7 m) c) (EV (W8 m) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At the launch every core's generator register and its empty dues make the state that rides beside the buffers. -/
theorem hE0 (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄))) ∗ levAts L lv)
      ⊢ (|={Set.univ}=> bigSep Finset.univ (fun c : Dev nD => R c) : sProp 𝕄) := by
  have hR : ∀ c : Dev nD, iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄)) ⊢ (R c : sProp 𝕄) := fun c => by
    iintro ⟨-, HO, -, Hp, -⟩
    isplitl [Hp]; · iexists _; iexact Hp
    iexists ∅; iexact HO
  iintro ⟨H, -⟩
  imodintro
  have hmono : (bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄)))
      ⊢ (bigSep Finset.univ (fun c : Dev nD => R c) : sProp 𝕄) := bigSep_mono fun c _ => hR c
  ihave H' := hmono $$ H
  iexact H'

set_option backward.isDefEq.respectTransparency.types false in
/-- The frame: every weakly fair execution of the program terminates, nothing faulting, with each argument array as
    launched. -/
theorem frameH (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Gen.frame_cond m emb₁ () 𝒱₀ L lv (fun _ _ => rfl) ρ (outsH m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := hE0 ρ)
    (hE4 := fun c => by iintro ⟨-, HO⟩; iexact HO)
    (R0 := reg0 m) (hpre0 := fun c => .rfl) (hpost0 := fun c => .rfl)
    (R1 := reg1 m) (hpre1 := fun c => by rw [V3_eq]; exact .rfl) (hpost1 := fun c => by rw [V4_eq]; exact .rfl)
    (R2 := reg2 m) (hpre2 := fun c => by rw [V5_eq]; exact .rfl) (hpost2 := fun c => by rw [V6_eq]; exact .rfl)
    (R3 := reg3 m) (hpre3 := fun c => by rw [V7_eq]; exact .rfl) (hpost3 := fun c => by rw [V8_eq]; exact .rfl)

set_option backward.isDefEq.respectTransparency.types false in
/-- The run with its result: as the frame, and the result buffer ends at what the last host stretch computes from the
    last pipeline's sums. -/
theorem runH (ρ : Dev nD → PrngReg) :
    θ_run defs (onTc (τ := τ) (main (F := F))) ⟨m, fun _ => 0, ρ⟩ (fun r => ∀ c : Dev nD,
      r.2.mem ((c.tc : Thread nD τ).loc main_v88) = Gen.V11 m (outsH m) c main_v88
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  run_cond m emb₁ () 𝒱₀ L lv (fun _ _ => rfl) ρ (outsH m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := hE0 ρ)
    (hE4 := fun c => by iintro ⟨-, HO⟩; iexact HO)
    (R0 := reg0 m) (hpre0 := fun c => .rfl) (hpost0 := fun c => .rfl)
    (R1 := reg1 m) (hpre1 := fun c => by rw [V3_eq]; exact .rfl) (hpost1 := fun c => by rw [V4_eq]; exact .rfl)
    (R2 := reg2 m) (hpre2 := fun c => by rw [V5_eq]; exact .rfl) (hpost2 := fun c => by rw [V6_eq]; exact .rfl)
    (R3 := reg3 m) (hpre3 := fun c => by rw [V7_eq]; exact .rfl) (hpost3 := fun c => by rw [V8_eq]; exact .rfl)

/-- What each pipeline leaves, stated over the conditional frame's own valuations. -/
theorem outs2_eq (c : Dev nD) : outsH m 2 main_v18 c = (dat0 (EV (Gen.V1 m)) c).arrAt 7 cfg0.N := outs_v18 m 2 c
theorem outs4_eq (c : Dev nD) : outsH m 4 main_v36 c = (dat1 (EV (Gen.V3 m (outsH m))) c).arrAt 5 cfg1.N := by
  rw [outs_v36, show Gen.V3 m (outsH m) = W3 m from funext (V3_eq m)]; rfl
theorem outs6_eq (c : Dev nD) : outsH m 6 main_v54 c = (dat2 (EV (Gen.V5 m (outsH m))) c).arrAt 5 cfg2.N := by
  rw [outs_v54, show Gen.V5 m (outsH m) = W5 m from funext (V5_eq m)]; rfl
theorem outs8_eq (c : Dev nD) : outsH m 8 main_v70 c = (dat3 (EV (Gen.V7 m (outsH m))) c).arrAt 5 cfg3.N := by
  rw [outs_v70, show Gen.V7 m (outsH m) = W7 m from funext (V7_eq m)]; rfl

end Cert.KernelIdeal.Hand

end
-- ==== Proof.Spec.lean ====
import Idealize.ShloMosaic.PureOps.Ideal
import Idealize.ShloMosaic.PureOps.Ideal.Laws
import Idealize.ShloMosaic.Lib.ValueIdx

noncomputable section

/-! The network as plain functions of rows and columns over the extended reals: what each fused step computes,
    written once, so that the tiled program and the whole-array program can each be shown to compute it.
    Nodes are `n : Fin 50000`, features `k j : Fin 128`, graphs `g : Fin 64`. -/

namespace Cert.Spec

open Idealize.ShloMosaic Idealize.ShloMosaic.ValueIdx

/-- A two-axis array of extended reals. -/
abbrev A2 (a b : Nat) : Type := (⟨2, ![a, b]⟩ : Shape).Idx → EReal
/-- A one-axis array of extended reals. -/
abbrev A1 (a : Nat) : Type := (⟨1, ![a]⟩ : Shape).Idx → EReal
/-- Rows of 128 features, one per node. -/
abbrev Rows : Type := Fin 50000 → Fin 128 → EReal

/-- The literal 128, the layer norm's divisor. -/
def c128 : EReal := Ideal.ofBits .f32 0x43000000#32
/-- The layer norm's epsilon, the same binary literal in both programs. -/
def eps : EReal := Ideal.ofBits .f32 0x3727C5AC#32

/-- The encoder before normalisation: `relu (x · enc_w + enc_b)`. -/
def encY (x : A2 50000 64) (ew : A2 64 128) (eb : A1 128) : Rows :=
  fun n k => max ((∑ q : Fin 64, x (ix2 n q) * ew (ix2 q k)) + eb (ix1 k)) 0

/-- A row's mean. -/
def rowMean (y : Rows) (n : Fin 50000) : EReal := Ideal.div (∑ k : Fin 128, y n k) c128

/-- A row's variance about its mean. -/
def rowVar (y : Rows) (n : Fin 50000) : EReal :=
  Ideal.div (∑ k : Fin 128, (y n k - rowMean y n) * (y n k - rowMean y n)) c128

/-- Layer normalisation of each row with scale `g` and shift `be`. -/
def layerNorm (y : Rows) (g be : A1 128) : Rows :=
  fun n k => (y n k - rowMean y n) * Ideal.rsqrt (rowVar y n + eps) * g (ix1 k) + be (ix1 k)

/-- The encoder's output `h₀`. -/
def enc (x : A2 50000 64) (ew : A2 64 128) (eb g be : A1 128) : Rows := layerNorm (encY x ew eb) g be

/-- A linear step: every row times a 128 × 128 weight. -/
def lin (h : Rows) (W : Fin 128 → Fin 128 → EReal) : Rows := fun n j => ∑ k : Fin 128, h n k * W k j

/-- The convolution's combine step as the whole-array program writes it: the edge aggregate, plus the self term
    scaled by `d n * d n`, plus the bias, clipped at zero. -/
def combR (agg hw : Rows) (d : Fin 50000 → EReal) (b : Fin 128 → EReal) : Rows :=
  fun n k => max (agg n k + hw n k * (d n * d n) + b k) 0

/-- The same step as the tiled program writes it, over messages already scaled by `d`: `d n` times (aggregate
    plus own message), plus the bias, clipped at zero. -/
def combK (agg m : Rows) (d : Fin 50000 → EReal) (b : Fin 128 → EReal) : Rows :=
  fun n k => max (d n * (agg n k + m n k) + b k) 0

/-- Rows scaled by the per-node factor `d`: the message the tiled program sends along edges. -/
def scaleRows (hw : Rows) (d : Fin 50000 → EReal) : Rows := fun n j => hw n j * d n

/-- The per-graph sums of rows: node `n` counts for graph `g` when its 32-bit graph id is `g`. -/
def pool (batch : Fin 50000 → BitVec 32) (h : Rows) : Fin 64 → Fin 128 → EReal :=
  fun g k => ∑ n : Fin 50000, (if batch n = BitVec.ofNat 32 g.val then (1 : EReal) else 0) * h n k

end Cert.Spec

end
-- ==== Proof.KIVal0.lean ====
import proofs.«430762_j39556648796267_2_alg».proof.Proof.KIData0
import proofs.«430762_j39556648796267_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

/-! Pipeline 0's output array after the whole grid, as a function of the arrays the region is entered with: row `n` is
    the layer-normalised encoding of node `n`'s features times the first layer's weight, scaled by the node's degree
    factor. First the layout operations of a row-wise reduction and the two matrix products read at coordinates; then
    the body's payloads at a row and a lane of a block; then each window's block at a grid point as rows of its array
    (row `r` of block `t` is row `5000 t + r`), what a point writes back, the cover of the array by the ten row
    blocks, and the array after the last point. -/

namespace Val0

/-! ## Layout operations of a row-wise reduction, read at coordinates -/

section Layout
variable {α : Type}

/-- A column `[a]` cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The source index of a sum along the lanes of a matrix: row `r`, lane `k`. -/
theorem lift_lane {a b : ℕ} (h : (⟨2, ![a, b]⟩ : Shape).Reduces [1] ⟨1, ![a]⟩) (r : Fin a)
    (k : Fin ((⟨2, ![a, b]⟩ : Shape).size 1)) :
    h.lift (ix1 r) k = (ix2 r k : (⟨2, ![a, b]⟩ : Shape).Idx) := by
  funext c
  apply Fin.ext
  show h.liftVal (ix1 r) k.val c = _
  unfold Shape.Reduces.liftVal
  match c with
  | ⟨0, _⟩ => rfl
  | ⟨1, _⟩ => rfl

end Layout

/-! ## The two matrix products at an index -/

theorem lhs_enc_0 (i : S5000x128.Idx) (q : dot_S5000x64_S64x128_S5000x128_1_0_0_1_n_n.contr.Idx) :
    (dot_S5000x64_S64x128_S5000x128_1_0_0_1_n_n.lhsIdx i q 0).val = (i 0).val := by
  unfold DotDims.lhsIdx
  rw [dif_neg (show ¬(0 : Fin S5000x64.rank) ∈ dot_S5000x64_S64x128_S5000x128_1_0_0_1_n_n.lhsBatch by decide), dif_pos (show (0 : Fin S5000x64.rank) ∈ dot_S5000x64_S64x128_S5000x128_1_0_0_1_n_n.lhsNonContracting by decide)]
  rfl
theorem lhs_enc_1 (i : S5000x128.Idx) (q : dot_S5000x64_S64x128_S5000x128_1_0_0_1_n_n.contr.Idx) :
    (dot_S5000x64_S64x128_S5000x128_1_0_0_1_n_n.lhsIdx i q 1).val = (q ⟨0, by decide⟩).val :=
  dot_S5000x64_S64x128_S5000x128_1_0_0_1_n_n.lhsIdx_val_of_single rfl i q
theorem rhs_enc_0 (i : S5000x128.Idx) (q : dot_S5000x64_S64x128_S5000x128_1_0_0_1_n_n.contr.Idx) :
    (dot_S5000x64_S64x128_S5000x128_1_0_0_1_n_n.rhsIdx i q 0).val = (q ⟨0, by decide⟩).val :=
  dot_S5000x64_S64x128_S5000x128_1_0_0_1_n_n.rhsIdx_val_of_single rfl i q
theorem rhs_enc_1 (i : S5000x128.Idx) (q : dot_S5000x64_S64x128_S5000x128_1_0_0_1_n_n.contr.Idx) :
    (dot_S5000x64_S64x128_S5000x128_1_0_0_1_n_n.rhsIdx i q 1).val = (i 1).val := by
  unfold DotDims.rhsIdx
  rw [dif_neg (show ¬(1 : Fin S64x128.rank) ∈ dot_S5000x64_S64x128_S5000x128_1_0_0_1_n_n.rhsBatch by decide), dif_pos (show (1 : Fin S64x128.rank) ∈ dot_S5000x64_S64x128_S5000x128_1_0_0_1_n_n.rhsNonContracting by decide)]
  rfl

/-- The matrix product into a zero accumulator, at row `r` and column `c`: the sum over the contracted coordinate. -/
theorem matmul_enc_apply {φ₁ φ₂ : FTy} (lhs : FVec Ideal S5000x64 φ₁) (rhs : FVec Ideal S64x128 φ₂) (r : Fin 5000) (c : Fin 128) :
    matmul dot_S5000x64_S64x128_S5000x128_1_0_0_1_n_n none lhs rhs (constant (F := Ideal) S5000x128 .f32 0x00000000#32) (ix2 r c)
      = ∑ k : Fin 64, lhs (ix2 r k) * rhs (ix2 k c) := by
  simp only [matmul]
  rw [Ideal.matmul_constant_zero_apply, ← Equiv.sum_comp (contrEquiv1 dot_S5000x64_S64x128_S5000x128_1_0_0_1_n_n 64 rfl rfl).symm]
  refine Finset.sum_congr rfl fun k _ => ?_
  have hk := contrEquiv1_symm_val dot_S5000x64_S64x128_S5000x128_1_0_0_1_n_n 64 rfl rfl k
  have el : dot_S5000x64_S64x128_S5000x128_1_0_0_1_n_n.lhsIdx (ix2 r c) ((contrEquiv1 dot_S5000x64_S64x128_S5000x128_1_0_0_1_n_n 64 rfl rfl).symm k) = ix2 r k := funext fun a => Fin.ext (by
    match a with
    | ⟨0, _⟩ => exact lhs_enc_0 _ _
    | ⟨1, _⟩ => exact (lhs_enc_1 _ _).trans hk)
  have er : dot_S5000x64_S64x128_S5000x128_1_0_0_1_n_n.rhsIdx (ix2 r c) ((contrEquiv1 dot_S5000x64_S64x128_S5000x128_1_0_0_1_n_n 64 rfl rfl).symm k) = ix2 k c := funext fun a => Fin.ext (by
    match a with
    | ⟨0, _⟩ => exact (rhs_enc_0 _ _).trans hk
    | ⟨1, _⟩ => exact rhs_enc_1 _ _)
  rw [el, er]

theorem lhs_lin_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_lin_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_lin_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_lin_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The matrix product into a zero accumulator, at row `r` and column `c`: the sum over the contracted coordinate. -/
theorem matmul_lin_apply {φ₁ φ₂ : FTy} (lhs : FVec Ideal S5000x128 φ₁) (rhs : FVec Ideal S128x128 φ₂) (r : Fin 5000) (c : Fin 128) :
    matmul dot_S5000x128_S128x128_S5000x128_1_0_0_1_n_n none lhs rhs (constant (F := Ideal) S5000x128 .f32 0x00000000#32) (ix2 r c)
      = ∑ k : Fin 128, lhs (ix2 r k) * rhs (ix2 k c) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 r c) ((contrEquiv1 dot_S5000x128_S128x128_S5000x128_1_0_0_1_n_n 128 rfl rfl).symm k) = ix2 r k := funext fun a => Fin.ext (by
    match a with
    | ⟨0, _⟩ => exact lhs_lin_0 _ _
    | ⟨1, _⟩ => exact (lhs_lin_1 _ _).trans hk)
  have er : dot_S5000x128_S128x128_S5000x128_1_0_0_1_n_n.rhsIdx (ix2 r c) ((contrEquiv1 dot_S5000x128_S128x128_S5000x128_1_0_0_1_n_n 128 rfl rfl).symm k) = ix2 k c := funext fun a => Fin.ext (by
    match a with
    | ⟨0, _⟩ => exact (rhs_lin_0 _ _).trans hk
    | ⟨1, _⟩ => exact rhs_lin_1 _ _)
  rw [el, er]

/-! ## The encoder's payload at a row and a lane -/

theorem rsqrt_apply {s : Shape} {φ : FTy} (a : FVec Ideal s φ) (i : s.Idx) : rsqrt a i = Ideal.rsqrt (a i) := rfl
theorem scalar_ofBits (φ : FTy) (b : BitVec φ.bits) : Scalar.ofBits (F := Ideal) φ b = Ideal.ofBits φ b := rfl

/-- A sum along the 128 lanes of a 5000-row block, at row `r`. -/
theorem laneSum_apply (src : FVec Ideal S5000x128 .f32) (hφ : FKind.Formats .f32)
    (hacc : @Eq (BitVec FTy.f32.bits) 0x00000000#32 0x00000000#32) (r : Fin 5000) :
    multiReduction (F := Ideal) .add [1] S5000 src 0x00000000#32 reduces_S5000x128_S5000 hφ hacc (ix1 r)
      = ∑ k : Fin 128, src (ix2 r k) :=
  (Ideal.multiReduction_add_single src 0x00000000#32 reduces_S5000x128_S5000 hφ hacc (ix1 r)).trans
    (Finset.sum_congr rfl fun k _ => congrArg src (lift_lane _ r k))

/-- Row `r` of the encoder's payload on a block whose row `r` is node `n`'s features: the normalised encoding of `n`. -/
theorem pay2_apply (x0 : Vec Ideal S5000x64 .f32) (x1 : Vec Ideal S64x128 .f32) (x2 x3 x4 : Vec Ideal S1x128 .f32)
    (x : Cert.Spec.A2 50000 64) (ew : Cert.Spec.A2 64 128) (eb g be : Cert.Spec.A1 128) (n : Fin 50000) (r : Fin 5000)
    (h0 : ∀ q : Fin 64, x0 (ix2 r q) = x (ix2 n q)) (h1 : ∀ (q : Fin 64) (k : Fin 128), x1 (ix2 q k) = ew (ix2 q k))
    (h2 : ∀ k : Fin 128, x2 (ix2 0 k) = eb (ix1 k)) (h3 : ∀ k : Fin 128, x3 (ix2 0 k) = g (ix1 k))
    (h4 : ∀ k : Fin 128, x4 (ix2 0 k) = be (ix1 k)) (k : Fin 128) :
    k0_pay2 (F := Ideal) x0 x1 x2 x3 x4 (ix2 r k) = Cert.Spec.enc x ew eb g be n k := by
  unfold k0_pay2
  simp only [truncf_apply, addf_apply, mulf_apply, subf_apply, divf_apply, maximumf_apply, broadcast_apply, rsqrt_apply,
    scalar_ofBits, shapeCast_self, broadcastTo_1b_ab_apply, broadcastTo_a1_ab_apply, shapeCast_a_a1_apply,
    laneSum_apply, matmul_enc_apply]
  rw [laneSum_apply, laneSum_apply]
  simp only [truncf_apply, addf_apply, mulf_apply, subf_apply, divf_apply, maximumf_apply, broadcast_apply, rsqrt_apply,
    scalar_ofBits, shapeCast_self, broadcastTo_1b_ab_apply, broadcastTo_a1_ab_apply, shapeCast_a_a1_apply, matmul_enc_apply]
  rw [laneSum_apply]
  simp only [truncf_apply, addf_apply, mulf_apply, subf_apply, divf_apply, maximumf_apply, broadcast_apply, rsqrt_apply,
    scalar_ofBits, shapeCast_self, broadcastTo_1b_ab_apply, broadcastTo_a1_ab_apply, shapeCast_a_a1_apply, matmul_enc_apply,
    Ideal.ofBits_zero_f32, h0, h1, h2, h3, h4]
  rfl

/-- The first layer's payload at a row and a lane: the row times the weight, scaled by the row's degree factor. -/
theorem pay1_apply (v37 : FVec Ideal S5000x128 .bf16) (v39 : FVec Ideal S128x128 .f32) (v42 : Vec Ideal S5000x1 .f32)
    (r : Fin 5000) (j : Fin 128) :
    k0_pay1 (F := Ideal) v37 v39 v42 (ix2 r j) = (∑ k : Fin 128, v37 (ix2 r k) * v39 (ix2 k j)) * v42 (ix2 r 0) := by
  unfold k0_pay1
  simp only [mulf_apply, truncf_apply, shapeCast_self, broadcastTo_a1_ab_apply, matmul_lin_apply]

theorem hz : (![0, 0] : Fin 2 → Nat) = fun _ => 0 := funext fun a => by fin_cases a <;> rfl

/-- What the body leaves in the output block, at row `r` and lane `j`, when row `r` of the blocks is node `n`. -/
theorem out0_7_apply (x0 : Vec Ideal S5000x64 .f32) (x1 : Vec Ideal S64x128 .f32) (x2 x3 x4 : Vec Ideal S1x128 .f32)
    (x5 : Vec Ideal S128x128 .f32) (x6 : Vec Ideal S5000x1 .f32)
    (x : Cert.Spec.A2 50000 64) (ew : Cert.Spec.A2 64 128) (eb g be : Cert.Spec.A1 128) (W0 : Fin 128 → Fin 128 → EReal)
    (D : Fin 50000 → EReal) (n : Fin 50000) (r : Fin 5000)
    (h0 : ∀ q : Fin 64, x0 (ix2 r q) = x (ix2 n q)) (h1 : ∀ (q : Fin 64) (k : Fin 128), x1 (ix2 q k) = ew (ix2 q k))
    (h2 : ∀ k : Fin 128, x2 (ix2 0 k) = eb (ix1 k)) (h3 : ∀ k : Fin 128, x3 (ix2 0 k) = g (ix1 k))
    (h4 : ∀ k : Fin 128, x4 (ix2 0 k) = be (ix1 k)) (h5 : ∀ k j : Fin 128, x5 (ix2 k j) = W0 k j)
    (h6 : x6 (ix2 r 0) = D n) (j : Fin 128) :
    out0_7 (F := Ideal) x0 x1 x2 x3 x4 x5 x6 (ix2 r j) = Cert.Spec.lin (Cert.Spec.enc x ew eb g be) W0 n j * D n := by
  unfold out0_7
  rw [View.canon_unit_zero hz]
  simp only [View.ld_unit_zero (S := S5000x64) hz, View.ld_unit_zero (S := S64x128) hz, View.ld_unit_zero (S := S1x128) hz,
    View.ld_unit_zero (S := S128x128) hz, View.ld_unit_zero (S := S5000x1) hz]
  rw [pay1_apply]
  unfold k0_pay3
  simp only [shapeCast_self, pay2_apply x0 x1 x2 x3 x4 x ew eb g be n r h0 h1 h2 h3 h4, h5, h6]
  rfl

/-! ## From the blocks to the array -/

variable (V : (c : Dev nD) → (b : Ref sig .tc) → Buf (Elt Ideal) ((c : Thread nD τ).loc b))

/-- The windows' index maps over the grid: the node features, the degree column and the output move one row block per
    point; every parameter array stays at its one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-- Row `r` of the feature block at point `t` is row `5000 t + r` of the node features. -/
theorem iblk_x (c : Dev nD) (t : Fin cfg0.N) (r : Fin 5000) (q : Fin 64) (n : Fin 50000) (hn : n.val = 5000 * t.val + r.val) :
    (iblk0 V c 0 t : Vec Ideal S5000x64 .f32) (ix2 r q) = (V c main_arg0 : S50000x64.Idx → EReal) (ix2 n q) := by
  obtain ⟨e0, e1, -⟩ := idx_facts t
  unfold iblk0
  rw [View.read_apply]
  show V c main_arg0 _ = V c main_arg0 _
  congr 1
  funext a
  apply Fin.ext
  match a with
  | ⟨0, _⟩ => show win0_0.index t (0 : Fin 2) * 5000 + 1 * r.val = n.val; rw [e0, hn]; omega
  | ⟨1, _⟩ => show win0_0.index t (1 : Fin 2) * 64 + 1 * q.val = q.val; rw [e1]; omega

/-- The encoder weight's one block is the whole array. -/
theorem iblk_ew (c : Dev nD) (t : Fin cfg0.N) (p : Fin 64) (q : Fin 128) :
    (iblk0 V c 1 t : Vec Ideal S64x128 .f32) (ix2 p q) = (V c main_arg4 : S64x128.Idx → EReal) (ix2 p q) := by
  have e := idx_facts t
  unfold iblk0
  rw [View.read_apply]
  show V c main_arg4 _ = V c main_arg4 _
  congr 1
  funext a
  apply Fin.ext
  match a with
  | ⟨0, _⟩ => show win0_1.index t (0 : Fin 2) * 64 + 1 * p.val = p.val; rw [e.2.2.1]; omega
  | ⟨1, _⟩ => show win0_1.index t (1 : Fin 2) * 128 + 1 * q.val = q.val; rw [e.2.2.2.1]; omega

/-- The encoder bias's one block is the whole row. -/
theorem iblk_eb (c : Dev nD) (t : Fin cfg0.N) (p : Fin 1) (q : Fin 128) :
    (iblk0 V c 2 t : Vec Ideal S1x128 .f32) (ix2 p q) = (V c main_v13 : S1x128.Idx → EReal) (ix2 p q) := by
  have e := idx_facts t
  unfold iblk0
  rw [View.read_apply]
  show V c main_v13 _ = V c main_v13 _
  congr 1
  funext a
  apply Fin.ext
  match a with
  | ⟨0, _⟩ => show win0_2.index t (0 : Fin 2) * 1 + 1 * p.val = p.val; rw [e.2.2.2.2.1]; omega
  | ⟨1, _⟩ => show win0_2.index t (1 : Fin 2) * 128 + 1 * q.val = q.val; rw [e.2.2.2.2.2.1]; omega

/-- The normalisation scale's one block is the whole row. -/
theorem iblk_g (c : Dev nD) (t : Fin cfg0.N) (p : Fin 1) (q : Fin 128) :
    (iblk0 V c 3 t : Vec Ideal S1x128 .f32) (ix2 p q) = (V c main_v14 : S1x128.Idx → EReal) (ix2 p q) := by
  have e := idx_facts t
  unfold iblk0
  rw [View.read_apply]
  show V c main_v14 _ = V c main_v14 _
  congr 1
  funext a
  apply Fin.ext
  match a with
  | ⟨0, _⟩ => show win0_3.index t (0 : Fin 2) * 1 + 1 * p.val = p.val; rw [e.2.2.2.2.2.2.1]; omega
  | ⟨1, _⟩ => show win0_3.index t (1 : Fin 2) * 128 + 1 * q.val = q.val; rw [e.2.2.2.2.2.2.2.1]; omega

/-- The normalisation shift's one block is the whole row. -/
theorem iblk_be (c : Dev nD) (t : Fin cfg0.N) (p : Fin 1) (q : Fin 128) :
    (iblk0 V c 4 t : Vec Ideal S1x128 .f32) (ix2 p q) = (V c main_v15 : S1x128.Idx → EReal) (ix2 p q) := by
  have e := idx_facts t
  unfold iblk0
  rw [View.read_apply]
  show V c main_v15 _ = V c main_v15 _
  congr 1
  funext a
  apply Fin.ext
  match a with
  | ⟨0, _⟩ => show win0_4.index t (0 : Fin 2) * 1 + 1 * p.val = p.val; rw [e.2.2.2.2.2.2.2.2.1]; omega
  | ⟨1, _⟩ => show win0_4.index t (1 : Fin 2) * 128 + 1 * q.val = q.val; rw [e.2.2.2.2.2.2.2.2.2.1]; omega

/-- The first-layer weight's one block is the whole array. -/
theorem iblk_w (c : Dev nD) (t : Fin cfg0.N) (p : Fin 128) (q : Fin 128) :
    (iblk0 V c 5 t : Vec Ideal S128x128 .f32) (ix2 p q) = (V c main_v17 : S128x128.Idx → EReal) (ix2 p q) := by
  have e := idx_facts t
  unfold iblk0
  rw [View.read_apply]
  show V c main_v17 _ = V c main_v17 _
  congr 1
  funext a
  apply Fin.ext
  match a with
  | ⟨0, _⟩ => show win0_5.index t (0 : Fin 2) * 128 + 1 * p.val = p.val; rw [e.2.2.2.2.2.2.2.2.2.2.1]; omega
  | ⟨1, _⟩ => show win0_5.index t (1 : Fin 2) * 128 + 1 * q.val = q.val; rw [e.2.2.2.2.2.2.2.2.2.2.2.1]; omega

/-- Row `r` of the degree block at point `t` is row `5000 t + r` of the degree column. -/
theorem iblk_d (c : Dev nD) (t : Fin cfg0.N) (r : Fin 5000) (n : Fin 50000) (hn : n.val = 5000 * t.val + r.val) :
    (iblk0 V c 6 t : Vec Ideal S5000x1 .f32) (ix2 r 0) = (V c main_v12 : S50000x1.Idx → EReal) (ix2 n 0) := by
  have e := idx_facts t
  unfold iblk0
  rw [View.read_apply]
  show V c main_v12 _ = V c main_v12 _
  congr 1
  funext a
  apply Fin.ext
  match a with
  | ⟨0, _⟩ => show win0_6.index t (0 : Fin 2) * 5000 + 1 * r.val = n.val; rw [e.2.2.2.2.2.2.2.2.2.2.2.2.1, hn]; omega
  | ⟨1, _⟩ => show win0_6.index t (1 : Fin 2) * 1 + 1 * 0 = 0; rw [e.2.2.2.2.2.2.2.2.2.2.2.2.2.1]

/-- The first linear step's message array: every node's normalised encoding times the weight, scaled by its degree factor. -/
def msg (x : Cert.Spec.A2 50000 64) (ew : Cert.Spec.A2 64 128) (eb g be : Cert.Spec.A1 128) (W0 : Fin 128 → Fin 128 → EReal)
    (D : Fin 50000 → EReal) : S50000x128.Idx → EReal :=
  fun i => Cert.Spec.lin (Cert.Spec.enc x ew eb g be) W0 ⟨(i 0).val, idx2_lt0 i⟩ ⟨(i 1).val, idx2_lt1 i⟩ * D ⟨(i 0).val, idx2_lt0 i⟩

section Arrays
variable (c : Dev nD) (x : Cert.Spec.A2 50000 64) (ew : Cert.Spec.A2 64 128) (eb g be : Cert.Spec.A1 128)
    (W0 : Fin 128 → Fin 128 → EReal) (D : Fin 50000 → EReal)
    (hx : ∀ n q, (V c main_arg0 : S50000x64.Idx → EReal) (ix2 n q) = x (ix2 n q))
    (hew : ∀ q k, (V c main_arg4 : S64x128.Idx → EReal) (ix2 q k) = ew (ix2 q k))
    (heb : ∀ k, (V c main_v13 : S1x128.Idx → EReal) (ix2 0 k) = eb (ix1 k))
    (hg : ∀ k, (V c main_v14 : S1x128.Idx → EReal) (ix2 0 k) = g (ix1 k))
    (hbe : ∀ k, (V c main_v15 : S1x128.Idx → EReal) (ix2 0 k) = be (ix1 k))
    (hw : ∀ k j, (V c main_v17 : S128x128.Idx → EReal) (ix2 k j) = W0 k j)
    (hd : ∀ n, (V c main_v12 : S50000x1.Idx → EReal) (ix2 n 0) = D n)
include hx hew heb hg hbe hw hd

/-- What the body leaves in the output block at point `t`, entry `y`, is the message array at the block's entry `y`. -/
theorem point_eq (t : Fin cfg0.N) (y : S5000x128.Idx) :
    out0_7 (F := Ideal) (iblk0 V c 0 t) (iblk0 V c 1 t) (iblk0 V c 2 t) (iblk0 V c 3 t) (iblk0 V c 4 t) (iblk0 V c 5 t) (iblk0 V c 6 t) y
      = msg x ew eb g be W0 D (((cfg0.win 7).blk t).view.emb y) := by
  obtain ⟨r, j, rfl⟩ : ∃ (r : Fin 5000) (j : Fin 128), y = ix2 r j := ⟨y 0, y 1, eq_ix2 y⟩
  have ht : t.val < 10 := lt_of_lt_of_eq t.isLt N_0
  have e := idx_facts t
  let n : Fin 50000 := ⟨5000 * t.val + r.val, by have := r.isLt; omega⟩
  have hn : n.val = 5000 * t.val + r.val := rfl
  have hemb : ((cfg0.win 7).blk t).view.emb (ix2 r j) = (ix2 n j : S50000x128.Idx) := by
    funext a
    apply Fin.ext
    match a with
    | ⟨0, _⟩ => show win0_7.index t (0 : Fin 2) * 5000 + 1 * r.val = 5000 * t.val + r.val; rw [e.2.2.2.2.2.2.2.2.2.2.2.2.2.2.1]; omega
    | ⟨1, _⟩ => show win0_7.index t (1 : Fin 2) * 128 + 1 * j.val = j.val; rw [e.2.2.2.2.2.2.2.2.2.2.2.2.2.2.2]; omega
  rw [hemb]
  refine (out0_7_apply _ _ _ _ _ _ _ x ew eb g be W0 D n r ?_ ?_ ?_ ?_ ?_ ?_ ?_ j).trans rfl
  · intro q; exact (iblk_x V c t r q n hn).trans (hx n q)
  · intro q k; exact (iblk_ew V c t q k).trans (hew q k)
  · intro k; exact (iblk_eb V c t 0 k).trans (heb k)
  · intro k; exact (iblk_g V c t 0 k).trans (hg k)
  · intro k; exact (iblk_be V c t 0 k).trans (hbe k)
  · intro k j; exact (iblk_w V c t k j).trans (hw k j)
  · exact (iblk_d V c t r n hn).trans (hd n)

/-- What point `t` writes back is block `t` of the message array. -/
theorem flushed_eq (t : Fin cfg0.N) :
    (dat0 V c).flushed 7 t = ((cfg0.win 7).blk t).view.read (Elt Ideal) (msg x ew eb g be W0 D) := by
  show (cfg0.win 7).cut (grid0.coords t) ((dat0 V c).after 7 t) = _
  rw [after0_7]
  funext y
  exact point_eq V c x ew eb g be W0 D hx hew heb hg hbe hw hd t y

omit hx hew heb hg hbe hw hd in
/-- An index of the output array is in point `t`'s block iff each coordinate is in the block's range on its axis. -/
theorem mem_blk (t : Fin cfg0.N) (i : S50000x128.Idx) :
    i ∈ ((cfg0.win 7).blk t).view.set ↔ ∀ a : Fin 2, win0_7.index t a * S5000x128.size a ≤ (i a).val
      ∧ (i a).val < win0_7.index t a * S5000x128.size a + S5000x128.size a := by
  show i ∈ ((View.whole main_v18).slice (win0_7.rect t)).set ↔ _
  rw [View.set_slice_whole, Rect.mem_set_unit]
  exact Iff.rfl

omit hx hew heb hg hbe hw hd in
/-- Row `n` of the output array is in the block of point `n / 5000`: the ten row blocks tile the array. -/
theorem cover (i : S50000x128.Idx) : ∃ t : Fin cfg0.N, (cfg0.win 7).flush t = true ∧ i ∈ ((cfg0.win 7).blk t).view.set := by
  have hi0 : (i 0).val < 50000 := idx2_lt0 i
  have hi1 : (i 1).val < 128 := idx2_lt1 i
  let t : Fin cfg0.N := ⟨(i 0).val / 5000, by rw [show cfg0.N = 10 from N_0]; omega⟩
  have htv : t.val = (i 0).val / 5000 := rfl
  have e := idx_facts t
  refine ⟨t, flush0_7 t, ?_⟩
  rw [mem_blk]
  intro a
  match a with
  | ⟨0, _⟩ =>
    show win0_7.index t (0 : Fin 2) * 5000 ≤ (i 0).val ∧ (i 0).val < win0_7.index t (0 : Fin 2) * 5000 + 5000
    rw [e.2.2.2.2.2.2.2.2.2.2.2.2.2.2.1, htv]; omega
  | ⟨1, _⟩ =>
    show win0_7.index t (1 : Fin 2) * 128 ≤ (i 1).val ∧ (i 1).val < win0_7.index t (1 : Fin 2) * 128 + 128
    rw [e.2.2.2.2.2.2.2.2.2.2.2.2.2.2.2]; omega

/-- The output array after the whole grid is the message array. -/
theorem final : (dat0 V c).arrAt 7 cfg0.N = msg x ew eb g be W0 D :=
  (dat0 V c).arrAt_eq_of_cover 7 (msg x ew eb g be W0 D)
    (fun t _ => flushed_eq V c x ew eb g be W0 D hx hew heb hg hbe hw hd t) cover

end Arrays

end Val0

/-- Pipeline 0's output array after the whole grid: at node `n` and feature `j`, the node's normalised encoding times the
    first layer's weight, scaled by the node's degree factor. -/
theorem val0 (V : (c : Dev nD) → (b : Ref sig .tc) → Buf (Elt Ideal) ((c : Thread nD τ).loc b)) (c : Dev nD)
    (x : Cert.Spec.A2 50000 64) (ew : Cert.Spec.A2 64 128) (eb g be : Cert.Spec.A1 128) (W0 : Fin 128 → Fin 128 → EReal) (D : Fin 50000 → EReal)
    (hx : ∀ n q, (V c main_arg0 : S50000x64.Idx → EReal) (ix2 n q) = x (ix2 n q))
    (hew : ∀ q k, (V c main_arg4 : S64x128.Idx → EReal) (ix2 q k) = ew (ix2 q k))
    (heb : ∀ k, (V c main_v13 : S1x128.Idx → EReal) (ix2 0 k) = eb (ix1 k))
    (hg : ∀ k, (V c main_v14 : S1x128.Idx → EReal) (ix2 0 k) = g (ix1 k))
    (hbe : ∀ k, (V c main_v15 : S1x128.Idx → EReal) (ix2 0 k) = be (ix1 k))
    (hw : ∀ k j, (V c main_v17 : S128x128.Idx → EReal) (ix2 k j) = W0 k j)
    (hd : ∀ n, (V c main_v12 : S50000x1.Idx → EReal) (ix2 n 0) = D n) (n : Fin 50000) (j : Fin 128) :
    ((dat0 V c).arrAt 7 cfg0.N : S50000x128.Idx → EReal) (ix2 n j) = Cert.Spec.lin (Cert.Spec.enc x ew eb g be) W0 n j * D n :=
  (congrFun (Val0.final V c x ew eb g be W0 D hx hew heb hg hbe hw hd) (ix2 n j)).trans rfl

end Cert.KernelIdeal.Hand

end
-- ==== Proof.KIVal1.lean ====
import proofs.«430762_j39556648796267_2_alg».proof.Proof.KIData1
import proofs.«430762_j39556648796267_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

/-- A column `[a, 1]` broadcast along rows to `[a, b]` reads, at `(p, c)`, the column's entry at row `p`. -/
private theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

private theorem lhs_dot_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
private theorem lhs_dot_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
private theorem rhs_dot_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
private theorem rhs_dot_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The block product at an entry: row `r` of the left block against column `j` of the weight. -/
private theorem matmul_blk_apply (L : FVec Ideal S5000x128 .bf16) (R : FVec Ideal S128x128 .bf16) (r : Fin 5000) (j : Fin 128) :
    (matmul dot_S5000x128_S128x128_S5000x128_1_0_0_1_n_n none L R (constant (F := Ideal) S5000x128 .f32 0x00000000#32) : S5000x128.Idx → EReal) (ix2 r j)
      = ∑ k : Fin 128, L (ix2 r k) * R (ix2 k j) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 r j) ((ValueIdx.contrEquiv1 dot_S5000x128_S128x128_S5000x128_1_0_0_1_n_n 128 rfl rfl).symm k) = ix2 r k := funext fun a => Fin.ext (by
    match a with
    | ⟨0, _⟩ => exact lhs_dot_0 _ _
    | ⟨1, _⟩ => exact (lhs_dot_1 _ _).trans hk)
  have er : dot_S5000x128_S128x128_S5000x128_1_0_0_1_n_n.rhsIdx (ix2 r j) ((ValueIdx.contrEquiv1 dot_S5000x128_S128x128_S5000x128_1_0_0_1_n_n 128 rfl rfl).symm k) = ix2 k j := funext fun a => Fin.ext (by
    match a with
    | ⟨0, _⟩ => exact (rhs_dot_0 _ _).trans hk
    | ⟨1, _⟩ => exact rhs_dot_1 _ _)
  rw [el, er]

/-- The fused step's result block at row `r`, column `j`: the clipped combination of the row, times the weight's
    column, scaled by the row's factor. -/
private theorem pay1_apply (x0 x1 : Vec Ideal S5000x128 .f32) (x2 : Vec Ideal S5000x1 .f32) (x3 : Vec Ideal S1x128 .f32)
    (x4 : Vec Ideal S128x128 .f32) (r : Fin 5000) (j : Fin 128) :
    (k1_pay1 x2 x0 x1 x3 x4 x2 : S5000x128.Idx → EReal) (ix2 r j)
      = (∑ k : Fin 128, max ((x2 : S5000x1.Idx → EReal) (ix2 r 0) * ((x0 : S5000x128.Idx → EReal) (ix2 r k) + (x1 : S5000x128.Idx → EReal) (ix2 r k)) + (x3 : S1x128.Idx → EReal) (ix2 0 k)) 0
          * (x4 : S128x128.Idx → EReal) (ix2 k j)) * (x2 : S5000x1.Idx → EReal) (ix2 r 0) := by
  unfold k1_pay1
  simp only [shapeCast_self]
  rw [mulf_apply, matmul_blk_apply, broadcastTo_a1_ab_apply]
  refine congrArg (· * _) (Finset.sum_congr rfl fun k _ => ?_)
  rw [truncf_apply, truncf_apply, maximumf_apply, addf_apply, mulf_apply, addf_apply, broadcastTo_a1_ab_apply,
    broadcastTo_1b_ab_apply, broadcast_apply]
  have hz0 : (FloatOps.ofBits FTy.f32 0x00000000#32 : Idealize.ShloMosaic.Ideal FTy.f32) = (0 : EReal) := Ideal.ofBits_zero_f32
  rw [hz0]

/-! ## From blocks to the array -/

private theorem hz1 : (![0, 0] : Fin 2 → Nat) = fun _ => 0 := funext fun a => by fin_cases a <;> rfl

/-- The printed index maps over the grid: the row-blocked windows sit at block `t` of the rows, the bias and the
    weight at their one block. -/
private theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

variable (V : (c : Dev nD) → (b : Ref sig .tc) → Buf (Elt F) ((c : Thread nD τ).loc b))

/-- The aggregate's block at point `t` is rows `5000 t … 5000 t + 4999` of its array. -/
private theorem iblk1_0_apply (c : Dev nD) (t : Fin cfg1.N) (x : S5000x128.Idx) (k : S50000x128.Idx)
    (hk0 : (k 0).val = 5000 * t.val + (x 0).val) (hk1 : (k 1).val = (x 1).val) :
    (iblk1 V c 0 t : Vec F S5000x128 .f32) x = (V c main_v30 : S50000x128.Idx → Elt F .f32) k := by
  obtain ⟨e0, e1, -⟩ := idx_facts1 t
  unfold iblk1
  rw [View.read_apply]
  show V c main_v30 _ = V c main_v30 _
  congr 1
  funext a
  apply Fin.ext
  match a with
  | ⟨0, _⟩ => show win1_0.index t (0 : Fin 2) * 5000 + 1 * (x 0).val = (k 0).val; rw [e0, hk0]; omega
  | ⟨1, _⟩ => show win1_0.index t (1 : Fin 2) * 128 + 1 * (x 1).val = (k 1).val; rw [e1, hk1]; omega

/-- The message's block at point `t` is the same rows of its array. -/
private theorem iblk1_1_apply (c : Dev nD) (t : Fin cfg1.N) (x : S5000x128.Idx) (k : S50000x128.Idx)
    (hk0 : (k 0).val = 5000 * t.val + (x 0).val) (hk1 : (k 1).val = (x 1).val) :
    (iblk1 V c 1 t : Vec F S5000x128 .f32) x = (V c main_v18 : S50000x128.Idx → Elt F .f32) k := by
  obtain ⟨-, -, e0, e1, -⟩ := idx_facts1 t
  unfold iblk1
  rw [View.read_apply]
  show V c main_v18 _ = V c main_v18 _
  congr 1
  funext a
  apply Fin.ext
  match a with
  | ⟨0, _⟩ => show win1_1.index t (0 : Fin 2) * 5000 + 1 * (x 0).val = (k 0).val; rw [e0, hk0]; omega
  | ⟨1, _⟩ => show win1_1.index t (1 : Fin 2) * 128 + 1 * (x 1).val = (k 1).val; rw [e1, hk1]; omega

/-- The scaling column's block at point `t` is the same rows of the column. -/
private theorem iblk1_2_apply (c : Dev nD) (t : Fin cfg1.N) (x : S5000x1.Idx) (k : S50000x1.Idx)
    (hk0 : (k 0).val = 5000 * t.val + (x 0).val) (hk1 : (k 1).val = (x 1).val) :
    (iblk1 V c 2 t : Vec F S5000x1 .f32) x = (V c main_v12 : S50000x1.Idx → Elt F .f32) k := by
  obtain ⟨-, -, -, -, e0, e1, -⟩ := idx_facts1 t
  unfold iblk1
  rw [View.read_apply]
  show V c main_v12 _ = V c main_v12 _
  congr 1
  funext a
  apply Fin.ext
  match a with
  | ⟨0, _⟩ => show win1_2.index t (0 : Fin 2) * 5000 + 1 * (x 0).val = (k 0).val; rw [e0, hk0]; omega
  | ⟨1, _⟩ => show win1_2.index t (1 : Fin 2) * 1 + 1 * (x 1).val = (k 1).val; rw [e1, hk1]; omega

/-- The bias's block at every point is the whole bias. -/
private theorem iblk1_3_apply (c : Dev nD) (t : Fin cfg1.N) (x : S1x128.Idx) :
    (iblk1 V c 3 t : Vec F S1x128 .f32) x = (V c main_v33 : S1x128.Idx → Elt F .f32) x := by
  obtain ⟨-, -, -, -, -, -, e0, e1, -⟩ := idx_facts1 t
  unfold iblk1
  rw [View.read_apply]
  show V c main_v33 _ = V c main_v33 _
  congr 1
  funext a
  apply Fin.ext
  match a with
  | ⟨0, _⟩ => show win1_3.index t (0 : Fin 2) * 1 + 1 * (x 0).val = (x 0).val; rw [e0]; omega
  | ⟨1, _⟩ => show win1_3.index t (1 : Fin 2) * 128 + 1 * (x 1).val = (x 1).val; rw [e1]; omega

/-- The weight's block at every point is the whole weight. -/
private theorem iblk1_4_apply (c : Dev nD) (t : Fin cfg1.N) (x : S128x128.Idx) :
    (iblk1 V c 4 t : Vec F S128x128 .f32) x = (V c main_v35 : S128x128.Idx → Elt F .f32) x := by
  obtain ⟨-, -, -, -, -, -, -, -, e0, e1, -⟩ := idx_facts1 t
  unfold iblk1
  rw [View.read_apply]
  show V c main_v35 _ = V c main_v35 _
  congr 1
  funext a
  apply Fin.ext
  match a with
  | ⟨0, _⟩ => show win1_4.index t (0 : Fin 2) * 128 + 1 * (x 0).val = (x 0).val; rw [e0]; omega
  | ⟨1, _⟩ => show win1_4.index t (1 : Fin 2) * 128 + 1 * (x 1).val = (x 1).val; rw [e1]; omega

/-- What the output array ends holding: the linear step of the combined rows, each row scaled by its factor. -/
private def G1 (AGG M : Cert.Spec.Rows) (D : Fin 50000 → EReal) (B : Fin 128 → EReal) (Wn : Fin 128 → Fin 128 → EReal) :
    S50000x128.Idx → EReal :=
  fun i => Cert.Spec.lin (Cert.Spec.combK AGG M D B) Wn ⟨(i 0).val, (i 0).isLt⟩ ⟨(i 1).val, (i 1).isLt⟩ * D ⟨(i 0).val, (i 0).isLt⟩

/-- One point's result block, from blocks that are rows `5000 t …` of the arrays: block `t` of `G1`. -/
private theorem blk1_eq (x0 x1 : Vec Ideal S5000x128 .f32) (x2 : Vec Ideal S5000x1 .f32) (x3 : Vec Ideal S1x128 .f32)
    (x4 : Vec Ideal S128x128 .f32)
    (AGG M : Cert.Spec.Rows) (D : Fin 50000 → EReal) (B : Fin 128 → EReal) (Wn : Fin 128 → Fin 128 → EReal)
    (t : Nat) (ht : t < 10)
    (h0 : ∀ (r : Fin 5000) (k : Fin 128), (x0 : S5000x128.Idx → EReal) (ix2 r k) = AGG ⟨5000 * t + r.val, by have := r.isLt; omega⟩ k)
    (h1 : ∀ (r : Fin 5000) (k : Fin 128), (x1 : S5000x128.Idx → EReal) (ix2 r k) = M ⟨5000 * t + r.val, by have := r.isLt; omega⟩ k)
    (h2 : ∀ (r : Fin 5000), (x2 : S5000x1.Idx → EReal) (ix2 r 0) = D ⟨5000 * t + r.val, by have := r.isLt; omega⟩)
    (h3 : ∀ (k : Fin 128), (x3 : S1x128.Idx → EReal) (ix2 0 k) = B k)
    (h4 : ∀ (k j : Fin 128), (x4 : S128x128.Idx → EReal) (ix2 k j) = Wn k j)
    (y : S5000x128.Idx) (i : S50000x128.Idx) (hi0 : (i 0).val = 5000 * t + (y 0).val) (hi1 : (i 1).val = (y 1).val) :
    (k1_pay1 x2 x0 x1 x3 x4 x2 : S5000x128.Idx → EReal) y = G1 AGG M D B Wn i := by
  obtain ⟨r, j, rfl⟩ : ∃ (r : Fin 5000) (j : Fin 128), y = ix2 r j := ⟨y 0, y 1, eq_ix2 y⟩
  rw [pay1_apply]
  simp only [h0, h1, h2, h3, h4]
  have e0 : (⟨(i 0).val, (i 0).isLt⟩ : Fin 50000) = ⟨5000 * t + r.val, by have := r.isLt; omega⟩ := Fin.ext hi0
  have e1 : (⟨(i 1).val, (i 1).isLt⟩ : Fin 128) = j := Fin.ext hi1
  unfold G1 Cert.Spec.lin Cert.Spec.combK
  rw [e0, e1]

variable (V : (c : Dev nD) → (b : Ref sig .tc) → Buf (Elt Ideal) ((c : Thread nD τ).loc b))

/-- What point `t` writes back is block `t` of `G1` of the arrays the region was entered with. -/
private theorem flushed1_eq (c : Dev nD)
    (AGG M : Cert.Spec.Rows) (D : Fin 50000 → EReal) (B : Fin 128 → EReal) (Wn : Fin 128 → Fin 128 → EReal)
    (hagg : ∀ n k, (V c main_v30 : S50000x128.Idx → EReal) (ix2 n k) = AGG n k)
    (hm : ∀ n k, (V c main_v18 : S50000x128.Idx → EReal) (ix2 n k) = M n k)
    (hd : ∀ n, (V c main_v12 : S50000x1.Idx → EReal) (ix2 n 0) = D n)
    (hb : ∀ k, (V c main_v33 : S1x128.Idx → EReal) (ix2 0 k) = B k)
    (hw : ∀ k j, (V c main_v35 : S128x128.Idx → EReal) (ix2 k j) = Wn k j) (t : Fin cfg1.N) :
    (dat1 V c).flushed 5 t = ((cfg1.win 5).blk t).view.read (Elt Ideal) (G1 AGG M D B Wn) := by
  show (cfg1.win 5).cut (grid1.coords t) ((dat1 V c).after 5 t) = _
  rw [after1_5]
  unfold out1_5
  rw [View.canon_unit_zero hz1]
  simp only [View.ld_unit_zero (S := S5000x128) hz1, View.ld_unit_zero (S := S5000x1) hz1,
    View.ld_unit_zero (S := S1x128) hz1, View.ld_unit_zero (S := S128x128) hz1]
  have ht : t.val < 10 := Nat.lt_of_lt_of_eq t.isLt (show cfg1.N = 10 from N_1)
  obtain ⟨-, -, -, -, -, -, -, -, -, -, e0, e1⟩ := idx_facts1 t
  funext y
  show (k1_pay1 (iblk1 V c 2 t) (iblk1 V c 0 t) (iblk1 V c 1 t) (iblk1 V c 3 t) (iblk1 V c 4 t) (iblk1 V c 2 t) : S5000x128.Idx → EReal) y
    = G1 AGG M D B Wn (((cfg1.win 5).blk t).view.emb y)
  refine blk1_eq _ _ _ _ _ AGG M D B Wn t.val ht (fun r k => ?_) (fun r k => ?_) (fun r => ?_) (fun k => ?_) (fun k j => ?_) y _ ?_ ?_
  · rw [iblk1_0_apply V c t (ix2 r k) (ix2 ⟨5000 * t.val + r.val, by have := r.isLt; omega⟩ k) rfl rfl, hagg]
  · rw [iblk1_1_apply V c t (ix2 r k) (ix2 ⟨5000 * t.val + r.val, by have := r.isLt; omega⟩ k) rfl rfl, hm]
  · rw [iblk1_2_apply V c t (ix2 r 0) (ix2 ⟨5000 * t.val + r.val, by have := r.isLt; omega⟩ 0) rfl rfl, hd]
  · rw [iblk1_3_apply V c t (ix2 0 k), hb]
  · rw [iblk1_4_apply V c t (ix2 k j), hw]
  · show win1_5.index t (0 : Fin 2) * 5000 + 1 * (y 0).val = 5000 * t.val + (y 0).val; rw [e0]; omega
  · show win1_5.index t (1 : Fin 2) * 128 + 1 * (y 1).val = (y 1).val; rw [e1]; omega

/-- An index of the array is in point `t`'s block iff each coordinate is in the block's range on its axis. -/
private theorem mem_blk1 (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v36).slice (win1_5.rect t)).set ↔ _
  rw [View.set_slice_whole, Rect.mem_set_unit]
  exact Iff.rfl

/-- Every row of the array is in some point's block: row `n` in point `n / 5000`'s. -/
private theorem cover1 (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  refine ⟨⟨(i 0).val / 5000, by rw [show cfg1.N = 10 from N_1]; omega⟩, flush1_5 _, ?_⟩
  rw [mem_blk1]
  obtain ⟨-, -, -, -, -, -, -, -, -, -, e0, e1⟩ := idx_facts1 ⟨(i 0).val / 5000, by rw [show cfg1.N = 10 from N_1]; omega⟩
  intro a
  match a with
  | ⟨0, _⟩ =>
    show win1_5.index _ (0 : Fin 2) * 5000 ≤ (i 0).val ∧ (i 0).val < win1_5.index _ (0 : Fin 2) * 5000 + 5000
    rw [e0]; show (i 0).val / 5000 * 5000 ≤ (i 0).val ∧ (i 0).val < (i 0).val / 5000 * 5000 + 5000; omega
  | ⟨1, _⟩ =>
    show win1_5.index _ (1 : Fin 2) * 128 ≤ (i 1).val ∧ (i 1).val < win1_5.index _ (1 : Fin 2) * 128 + 128
    rw [e1]; omega

/-- The output array after the whole grid: at row `n`, column `j`, the linear step of the combined rows, scaled by
    the row's factor. -/
theorem val1 (c : Dev nD)
    (AGG M : Cert.Spec.Rows) (D : Fin 50000 → EReal) (B : Fin 128 → EReal) (Wn : Fin 128 → Fin 128 → EReal)
    (hagg : ∀ n k, (V c main_v30 : S50000x128.Idx → EReal) (ix2 n k) = AGG n k)
    (hm : ∀ n k, (V c main_v18 : S50000x128.Idx → EReal) (ix2 n k) = M n k)
    (hd : ∀ n, (V c main_v12 : S50000x1.Idx → EReal) (ix2 n 0) = D n)
    (hb : ∀ k, (V c main_v33 : S1x128.Idx → EReal) (ix2 0 k) = B k)
    (hw : ∀ k j, (V c main_v35 : S128x128.Idx → EReal) (ix2 k j) = Wn k j) (n : Fin 50000) (j : Fin 128) :
    ((dat1 V c).arrAt 5 cfg1.N : S50000x128.Idx → EReal) (ix2 n j) = Cert.Spec.lin (Cert.Spec.combK AGG M D B) Wn n j * D n := by
  have hfin : (dat1 V c).arrAt 5 cfg1.N = G1 AGG M D B Wn :=
    (dat1 V c).arrAt_eq_of_cover 5 (G1 AGG M D B Wn) (fun t _ => flushed1_eq V c AGG M D B Wn hagg hm hd hb hw t) cover1
  rw [hfin]
  rfl

end Cert.KernelIdeal.Hand

end
-- ==== Proof.KIVal2.lean ====
import proofs.«430762_j39556648796267_2_alg».proof.Proof.KIData2
import proofs.«430762_j39556648796267_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

/-- A column `[a, 1]` broadcast along rows to `[a, b]` reads, at `(p, c)`, the column's entry at row `p`. -/
private theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

private theorem lhs_dot_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
private theorem lhs_dot_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
private theorem rhs_dot_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
private theorem rhs_dot_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The block product at an entry: row `r` of the left block against column `j` of the weight. -/
private theorem matmul_blk_apply (L : FVec Ideal S5000x128 .bf16) (R : FVec Ideal S128x128 .bf16) (r : Fin 5000) (j : Fin 128) :
    (matmul dot_S5000x128_S128x128_S5000x128_1_0_0_1_n_n none L R (constant (F := Ideal) S5000x128 .f32 0x00000000#32) : S5000x128.Idx → EReal) (ix2 r j)
      = ∑ k : Fin 128, L (ix2 r k) * R (ix2 k j) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 r j) ((ValueIdx.contrEquiv1 dot_S5000x128_S128x128_S5000x128_1_0_0_1_n_n 128 rfl rfl).symm k) = ix2 r k := funext fun a => Fin.ext (by
    match a with
    | ⟨0, _⟩ => exact lhs_dot_0 _ _
    | ⟨1, _⟩ => exact (lhs_dot_1 _ _).trans hk)
  have er : dot_S5000x128_S128x128_S5000x128_1_0_0_1_n_n.rhsIdx (ix2 r j) ((ValueIdx.contrEquiv1 dot_S5000x128_S128x128_S5000x128_1_0_0_1_n_n 128 rfl rfl).symm k) = ix2 k j := funext fun a => Fin.ext (by
    match a with
    | ⟨0, _⟩ => exact (rhs_dot_0 _ _).trans hk
    | ⟨1, _⟩ => exact rhs_dot_1 _ _)
  rw [el, er]

/-- The fused step's result block at row `r`, column `j`: the clipped combination of the row, times the weight's
    column, scaled by the row's factor. -/
private theorem pay1_apply (x0 x1 : Vec Ideal S5000x128 .f32) (x2 : Vec Ideal S5000x1 .f32) (x3 : Vec Ideal S1x128 .f32)
    (x4 : Vec Ideal S128x128 .f32) (r : Fin 5000) (j : Fin 128) :
    (k2_pay1 x2 x0 x1 x3 x4 x2 : S5000x128.Idx → EReal) (ix2 r j)
      = (∑ k : Fin 128, max ((x2 : S5000x1.Idx → EReal) (ix2 r 0) * ((x0 : S5000x128.Idx → EReal) (ix2 r k) + (x1 : S5000x128.Idx → EReal) (ix2 r k)) + (x3 : S1x128.Idx → EReal) (ix2 0 k)) 0
          * (x4 : S128x128.Idx → EReal) (ix2 k j)) * (x2 : S5000x1.Idx → EReal) (ix2 r 0) := by
  unfold k2_pay1
  simp only [shapeCast_self]
  rw [mulf_apply, matmul_blk_apply, broadcastTo_a1_ab_apply]
  refine congrArg (· * _) (Finset.sum_congr rfl fun k _ => ?_)
  rw [truncf_apply, truncf_apply, maximumf_apply, addf_apply, mulf_apply, addf_apply, broadcastTo_a1_ab_apply,
    broadcastTo_1b_ab_apply, broadcast_apply]
  have hz0 : (FloatOps.ofBits FTy.f32 0x00000000#32 : Idealize.ShloMosaic.Ideal FTy.f32) = (0 : EReal) := Ideal.ofBits_zero_f32
  rw [hz0]

/-! ## From blocks to the array -/

private theorem hz1 : (![0, 0] : Fin 2 → Nat) = fun _ => 0 := funext fun a => by fin_cases a <;> rfl

/-- The printed index maps over the grid: the row-blocked windows sit at block `t` of the rows, the bias and the
    weight at their one block. -/
private theorem idx_facts1 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

variable (V : (c : Dev nD) → (b : Ref sig .tc) → Buf (Elt F) ((c : Thread nD τ).loc b))

/-- The aggregate's block at point `t` is rows `5000 t … 5000 t + 4999` of its array. -/
private theorem iblk1_0_apply (c : Dev nD) (t : Fin cfg2.N) (x : S5000x128.Idx) (k : S50000x128.Idx)
    (hk0 : (k 0).val = 5000 * t.val + (x 0).val) (hk1 : (k 1).val = (x 1).val) :
    (iblk2 V c 0 t : Vec F S5000x128 .f32) x = (V c main_v48 : S50000x128.Idx → Elt F .f32) k := by
  obtain ⟨e0, e1, -⟩ := idx_facts1 t
  unfold iblk2
  rw [View.read_apply]
  show V c main_v48 _ = V c main_v48 _
  congr 1
  funext a
  apply Fin.ext
  match a with
  | ⟨0, _⟩ => show win2_0.index t (0 : Fin 2) * 5000 + 1 * (x 0).val = (k 0).val; rw [e0, hk0]; omega
  | ⟨1, _⟩ => show win2_0.index t (1 : Fin 2) * 128 + 1 * (x 1).val = (k 1).val; rw [e1, hk1]; omega

/-- The message's block at point `t` is the same rows of its array. -/
private theorem iblk1_1_apply (c : Dev nD) (t : Fin cfg2.N) (x : S5000x128.Idx) (k : S50000x128.Idx)
    (hk0 : (k 0).val = 5000 * t.val + (x 0).val) (hk1 : (k 1).val = (x 1).val) :
    (iblk2 V c 1 t : Vec F S5000x128 .f32) x = (V c main_v36 : S50000x128.Idx → Elt F .f32) k := by
  obtain ⟨-, -, e0, e1, -⟩ := idx_facts1 t
  unfold iblk2
  rw [View.read_apply]
  show V c main_v36 _ = V c main_v36 _
  congr 1
  funext a
  apply Fin.ext
  match a with
  | ⟨0, _⟩ => show win2_1.index t (0 : Fin 2) * 5000 + 1 * (x 0).val = (k 0).val; rw [e0, hk0]; omega
  | ⟨1, _⟩ => show win2_1.index t (1 : Fin 2) * 128 + 1 * (x 1).val = (k 1).val; rw [e1, hk1]; omega

/-- The scaling column's block at point `t` is the same rows of the column. -/
private theorem iblk1_2_apply (c : Dev nD) (t : Fin cfg2.N) (x : S5000x1.Idx) (k : S50000x1.Idx)
    (hk0 : (k 0).val = 5000 * t.val + (x 0).val) (hk1 : (k 1).val = (x 1).val) :
    (iblk2 V c 2 t : Vec F S5000x1 .f32) x = (V c main_v12 : S50000x1.Idx → Elt F .f32) k := by
  obtain ⟨-, -, -, -, e0, e1, -⟩ := idx_facts1 t
  unfold iblk2
  rw [View.read_apply]
  show V c main_v12 _ = V c main_v12 _
  congr 1
  funext a
  apply Fin.ext
  match a with
  | ⟨0, _⟩ => show win2_2.index t (0 : Fin 2) * 5000 + 1 * (x 0).val = (k 0).val; rw [e0, hk0]; omega
  | ⟨1, _⟩ => show win2_2.index t (1 : Fin 2) * 1 + 1 * (x 1).val = (k 1).val; rw [e1, hk1]; omega

/-- The bias's block at every point is the whole bias. -/
private theorem iblk1_3_apply (c : Dev nD) (t : Fin cfg2.N) (x : S1x128.Idx) :
    (iblk2 V c 3 t : Vec F S1x128 .f32) x = (V c main_v51 : S1x128.Idx → Elt F .f32) x := by
  obtain ⟨-, -, -, -, -, -, e0, e1, -⟩ := idx_facts1 t
  unfold iblk2
  rw [View.read_apply]
  show V c main_v51 _ = V c main_v51 _
  congr 1
  funext a
  apply Fin.ext
  match a with
  | ⟨0, _⟩ => show win2_3.index t (0 : Fin 2) * 1 + 1 * (x 0).val = (x 0).val; rw [e0]; omega
  | ⟨1, _⟩ => show win2_3.index t (1 : Fin 2) * 128 + 1 * (x 1).val = (x 1).val; rw [e1]; omega

/-- The weight's block at every point is the whole weight. -/
private theorem iblk1_4_apply (c : Dev nD) (t : Fin cfg2.N) (x : S128x128.Idx) :
    (iblk2 V c 4 t : Vec F S128x128 .f32) x = (V c main_v53 : S128x128.Idx → Elt F .f32) x := by
  obtain ⟨-, -, -, -, -, -, -, -, e0, e1, -⟩ := idx_facts1 t
  unfold iblk2
  rw [View.read_apply]
  show V c main_v53 _ = V c main_v53 _
  congr 1
  funext a
  apply Fin.ext
  match a with
  | ⟨0, _⟩ => show win2_4.index t (0 : Fin 2) * 128 + 1 * (x 0).val = (x 0).val; rw [e0]; omega
  | ⟨1, _⟩ => show win2_4.index t (1 : Fin 2) * 128 + 1 * (x 1).val = (x 1).val; rw [e1]; omega

/-- What the output array ends holding: the linear step of the combined rows, each row scaled by its factor. -/
private def G1 (AGG M : Cert.Spec.Rows) (D : Fin 50000 → EReal) (B : Fin 128 → EReal) (Wn : Fin 128 → Fin 128 → EReal) :
    S50000x128.Idx → EReal :=
  fun i => Cert.Spec.lin (Cert.Spec.combK AGG M D B) Wn ⟨(i 0).val, (i 0).isLt⟩ ⟨(i 1).val, (i 1).isLt⟩ * D ⟨(i 0).val, (i 0).isLt⟩

/-- One point's result block, from blocks that are rows `5000 t …` of the arrays: block `t` of `G1`. -/
private theorem blk1_eq (x0 x1 : Vec Ideal S5000x128 .f32) (x2 : Vec Ideal S5000x1 .f32) (x3 : Vec Ideal S1x128 .f32)
    (x4 : Vec Ideal S128x128 .f32)
    (AGG M : Cert.Spec.Rows) (D : Fin 50000 → EReal) (B : Fin 128 → EReal) (Wn : Fin 128 → Fin 128 → EReal)
    (t : Nat) (ht : t < 10)
    (h0 : ∀ (r : Fin 5000) (k : Fin 128), (x0 : S5000x128.Idx → EReal) (ix2 r k) = AGG ⟨5000 * t + r.val, by have := r.isLt; omega⟩ k)
    (h1 : ∀ (r : Fin 5000) (k : Fin 128), (x1 : S5000x128.Idx → EReal) (ix2 r k) = M ⟨5000 * t + r.val, by have := r.isLt; omega⟩ k)
    (h2 : ∀ (r : Fin 5000), (x2 : S5000x1.Idx → EReal) (ix2 r 0) = D ⟨5000 * t + r.val, by have := r.isLt; omega⟩)
    (h3 : ∀ (k : Fin 128), (x3 : S1x128.Idx → EReal) (ix2 0 k) = B k)
    (h4 : ∀ (k j : Fin 128), (x4 : S128x128.Idx → EReal) (ix2 k j) = Wn k j)
    (y : S5000x128.Idx) (i : S50000x128.Idx) (hi0 : (i 0).val = 5000 * t + (y 0).val) (hi1 : (i 1).val = (y 1).val) :
    (k2_pay1 x2 x0 x1 x3 x4 x2 : S5000x128.Idx → EReal) y = G1 AGG M D B Wn i := by
  obtain ⟨r, j, rfl⟩ : ∃ (r : Fin 5000) (j : Fin 128), y = ix2 r j := ⟨y 0, y 1, eq_ix2 y⟩
  rw [pay1_apply]
  simp only [h0, h1, h2, h3, h4]
  have e0 : (⟨(i 0).val, (i 0).isLt⟩ : Fin 50000) = ⟨5000 * t + r.val, by have := r.isLt; omega⟩ := Fin.ext hi0
  have e1 : (⟨(i 1).val, (i 1).isLt⟩ : Fin 128) = j := Fin.ext hi1
  unfold G1 Cert.Spec.lin Cert.Spec.combK
  rw [e0, e1]

variable (V : (c : Dev nD) → (b : Ref sig .tc) → Buf (Elt Ideal) ((c : Thread nD τ).loc b))

/-- What point `t` writes back is block `t` of `G1` of the arrays the region was entered with. -/
private theorem flushed1_eq (c : Dev nD)
    (AGG M : Cert.Spec.Rows) (D : Fin 50000 → EReal) (B : Fin 128 → EReal) (Wn : Fin 128 → Fin 128 → EReal)
    (hagg : ∀ n k, (V c main_v48 : S50000x128.Idx → EReal) (ix2 n k) = AGG n k)
    (hm : ∀ n k, (V c main_v36 : S50000x128.Idx → EReal) (ix2 n k) = M n k)
    (hd : ∀ n, (V c main_v12 : S50000x1.Idx → EReal) (ix2 n 0) = D n)
    (hb : ∀ k, (V c main_v51 : S1x128.Idx → EReal) (ix2 0 k) = B k)
    (hw : ∀ k j, (V c main_v53 : S128x128.Idx → EReal) (ix2 k j) = Wn k j) (t : Fin cfg2.N) :
    (dat2 V c).flushed 5 t = ((cfg2.win 5).blk t).view.read (Elt Ideal) (G1 AGG M D B Wn) := by
  show (cfg2.win 5).cut (grid2.coords t) ((dat2 V c).after 5 t) = _
  rw [after2_5]
  unfold out2_5
  rw [View.canon_unit_zero hz1]
  simp only [View.ld_unit_zero (S := S5000x128) hz1, View.ld_unit_zero (S := S5000x1) hz1,
    View.ld_unit_zero (S := S1x128) hz1, View.ld_unit_zero (S := S128x128) hz1]
  have ht : t.val < 10 := Nat.lt_of_lt_of_eq t.isLt (show cfg2.N = 10 from N_2)
  obtain ⟨-, -, -, -, -, -, -, -, -, -, e0, e1⟩ := idx_facts1 t
  funext y
  show (k2_pay1 (iblk2 V c 2 t) (iblk2 V c 0 t) (iblk2 V c 1 t) (iblk2 V c 3 t) (iblk2 V c 4 t) (iblk2 V c 2 t) : S5000x128.Idx → EReal) y
    = G1 AGG M D B Wn (((cfg2.win 5).blk t).view.emb y)
  refine blk1_eq _ _ _ _ _ AGG M D B Wn t.val ht (fun r k => ?_) (fun r k => ?_) (fun r => ?_) (fun k => ?_) (fun k j => ?_) y _ ?_ ?_
  · rw [iblk1_0_apply V c t (ix2 r k) (ix2 ⟨5000 * t.val + r.val, by have := r.isLt; omega⟩ k) rfl rfl, hagg]
  · rw [iblk1_1_apply V c t (ix2 r k) (ix2 ⟨5000 * t.val + r.val, by have := r.isLt; omega⟩ k) rfl rfl, hm]
  · rw [iblk1_2_apply V c t (ix2 r 0) (ix2 ⟨5000 * t.val + r.val, by have := r.isLt; omega⟩ 0) rfl rfl, hd]
  · rw [iblk1_3_apply V c t (ix2 0 k), hb]
  · rw [iblk1_4_apply V c t (ix2 k j), hw]
  · show win2_5.index t (0 : Fin 2) * 5000 + 1 * (y 0).val = 5000 * t.val + (y 0).val; rw [e0]; omega
  · show win2_5.index t (1 : Fin 2) * 128 + 1 * (y 1).val = (y 1).val; rw [e1]; omega

/-- An index of the array is in point `t`'s block iff each coordinate is in the block's range on its axis. -/
private theorem mem_blk1 (t : Fin cfg2.N) (i : S50000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v54).slice (win2_5.rect t)).set ↔ _
  rw [View.set_slice_whole, Rect.mem_set_unit]
  exact Iff.rfl

/-- Every row of the array is in some point's block: row `n` in point `n / 5000`'s. -/
private theorem cover1 (i : S50000x128.Idx) :
    ∃ t : Fin cfg2.N, (cfg2.win 5).flush t = true ∧ i ∈ ((cfg2.win 5).blk t).view.set := by
  have hi0 : (i 0).val < 50000 := (i 0).isLt
  have hi1 : (i 1).val < 128 := (i 1).isLt
  refine ⟨⟨(i 0).val / 5000, by rw [show cfg2.N = 10 from N_2]; omega⟩, flush2_5 _, ?_⟩
  rw [mem_blk1]
  obtain ⟨-, -, -, -, -, -, -, -, -, -, e0, e1⟩ := idx_facts1 ⟨(i 0).val / 5000, by rw [show cfg2.N = 10 from N_2]; omega⟩
  intro a
  match a with
  | ⟨0, _⟩ =>
    show win2_5.index _ (0 : Fin 2) * 5000 ≤ (i 0).val ∧ (i 0).val < win2_5.index _ (0 : Fin 2) * 5000 + 5000
    rw [e0]; show (i 0).val / 5000 * 5000 ≤ (i 0).val ∧ (i 0).val < (i 0).val / 5000 * 5000 + 5000; omega
  | ⟨1, _⟩ =>
    show win2_5.index _ (1 : Fin 2) * 128 ≤ (i 1).val ∧ (i 1).val < win2_5.index _ (1 : Fin 2) * 128 + 128
    rw [e1]; omega

/-- The output array after the whole grid: at row `n`, column `j`, the linear step of the combined rows, scaled by
    the row's factor. -/
theorem val2 (c : Dev nD)
    (AGG M : Cert.Spec.Rows) (D : Fin 50000 → EReal) (B : Fin 128 → EReal) (Wn : Fin 128 → Fin 128 → EReal)
    (hagg : ∀ n k, (V c main_v48 : S50000x128.Idx → EReal) (ix2 n k) = AGG n k)
    (hm : ∀ n k, (V c main_v36 : S50000x128.Idx → EReal) (ix2 n k) = M n k)
    (hd : ∀ n, (V c main_v12 : S50000x1.Idx → EReal) (ix2 n 0) = D n)
    (hb : ∀ k, (V c main_v51 : S1x128.Idx → EReal) (ix2 0 k) = B k)
    (hw : ∀ k j, (V c main_v53 : S128x128.Idx → EReal) (ix2 k j) = Wn k j) (n : Fin 50000) (j : Fin 128) :
    ((dat2 V c).arrAt 5 cfg2.N : S50000x128.Idx → EReal) (ix2 n j) = Cert.Spec.lin (Cert.Spec.combK AGG M D B) Wn n j * D n := by
  have hfin : (dat2 V c).arrAt 5 cfg2.N = G1 AGG M D B Wn :=
    (dat2 V c).arrAt_eq_of_cover 5 (G1 AGG M D B Wn) (fun t _ => flushed1_eq V c AGG M D B Wn hagg hm hd hb hw t) cover1
  rw [hfin]
  rfl

end Cert.KernelIdeal.Hand

end
-- ==== Proof.KIVal3.lean ====
import proofs.«430762_j39556648796267_2_alg».proof.Proof.KIData3
import proofs.«430762_j39556648796267_2_alg».proof.Proof.Spec
import Idealize.ShloMosaic.Lib.Pipeline.Value
import Idealize.ShloMosaic.Lib.ValueIdx
import Idealize.ShloMosaic.Lib.ValueLayout
import Idealize.ShloMosaic.PureOps.Ideal.Laws
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

/-! The value of pipeline 3 at the extended reals: what one grid point adds to the accumulator, read at a graph and a
    feature as a sum over the block's rows; the accumulator after the points 0 … n as the blocks' contributions added
    up; the result array after the whole grid as the per-graph sums over all 50000 nodes. -/

/-- A comparison bit widened to 32 bits and read as a signed integer is one or zero. -/
theorem sitofp_eq_bit3 (a b : BitVec 32) :
    (FloatOps.sitofp (F := Ideal) .f32 (BitVec.setWidth 32 (IntOp.cmpi .eq a b)) : EReal) = if a = b then 1 else 0 := by
  show ((((BitVec.setWidth 32 (BitVec.ofBool (a == b))).toInt : ℤ) : ℝ) : EReal) = _
  by_cases h : a = b
  · rw [if_pos h, h]
    simp
  · rw [if_neg h]
    have : (a == b) = false := by simpa using h
    rw [this]
    simp

/-- The indicator column of graph g at row r: one where the row's graph id is the word g, zero elsewhere. -/
theorem onehot3_apply (x4 : Vec Ideal S5000x1 .i32) (r : Fin 5000) (g : Fin 64) :
    (sitofp .f32 (extui 32 (cmpi .eq (broadcastTo S5000x64 (shapeCast S5000x1 x4 shapeCasts_S5000x1_S5000x1) broadcasts_S5000x1_S5000x64)
        (iota .tc S5000x64 32 [1] iota_S5000x64_d1_w32)) natLt_1_32) : FVec Ideal S5000x64 .f32) (ix2 r g)
      = if (x4 (ix2 r 0) : BitVec 32) = BitVec.ofNat 32 g.val then (1 : EReal) else 0 := by
  rw [sitofp_apply, extui_apply]
  unfold cmpi
  rw [iota_single_apply, shapeCast_self]
  rw [broadcastTo_apply x4 broadcasts_S5000x1_S5000x64 (ix2 r g) (ix2 r 0) (fun a => by
    match a with
    | ⟨0, _⟩ => rfl
    | ⟨1, _⟩ => rfl)]
  exact sitofp_eq_bit3 _ _

/-- The zero offsets, however spelt. -/
theorem zeroOff3 : (![0, 0] : Fin 2 → Nat) = fun _ => 0 := funext fun a => by fin_cases a <;> rfl

/-- The product's operand indices at output (g, k) and contraction coordinate q: the left operand is read at (g, q),
    the right one at (q, k). -/
theorem lhs_pool3_0 (i : S64x128.Idx) (q : dot_S64x5000_S5000x128_S64x128_1_0_0_1_n_n.contr.Idx) :
    (dot_S64x5000_S5000x128_S64x128_1_0_0_1_n_n.lhsIdx i q 0).val = (i 0).val := by
  unfold DotDims.lhsIdx
  rw [dif_neg (show ¬(0 : Fin S64x5000.rank) ∈ dot_S64x5000_S5000x128_S64x128_1_0_0_1_n_n.lhsBatch by decide), dif_pos (show (0 : Fin S64x5000.rank) ∈ dot_S64x5000_S5000x128_S64x128_1_0_0_1_n_n.lhsNonContracting by decide)]
  rfl
theorem lhs_pool3_1 (i : S64x128.Idx) (q : dot_S64x5000_S5000x128_S64x128_1_0_0_1_n_n.contr.Idx) :
    (dot_S64x5000_S5000x128_S64x128_1_0_0_1_n_n.lhsIdx i q 1).val = (q ⟨0, by decide⟩).val :=
  dot_S64x5000_S5000x128_S64x128_1_0_0_1_n_n.lhsIdx_val_of_single rfl i q
theorem rhs_pool3_0 (i : S64x128.Idx) (q : dot_S64x5000_S5000x128_S64x128_1_0_0_1_n_n.contr.Idx) :
    (dot_S64x5000_S5000x128_S64x128_1_0_0_1_n_n.rhsIdx i q 0).val = (q ⟨0, by decide⟩).val :=
  dot_S64x5000_S5000x128_S64x128_1_0_0_1_n_n.rhsIdx_val_of_single rfl i q
theorem rhs_pool3_1 (i : S64x128.Idx) (q : dot_S64x5000_S5000x128_S64x128_1_0_0_1_n_n.contr.Idx) :
    (dot_S64x5000_S5000x128_S64x128_1_0_0_1_n_n.rhsIdx i q 1).val = (i 1).val := by
  unfold DotDims.rhsIdx
  rw [dif_neg (show ¬(1 : Fin S5000x128.rank) ∈ dot_S64x5000_S5000x128_S64x128_1_0_0_1_n_n.rhsBatch by decide), dif_pos (show (1 : Fin S5000x128.rank) ∈ dot_S64x5000_S5000x128_S64x128_1_0_0_1_n_n.rhsNonContracting by decide)]
  rfl

/-- One point's update at graph g, feature k: the sums so far plus, over the block's 5000 rows, the indicator of
    "row r belongs to graph g" times the row's combined and clipped feature. -/
theorem step3_apply (x0 x1 : Vec Ideal S5000x128 .f32) (x2 : Vec Ideal S5000x1 .f32) (x3 : Vec Ideal S1x128 .f32)
    (x4 : Vec Ideal S5000x1 .i32) (s : Vec Ideal S64x128 .f32) (g : Fin 64) (k : Fin 128) :
    (step3 x0 x1 x2 x3 x4 s : S64x128.Idx → EReal) (ix2 g k)
      = (s (ix2 g k) : EReal) + ∑ r : Fin 5000, (if (x4 (ix2 r 0) : BitVec 32) = BitVec.ofNat 32 g.val then (1 : EReal) else 0)
          * max ((x2 (ix2 r 0) : EReal) * ((x0 (ix2 r k) : EReal) + x1 (ix2 r k)) + x3 (ix2 0 k)) 0 := by
  unfold step3 k3_pay2
  simp only [View.ld_unit_zero (S := S5000x128) zeroOff3, View.ld_unit_zero (S := S5000x1) zeroOff3, View.ld_unit_zero (S := S1x128) zeroOff3]
  rw [shapeCast_self, addf_apply]
  simp only [matmul]
  rw [Ideal.matmul_constant_zero_apply, ← Equiv.sum_comp (contrEquiv1 dot_S64x5000_S5000x128_S64x128_1_0_0_1_n_n 5000 rfl rfl).symm]
  congr 1
  refine Finset.sum_congr rfl fun r _ => ?_
  have hr := contrEquiv1_symm_val dot_S64x5000_S5000x128_S64x128_1_0_0_1_n_n 5000 rfl rfl r
  have el : dot_S64x5000_S5000x128_S64x128_1_0_0_1_n_n.lhsIdx (ix2 g k) ((contrEquiv1 dot_S64x5000_S5000x128_S64x128_1_0_0_1_n_n 5000 rfl rfl).symm r) = ix2 g r := funext fun a => Fin.ext (by
    match a with
    | ⟨0, _⟩ => exact lhs_pool3_0 _ _
    | ⟨1, _⟩ => exact (lhs_pool3_1 _ _).trans hr)
  have er : dot_S64x5000_S5000x128_S64x128_1_0_0_1_n_n.rhsIdx (ix2 g k) ((contrEquiv1 dot_S64x5000_S5000x128_S64x128_1_0_0_1_n_n 5000 rfl rfl).symm r) = ix2 r k := funext fun a => Fin.ext (by
    match a with
    | ⟨0, _⟩ => exact (rhs_pool3_0 _ _).trans hr
    | ⟨1, _⟩ => exact rhs_pool3_1 _ _)
  rw [el, er, transpose_ix2_apply, truncf_apply, truncf_apply, onehot3_apply, maximumf_apply, addf_apply, mulf_apply, addf_apply, broadcast_apply]
  simp only [shapeCast_self]
  rw [broadcastTo_1b_ab_apply, broadcastTo_apply x2 broadcasts_S5000x1_S5000x128 (ix2 r k) (ix2 r 0) (fun a => by
    match a with
    | ⟨0, _⟩ => rfl
    | ⟨1, _⟩ => rfl)]
  rw [Ideal.ofBits_def, Ideal.ofBits_zero_f32]

variable (V : (c : Dev nD) → (b : Ref sig .tc) → Buf (Elt Ideal) ((c : Thread nD τ).loc b))

/-- The windows' index maps, decided once over the grid: the four row windows sit at block (t, 0), the bias and the
    result at block (0, 0). -/
theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0
    ∧ win3_5.index t (0 : Fin 2) = 0 ∧ win3_5.index t (1 : Fin 2) = 0 :=
  (by decide +kernel : ∀ t : Fin grid3.N, _)

/-- Row x of the aggregate's block at point t is row 5000 t + x of the array. -/
theorem iblk3_0_apply (c : Dev nD) (t : Fin cfg3.N) (x : S5000x128.Idx) (j : S50000x128.Idx)
    (hj0 : (j 0).val = 5000 * t.val + (x 0).val) (hj1 : (j 1).val = (x 1).val) :
    (iblk3 V c 0 t : Vec Ideal S5000x128 .f32) x = (V c main_v66 : S50000x128.Idx → EReal) j := by
  obtain ⟨e0, e1, -⟩ := idx_facts3 t
  unfold iblk3
  rw [View.read_apply]
  show V c main_v66 _ = V c main_v66 _
  congr 1
  funext a
  apply Fin.ext
  match a with
  | ⟨0, _⟩ => show win3_0.index t 0 * 5000 + 1 * (x 0).val = (j 0).val; rw [e0, hj0]; omega
  | ⟨1, _⟩ => show win3_0.index t 1 * 128 + 1 * (x 1).val = (j 1).val; rw [e1, hj1]; omega

/-- Row x of the message's block at point t is row 5000 t + x of the array. -/
theorem iblk3_1_apply (c : Dev nD) (t : Fin cfg3.N) (x : S5000x128.Idx) (j : S50000x128.Idx)
    (hj0 : (j 0).val = 5000 * t.val + (x 0).val) (hj1 : (j 1).val = (x 1).val) :
    (iblk3 V c 1 t : Vec Ideal S5000x128 .f32) x = (V c main_v54 : S50000x128.Idx → EReal) j := by
  obtain ⟨-, -, a0, a1, b0, b1, c0, c1, d0, d1, -⟩ := idx_facts3 t
  unfold iblk3
  rw [View.read_apply]
  show V c main_v54 _ = V c main_v54 _
  congr 1
  funext a
  apply Fin.ext
  match a with
  | ⟨0, _⟩ => show win3_1.index t 0 * 5000 + 1 * (x 0).val = (j 0).val; rw [a0, hj0]; omega
  | ⟨1, _⟩ => show win3_1.index t 1 * 128 + 1 * (x 1).val = (j 1).val; rw [a1, hj1]; omega

/-- Row x of the degree column's block at point t is row 5000 t + x of the column. -/
theorem iblk3_2_apply (c : Dev nD) (t : Fin cfg3.N) (x : S5000x1.Idx) (j : S50000x1.Idx)
    (hj0 : (j 0).val = 5000 * t.val + (x 0).val) (hj1 : (j 1).val = (x 1).val) :
    (iblk3 V c 2 t : Vec Ideal S5000x1 .f32) x = (V c main_v12 : S50000x1.Idx → EReal) j := by
  obtain ⟨-, -, a0, a1, b0, b1, c0, c1, d0, d1, -⟩ := idx_facts3 t
  unfold iblk3
  rw [View.read_apply]
  show V c main_v12 _ = V c main_v12 _
  congr 1
  funext a
  apply Fin.ext
  match a with
  | ⟨0, _⟩ => show win3_2.index t 0 * 5000 + 1 * (x 0).val = (j 0).val; rw [b0, hj0]; omega
  | ⟨1, _⟩ => show win3_2.index t 1 * 1 + 1 * (x 1).val = (j 1).val; rw [b1, hj1]; omega

/-- The bias block is all of the bias at every point. -/
theorem iblk3_3_apply (c : Dev nD) (t : Fin cfg3.N) (x : S1x128.Idx) (j : S1x128.Idx)
    (hj0 : (j 0).val = (x 0).val) (hj1 : (j 1).val = (x 1).val) :
    (iblk3 V c 3 t : Vec Ideal S1x128 .f32) x = (V c main_v69 : S1x128.Idx → EReal) j := by
  obtain ⟨-, -, a0, a1, b0, b1, c0, c1, d0, d1, -⟩ := idx_facts3 t
  unfold iblk3
  rw [View.read_apply]
  show V c main_v69 _ = V c main_v69 _
  congr 1
  funext a
  apply Fin.ext
  match a with
  | ⟨0, _⟩ => show win3_3.index t 0 * 1 + 1 * (x 0).val = (j 0).val; rw [c0, hj0]; omega
  | ⟨1, _⟩ => show win3_3.index t 1 * 128 + 1 * (x 1).val = (j 1).val; rw [c1, hj1]; omega

/-- Row x of the graph ids' block at point t is row 5000 t + x of the column. -/
theorem iblk3_4_apply (c : Dev nD) (t : Fin cfg3.N) (x : S5000x1.Idx) (j : S50000x1.Idx)
    (hj0 : (j 0).val = 5000 * t.val + (x 0).val) (hj1 : (j 1).val = (x 1).val) :
    (iblk3 V c 4 t : Vec Ideal S5000x1 .i32) x = (V c main_v4 : S50000x1.Idx → BitVec 32) j := by
  obtain ⟨-, -, a0, a1, b0, b1, c0, c1, d0, d1, -⟩ := idx_facts3 t
  unfold iblk3
  rw [View.read_apply]
  show V c main_v4 _ = V c main_v4 _
  congr 1
  funext a
  apply Fin.ext
  match a with
  | ⟨0, _⟩ => show win3_4.index t 0 * 5000 + 1 * (x 0).val = (j 0).val; rw [d0, hj0]; omega
  | ⟨1, _⟩ => show win3_4.index t 1 * 1 + 1 * (x 1).val = (j 1).val; rw [d1, hj1]; omega

variable (AGG M : Cert.Spec.Rows) (D : Fin 50000 → EReal) (B : Fin 128 → EReal) (bt : Fin 50000 → BitVec 32)

/-- What the 5000 rows of block t add to graph g's sum of feature k: each row counts when its graph id is g. -/
def blockSum3 (g : Fin 64) (k : Fin 128) (t : Fin cfg3.N) : EReal :=
  ∑ r : Fin 5000, (if bt ⟨5000 * t.val + r.val, by have : t.val < 10 := t.isLt; have := r.isLt; omega⟩ = BitVec.ofNat 32 g.val then (1 : EReal) else 0)
    * Cert.Spec.combK AGG M D B ⟨5000 * t.val + r.val, by have : t.val < 10 := t.isLt; have := r.isLt; omega⟩ k

section
variable (c : Dev nD)
    (hagg : ∀ n k, (V c main_v66 : S50000x128.Idx → EReal) (ix2 n k) = AGG n k)
    (hm : ∀ n k, (V c main_v54 : S50000x128.Idx → EReal) (ix2 n k) = M n k)
    (hd : ∀ n, (V c main_v12 : S50000x1.Idx → EReal) (ix2 n 0) = D n)
    (hb : ∀ k, (V c main_v69 : S1x128.Idx → EReal) (ix2 0 k) = B k)
    (hbt : ∀ n, (V c main_v4 : S50000x1.Idx → BitVec 32) (ix2 n 0) = bt n)
include hagg hm hd hb hbt

/-- One point's update over the region's own blocks: the sums so far plus the block's contribution. -/
theorem step3_blocks (t : Fin cfg3.N) (s : Vec Ideal S64x128 .f32) (g : Fin 64) (k : Fin 128) :
    (step3 (iblk3 V c 0 t) (iblk3 V c 1 t) (iblk3 V c 2 t) (iblk3 V c 3 t) (iblk3 V c 4 t) s : S64x128.Idx → EReal) (ix2 g k)
      = (s (ix2 g k) : EReal) + blockSum3 AGG M D B bt g k t := by
  refine (step3_apply _ _ _ _ _ s g k).trans ?_
  congr 1
  unfold blockSum3 Cert.Spec.combK
  refine Finset.sum_congr rfl fun r _ => ?_
  have ht : t.val < 10 := t.isLt
  have hr := r.isLt
  rw [iblk3_0_apply V c t (ix2 r k) (ix2 ⟨5000 * t.val + r.val, by omega⟩ k) rfl rfl,
    iblk3_1_apply V c t (ix2 r k) (ix2 ⟨5000 * t.val + r.val, by omega⟩ k) rfl rfl,
    iblk3_2_apply V c t (ix2 r 0) (ix2 ⟨5000 * t.val + r.val, by omega⟩ 0) rfl rfl,
    iblk3_3_apply V c t (ix2 0 k) (ix2 0 k) rfl rfl,
    iblk3_4_apply V c t (ix2 r 0) (ix2 ⟨5000 * t.val + r.val, by omega⟩ 0) rfl rfl,
    hagg, hm, hd, hb, hbt]

/-- The accumulator after the body at position n holds the contributions of the blocks 0 … n. -/
theorem acc3_apply (g : Fin 64) (k : Fin 128) : ∀ n : ℕ,
    (acc3 V c n : S64x128.Idx → EReal) (ix2 g k) = ∑ t ∈ Finset.range (n + 1), blockSum3 AGG M D B bt g k (pt3 t)
  | 0 => by
    rw [acc3, step3_blocks V AGG M D B bt c hagg hm hd hb hbt (pt3 0) _ g k, Finset.sum_range_one]
    have z : (k3_pay1 (F := Ideal) : S64x128.Idx → EReal) (ix2 g k) = 0 := by
      unfold k3_pay1
      rw [shapeCast_self, broadcast_apply]
      exact Ideal.ofBits_zero_f32
    rw [z, zero_add]
  | n + 1 => by
    rw [acc3, step3_blocks V AGG M D B bt c hagg hm hd hb hbt (pt3 (n + 1)) _ g k, acc3_apply g k n, ← Finset.sum_range_succ]

end

/-- A sum over the 50000 nodes is the sum, over the ten blocks, of the sums over each block's 5000 rows. -/
theorem sum_blocks3 (f : Fin 50000 → EReal) :
    ∑ n, f n = ∑ t : Fin 10, ∑ r : Fin 5000, f ⟨5000 * t.val + r.val, by have := t.isLt; have := r.isLt; omega⟩ := by
  refine (Equiv.sum_comp (finProdFinEquiv (m := 10) (n := 5000)) f).symm.trans ?_
  rw [Fintype.sum_prod_type]
  refine Finset.sum_congr rfl fun t _ => Finset.sum_congr rfl fun r _ => congrArg f (Fin.ext ?_)
  show r.val + 5000 * t.val = 5000 * t.val + r.val
  omega

/-- The last grid point, the one that writes the result back. -/
abbrev last3 : Fin cfg3.N := ⟨9, by decide⟩

/-- The one write-back, at the last point, writes the accumulator's last contents: block (0, 0) of the 64×128 array
    read through zero offsets is the array. -/
theorem flushed3_5_eq (c : Dev nD) (t : Fin cfg3.N) (hf : (cfg3.win 5).flush t = true) :
    (dat3 V c).flushed 5 t = ((cfg3.win 5).blk t).view.read (Elt Ideal) (acc3 V c 9) := by
  have h1 : t.val = 9 := by have := (flush3_5 t).mp hf; have : t.val < 10 := t.isLt; omega
  obtain rfl : t = last3 := Fin.ext h1
  show (cfg3.win 5).cut (grid3.coords last3) ((dat3 V c).after 5 last3) = _
  rw [after3_5]
  have hz' : (fun a => win3_5.index last3 a * main_v70.ty.shape.size a) = fun _ => 0 := funext fun a => by fin_cases a <;> decide +kernel
  exact (Memref.read_access_unit_zero (Elt Ideal) main_v70 hz' (fun a => by rw [congrFun hz' a]; simp) (acc3 V c 9)).symm

/-- So the result array ends holding the accumulator's last contents: the last point's block covers the array. -/
theorem arrAt3_5 (c : Dev nD) : (dat3 V c).arrAt 5 cfg3.N = acc3 V c 9 :=
  (dat3 V c).arrAt_eq_of_cover 5 (acc3 V c 9) (flushed3_5_eq V c) fun i =>
    ⟨last3, (flush3_5 last3).mpr rfl, by
      show i ∈ ((View.whole main_v70).slice (win3_5.rect last3)).set
      rw [View.set_slice_whole, Rect.mem_set_unit]
      intro a
      have h0 : (i 0 : Nat) < 64 := (i 0).isLt
      have h1 : (i 1 : Nat) < 128 := (i 1).isLt
      match a with
      | ⟨0, _⟩ => show win3_5.index last3 0 * win3_5.size 0 ≤ (i 0 : Nat) ∧ (i 0 : Nat) < win3_5.index last3 0 * win3_5.size 0 + win3_5.xsize (grid3.coords last3) 0
                  rw [show win3_5.index last3 0 * win3_5.size 0 = 0 from by decide +kernel, show win3_5.xsize (grid3.coords last3) 0 = 64 from by decide +kernel]; omega
      | ⟨1, _⟩ => show win3_5.index last3 1 * win3_5.size 1 ≤ (i 1 : Nat) ∧ (i 1 : Nat) < win3_5.index last3 1 * win3_5.size 1 + win3_5.xsize (grid3.coords last3) 1
                  rw [show win3_5.index last3 1 * win3_5.size 1 = 0 from by decide +kernel, show win3_5.xsize (grid3.coords last3) 1 = 128 from by decide +kernel]; omega⟩

/-- After the whole grid the result array holds, for graph g and feature k, the sum over all 50000 nodes whose graph id
    is g of the node's combined and clipped feature: the per-graph sums of the last combine step. -/
theorem val3 (V : (c : Dev nD) → (b : Ref sig .tc) → Buf (Elt Ideal) ((c : Thread nD τ).loc b)) (c : Dev nD)
    (AGG M : Cert.Spec.Rows) (D : Fin 50000 → EReal) (B : Fin 128 → EReal) (bt : Fin 50000 → BitVec 32)
    (hagg : ∀ n k, (V c main_v66 : S50000x128.Idx → EReal) (ix2 n k) = AGG n k)
    (hm : ∀ n k, (V c main_v54 : S50000x128.Idx → EReal) (ix2 n k) = M n k)
    (hd : ∀ n, (V c main_v12 : S50000x1.Idx → EReal) (ix2 n 0) = D n)
    (hb : ∀ k, (V c main_v69 : S1x128.Idx → EReal) (ix2 0 k) = B k)
    (hbt : ∀ n, (V c main_v4 : S50000x1.Idx → BitVec 32) (ix2 n 0) = bt n) (g : Fin 64) (k : Fin 128) :
    ((dat3 V c).arrAt 5 cfg3.N : S64x128.Idx → EReal) (ix2 g k) = Cert.Spec.pool bt (Cert.Spec.combK AGG M D B) g k := by
  refine (congrFun (arrAt3_5 V c) (ix2 g k)).trans ?_
  rw [acc3_apply V AGG M D B bt c hagg hm hd hb hbt g k 9]
  show ∑ t ∈ Finset.range 10, blockSum3 AGG M D B bt g k (pt3 t) = _
  rw [Finset.sum_range]
  unfold Cert.Spec.pool
  rw [sum_blocks3]
  refine Finset.sum_congr rfl fun t _ => ?_
  have e : pt3 t.val = t := Fin.ext (Nat.mod_eq_of_lt t.isLt)
  rw [e]
  rfl

end Cert.KernelIdeal.Hand

end
-- ==== Proof.RGraphDefs.lean ====
import proofs.«430762_j39556648796267_2_alg».proof.ReferenceIdeal
import proofs.«430762_j39556648796267_2_alg».proof.Proof.Gen.ReferenceIdeal
import proofs.«430762_j39556648796267_2_alg».proof.Proof.Spec

noncomputable section

/-! The graph side of the network as the whole-array program spells it, named once: the edge list's two rows, the
    wrapping of negative node ids, the in-degree normalisation, one layer's edge aggregate in the two forms the two
    programs use, the per-graph sums, and the classifier tail. -/

namespace Cert.ReferenceIdeal.Graph

open Cert.ReferenceIdeal Cert.ReferenceIdeal.Facts₀ Idealize.ShloMosaic

variable {F : FTy → Type} [FloatOps F]

/-- The sources of the edges: row 0 of the edge list. -/
def srcOf (ei : (⟨S2x600000, .i32⟩ : BufTy).Contents (Elt F)) : (⟨S600000, .i32⟩ : BufTy).Contents (Elt F) :=
  shapeCast _ (extractStridedSlice S1x600000 ![0, 0] ei slices_S2x600000_S1x600000_0_0) shapeCasts_S1x600000_S600000

/-- The destinations of the edges: row 1 of the edge list. -/
def dstOf (ei : (⟨S2x600000, .i32⟩ : BufTy).Contents (Elt F)) : (⟨S600000, .i32⟩ : BufTy).Contents (Elt F) :=
  shapeCast _ (extractStridedSlice S1x600000 ![1, 0] ei slices_S2x600000_S1x600000_1_0) shapeCasts_S1x600000_S600000

/-- Node ids as a gather reads them: a negative id counts from the end (50000 is added to it). -/
def nrm (v : (⟨S600000, .i32⟩ : BufTy).Contents (Elt F)) : (⟨S600000, .i32⟩ : BufTy).Contents (Elt F) :=
  select (cmpi .slt v (broadcastInDim S600000 ![] bcast_S_S600000 (constantI S_ 32 0#32)))
    (addi v (broadcastInDim S600000 ![] bcast_S_S600000 (constantI S_ 32 50000#32))) v

/-- A list of node ids as a column of index vectors. -/
def col (v : (⟨S600000, .i32⟩ : BufTy).Contents (Elt F)) : (⟨S600000x1, .i32⟩ : BufTy).Contents (Elt F) :=
  broadcastInDim S600000x1 ![0] bcast_S600000_S600000x1_0 v

/-- The all-zero 50000 × 128 array every aggregate starts from. -/
def zeros2 : (⟨S50000x128, .f32⟩ : BufTy).Contents (Elt F) :=
  broadcastInDim S50000x128 ![] bcast_S_S50000x128 (constant S_ .f32 0x00000000#32)

/-- A node's degree with its self loop: the number of edges that end at it, plus one. -/
def degOf (dst : (⟨S600000, .i32⟩ : BufTy).Contents (Elt F)) : (⟨S50000, .f32⟩ : BufTy).Contents (Elt F) :=
  addf (Host.scatterAdd scatter_S50000_S600000x1_S600000_n_0_0_1 (broadcastInDim S50000 ![] bcast_S_S50000 (constant S_ .f32 0x00000000#32))
      (col dst) (broadcastInDim S600000 ![] bcast_S_S600000 (constant S_ .f32 0x3F800000#32)))
    (broadcastInDim S50000 ![] bcast_S_S50000 (constant S_ .f32 0x3F800000#32))

/-- The normalisation factor of a node: one over the square root of its degree. -/
def disOf (dst : (⟨S600000, .i32⟩ : BufTy).Contents (Elt F)) : (⟨S50000, .f32⟩ : BufTy).Contents (Elt F) :=
  Host.rsqrt (degOf dst)

/-- The edge aggregate over messages `M` already scaled at their source: every edge adds its source's row to its
    destination's. -/
def aggK (src dst : (⟨S600000, .i32⟩ : BufTy).Contents (Elt F)) (M : (⟨S50000x128, .f32⟩ : BufTy).Contents (Elt F)) :
    (⟨S50000x128, .f32⟩ : BufTy).Contents (Elt F) :=
  Host.scatterAdd scatter_S50000x128_S600000x1_S600000x128_1_0_0_1 zeros2 (col dst)
    (Host.gather gather_S50000x128_S600000x1_S600000x128_1_0_n_n_0_1_1128 M (col (nrm src)))

/-- The weight of each edge: the factor of its source times the factor of its destination, as a column. -/
def edgeNorm (src dst : (⟨S600000, .i32⟩ : BufTy).Contents (Elt F)) (D : (⟨S50000, .f32⟩ : BufTy).Contents (Elt F)) :
    (⟨S600000x1, .f32⟩ : BufTy).Contents (Elt F) :=
  broadcastInDim S600000x1 ![0] bcast_S600000_S600000x1_0
    (mulf (Host.gather gather_S50000_S600000x1_S600000_n_0_n_n_0_1_1 D (col (nrm src)))
      (Host.gather gather_S50000_S600000x1_S600000_n_0_n_n_0_1_1 D (col (nrm dst))))

/-- The edge aggregate over unscaled rows `HW`: every edge adds its source's row times the edge's weight to its
    destination's. -/
def aggR (src dst : (⟨S600000, .i32⟩ : BufTy).Contents (Elt F)) (HW : (⟨S50000x128, .f32⟩ : BufTy).Contents (Elt F))
    (D : (⟨S50000, .f32⟩ : BufTy).Contents (Elt F)) : (⟨S50000x128, .f32⟩ : BufTy).Contents (Elt F) :=
  Host.scatterAdd scatter_S50000x128_S600000x1_S600000x128_1_0_0_1 zeros2 (col dst)
    (mulf (Host.gather gather_S50000x128_S600000x1_S600000x128_1_0_n_n_0_1_1128 HW (col (nrm src)))
      (broadcastInDim S600000x128 ![0, 1] bcast_S600000x1_S600000x128_0_1 (edgeNorm src dst D)))

/-- The per-graph sums of node rows: every node adds its row to its graph's. -/
def poolR (batch : (⟨S50000, .i32⟩ : BufTy).Contents (Elt F)) (h : (⟨S50000x128, .f32⟩ : BufTy).Contents (Elt F)) :
    (⟨S64x128, .f32⟩ : BufTy).Contents (Elt F) :=
  Host.scatterAdd scatter_S64x128_S50000x1_S50000x128_1_0_0_1 (broadcastInDim S64x128 ![] bcast_S_S64x128 (constant S_ .f32 0x00000000#32))
    (broadcastInDim S50000x1 ![0] bcast_S50000_S50000x1_0 batch) h

/-- The classifier tail: the sums divided by each graph's node count (at least one), then two dense layers with a
    clipping at zero between them. -/
def tailR (sums : (⟨S64x128, .f32⟩ : BufTy).Contents (Elt F)) (batch : (⟨S50000, .i32⟩ : BufTy).Contents (Elt F))
    (c1w : (⟨S128x64, .f32⟩ : BufTy).Contents (Elt F)) (c1b : (⟨S64, .f32⟩ : BufTy).Contents (Elt F))
    (c2w : (⟨S64x1, .f32⟩ : BufTy).Contents (Elt F)) (c2b : (⟨S1, .f32⟩ : BufTy).Contents (Elt F)) :
    (⟨S64x1, .f32⟩ : BufTy).Contents (Elt F) :=
  addf
    (Host.dotGeneral dot_S64x64_S64x1_S64x1_1_0_0_1_n_n none
      (maximumf
        (addf
          (Host.dotGeneral dot_S64x128_S128x64_S64x64_1_0_0_1_n_n none
            (Host.divf sums
              (broadcastInDim S64x128 ![0, 1] bcast_S64x1_S64x128_0_1
                (broadcastInDim S64x1 ![0] bcast_S64_S64x1_0
                  (maximumf
                    (Host.scatterAdd scatter_S64_S50000x1_S50000_n_0_0_1 (broadcastInDim S64 ![] bcast_S_S64 (constant S_ .f32 0x00000000#32))
                      (broadcastInDim S50000x1 ![0] bcast_S50000_S50000x1_0 batch)
                      (broadcastInDim S50000 ![] bcast_S_S50000 (constant S_ .f32 0x3F800000#32)))
                    (broadcastInDim S64 ![] bcast_S_S64 (constant S_ .f32 0x3F800000#32))))))
            c1w)
          (broadcastInDim S64x64 ![0, 1] bcast_S1x64_S64x64_0_1 (broadcastInDim S1x64 ![1] bcast_S64_S1x64_1 c1b)))
        (broadcastInDim S64x64 ![] bcast_S_S64x64 (constant S_ .f32 0x00000000#32)))
      c2w)
    (broadcastInDim S64x1 ![0, 1] bcast_S1x1_S64x1_0_1 (broadcastInDim S1x1 ![1] bcast_S1_S1x1_1 c2b))

end Cert.ReferenceIdeal.Graph

end
-- ==== Proof.KIHostA.lean ====
import proofs.«430762_j39556648796267_2_alg».proof.Proof.Gen.KernelIdeal.Regions
import proofs.«430762_j39556648796267_2_alg».proof.Proof.Spec
import proofs.«430762_j39556648796267_2_alg».proof.Proof.RGraphDefs
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.ValueIdx

variable (m : (ℓ : Loc nD τ sig) → Buf (Elt Ideal) ℓ) (outs : Gen.Outs (F := Ideal)) (c : Dev nD)

/-! What the host stretches of the tiled program compute, read off the valuations between its items: the
    normalisation column, the parameter rows and weight slabs as reshaped or sliced for each call, and the edge
    aggregate of the first layer's messages. -/

set_option quotPrecheck false in
local notation "A(" r ")" => m ((c.tc : Thread nD τ).loc r)

/-- A vector cast to a column reads, at `(i, u)`, the vector at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## The arguments the first stretch leaves alone -/

theorem k_x : V1 m c main_arg0 = A(main_arg0) := V1_of m c main_arg0 (by decide)
theorem k_ew : V1 m c main_arg4 = A(main_arg4) := V1_of m c main_arg4 (by decide)

/-! ## The normalisation column -/

/-- The first stretch leaves in `main_v12` the normalisation factors, as a column. -/
theorem v12_eq : (V1 m c main_v12 : S50000x1.Idx → EReal) =
    shapeCast _ (Cert.ReferenceIdeal.Graph.disOf (F := Ideal) (Cert.ReferenceIdeal.Graph.dstOf A(main_arg1))) shapeCasts_S50000_S50000x1 := by
  dsimp only [Gen.V1]; after_results; rfl

theorem k_dis1 (n : Fin 50000) : (V1 m c main_v12 : S50000x1.Idx → EReal) (ix2 n 0) =
    Cert.ReferenceIdeal.Graph.disOf (F := Ideal) (Cert.ReferenceIdeal.Graph.dstOf A(main_arg1)) (ix1 n) := by
  rw [v12_eq]; exact shapeCast_a_a1_apply _ _ n 0

/-- No later item writes `main_v12`: the column read before each later call is the one the first stretch wrote. -/
theorem v12_3 : V3 m outs c main_v12 = V1 m c main_v12 :=
  (V3_of m outs c main_v12 (by decide)).trans (V2_of m outs c main_v12 (by decide))
theorem v12_5 : V5 m outs c main_v12 = V1 m c main_v12 :=
  (V5_of m outs c main_v12 (by decide)).trans <| (V4_of m outs c main_v12 (by decide)).trans (v12_3 m outs c)
theorem v12_7 : V7 m outs c main_v12 = V1 m c main_v12 :=
  (V7_of m outs c main_v12 (by decide)).trans <| (V6_of m outs c main_v12 (by decide)).trans (v12_5 m outs c)

theorem k_dis3 (n : Fin 50000) : (V3 m outs c main_v12 : S50000x1.Idx → EReal) (ix2 n 0) =
    Cert.ReferenceIdeal.Graph.disOf (F := Ideal) (Cert.ReferenceIdeal.Graph.dstOf A(main_arg1)) (ix1 n) := by
  rw [v12_3]; exact k_dis1 m c n
theorem k_dis5 (n : Fin 50000) : (V5 m outs c main_v12 : S50000x1.Idx → EReal) (ix2 n 0) =
    Cert.ReferenceIdeal.Graph.disOf (F := Ideal) (Cert.ReferenceIdeal.Graph.dstOf A(main_arg1)) (ix1 n) := by
  rw [v12_5]; exact k_dis1 m c n
theorem k_dis7 (n : Fin 50000) : (V7 m outs c main_v12 : S50000x1.Idx → EReal) (ix2 n 0) =
    Cert.ReferenceIdeal.Graph.disOf (F := Ideal) (Cert.ReferenceIdeal.Graph.dstOf A(main_arg1)) (ix1 n) := by
  rw [v12_7]; exact k_dis1 m c n

/-! ## The encoder's parameter rows and the first weight slab -/

theorem k_eb (k : Fin 128) : (V1 m c main_v13 : S1x128.Idx → EReal) (ix2 0 k) = A(main_arg5) (ix1 k) := by
  have e : (V1 m c main_v13 : S1x128.Idx → EReal) = shapeCast _ A(main_arg5) shapeCasts_S128_S1x128 := by
    dsimp only [Gen.V1]; after_results; rfl
  rw [e]; exact shapeCast_a_1a_apply _ _ 0 k
theorem k_g (k : Fin 128) : (V1 m c main_v14 : S1x128.Idx → EReal) (ix2 0 k) = A(main_arg6) (ix1 k) := by
  have e : (V1 m c main_v14 : S1x128.Idx → EReal) = shapeCast _ A(main_arg6) shapeCasts_S128_S1x128 := by
    dsimp only [Gen.V1]; after_results; rfl
  rw [e]; exact shapeCast_a_1a_apply _ _ 0 k
theorem k_be (k : Fin 128) : (V1 m c main_v15 : S1x128.Idx → EReal) (ix2 0 k) = A(main_arg7) (ix1 k) := by
  have e : (V1 m c main_v15 : S1x128.Idx → EReal) = shapeCast _ A(main_arg7) shapeCasts_S128_S1x128 := by
    dsimp only [Gen.V1]; after_results; rfl
  rw [e]; exact shapeCast_a_1a_apply _ _ 0 k

/-- Slab `l` of a stack of three 128 × 128 weights, with its unit axis dropped, reads at `(k, j)` the stack at
    `(l, k, j)`. -/
theorem slab_apply {α : Type} (l : Fin 3) (X : (⟨3, ![3, 128, 128]⟩ : Shape).Idx → α)
    (hs : (⟨3, ![3, 128, 128]⟩ : Shape).Slices ![l.val, 0, 0] ⟨3, ![1, 128, 128]⟩)
    (hc : (⟨3, ![1, 128, 128]⟩ : Shape).ShapeCasts ⟨2, ![128, 128]⟩) (k j : Fin 128) :
    shapeCast ⟨2, ![128, 128]⟩ (extractStridedSlice ⟨3, ![1, 128, 128]⟩ ![l.val, 0, 0] X hs) hc (ix2 k j) = X (ix3 l k j) := by
  rw [shapeCast_1ab_ab_apply]
  exact extractStridedSlice_apply _ _ _ _ _ (fun ax => by
    match ax with
    | ⟨0, _⟩ => exact (Nat.add_zero _).symm
    | ⟨1, _⟩ => exact (Nat.zero_add _).symm
    | ⟨2, _⟩ => exact (Nat.zero_add _).symm)

theorem k_w0 (k j : Fin 128) : (V1 m c main_v17 : S128x128.Idx → EReal) (ix2 k j) = A(main_arg10) (ix3 0 k j) := by
  have e : (V1 m c main_v17 : S128x128.Idx → EReal) =
      shapeCast _ (extractStridedSlice S1x128x128 ![0, 0, 0] A(main_arg10) slices_S3x128x128_S1x128x128_0_0_0) shapeCasts_S1x128x128_S128x128 := by
    dsimp only [Gen.V1]; after_results; rfl
  rw [e]; exact slab_apply 0 _ _ _ k j

/-! ## Between the first and the second call -/

/-- The second stretch does not write the first call's output. -/
theorem k_m0 : V3 m outs c main_v18 = outs 2 main_v18 c :=
  (V3_of m outs c main_v18 (by decide)).trans (Function.update_self ..)

/-- The edge sources as the first stretch leaves them: row 0 of the edge list. -/
theorem v1_1 : V1 m c main_v1 = Cert.ReferenceIdeal.Graph.srcOf (F := Ideal) A(main_arg1) := by
  dsimp only [Gen.V1]; after_results; rfl
/-- The edge destinations as the first stretch leaves them: row 1 of the edge list. -/
theorem v3_1 : V1 m c main_v3 = Cert.ReferenceIdeal.Graph.dstOf (F := Ideal) A(main_arg1) := by
  dsimp only [Gen.V1]; after_results; rfl

set_option maxHeartbeats 1000000 in
/-- The second stretch's aggregate over whatever it finds in the three arrays it reads: the messages pass through a
    narrowing and a widening that are the identity on extended reals. -/
theorem agg1_of (W : Valuation τ sig (Elt Ideal)) :
    StableHlo.after hostOps1 W main_v30 = Cert.ReferenceIdeal.Graph.aggK (F := Ideal) (W main_v1) (W main_v3) (W main_v18) := by
  after_results_simp; rfl

theorem k_agg0 : V3 m outs c main_v30 = Cert.ReferenceIdeal.Graph.aggK (F := Ideal) (Cert.ReferenceIdeal.Graph.srcOf A(main_arg1))
    (Cert.ReferenceIdeal.Graph.dstOf A(main_arg1)) (outs 2 main_v18 c) := by
  have e1 : V2 m outs c main_v1 = Cert.ReferenceIdeal.Graph.srcOf (F := Ideal) A(main_arg1) :=
    (V2_of m outs c main_v1 (by decide)).trans (v1_1 m c)
  have e3 : V2 m outs c main_v3 = Cert.ReferenceIdeal.Graph.dstOf (F := Ideal) A(main_arg1) :=
    (V2_of m outs c main_v3 (by decide)).trans (v3_1 m c)
  have e18 : V2 m outs c main_v18 = outs 2 main_v18 c := Function.update_self ..
  refine (agg1_of (V2 m outs c)).trans ?_
  rw [e1, e3, e18]

/-- An argument array as the second stretch finds it. -/
theorem v2_arg (r : Ref sig .tc) (h1 : r ∉ hostOps0_W) (h2 : r ∉ ([main_v18] : List (Ref sig .tc))) : V2 m outs c r = A(r) :=
  (V2_of m outs c r h2).trans (V1_of m c r h1)

set_option maxHeartbeats 1000000 in
theorem b1_of (W : Valuation τ sig (Elt Ideal)) :
    (StableHlo.after hostOps1 W main_v33 : S1x128.Idx → EReal) =
      shapeCast _ (shapeCast _ (extractStridedSlice S1x128 ![0, 0] (W main_arg11) slices_S3x128_S1x128_0_0) shapeCasts_S1x128_S128) shapeCasts_S128_S1x128 := by
  after_results_simp; rfl

theorem k_b0 (k : Fin 128) : (V3 m outs c main_v33 : S1x128.Idx → EReal) (ix2 0 k) = A(main_arg11) (ix2 0 k) := by
  have e : (V3 m outs c main_v33 : S1x128.Idx → EReal) = _ := b1_of (V2 m outs c)
  rw [e, v2_arg m outs c main_arg11 (by decide) (by decide), shapeCast_a_1a_apply, shapeCast_1a_a_apply]
  exact slice2_axis0_apply 0 _ _ 0 k 0 rfl

set_option maxHeartbeats 1000000 in
theorem w1_of (W : Valuation τ sig (Elt Ideal)) :
    (StableHlo.after hostOps1 W main_v35 : S128x128.Idx → EReal) =
      shapeCast _ (extractStridedSlice S1x128x128 ![1, 0, 0] (W main_arg10) slices_S3x128x128_S1x128x128_1_0_0) shapeCasts_S1x128x128_S128x128 := by
  after_results_simp; rfl

theorem k_w1 (k j : Fin 128) : (V3 m outs c main_v35 : S128x128.Idx → EReal) (ix2 k j) = A(main_arg10) (ix3 1 k j) := by
  have e : (V3 m outs c main_v35 : S128x128.Idx → EReal) = _ := w1_of (V2 m outs c)
  rw [e, v2_arg m outs c main_arg10 (by decide) (by decide)]
  exact slab_apply 1 _ _ _ k j

end Cert.KernelIdeal.Hand
end
-- ==== Proof.KIHostB.lean ====
import proofs.«430762_j39556648796267_2_alg».proof.Proof.Gen.KernelIdeal.Regions
import proofs.«430762_j39556648796267_2_alg».proof.Proof.Spec
import proofs.«430762_j39556648796267_2_alg».proof.Proof.RGraphDefs
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

/-! What the tiled program's host stretches compute between its four fused steps, read off the buffer contents the
    conditional frame carries from item to item: the edge list's two rows, each layer's edge aggregate over the
    messages the previous step left, the bias rows and weights cut out of the stacked parameters, the graph ids as a
    column, and the classifier tail over the per-graph sums. At the extended reals the casts to the 16-bit format
    and back around each gather are the identity, so an aggregate is the whole-array program's own term. -/

namespace Cert.KernelIdeal.Hand

open Cert.KernelIdeal Cert.KernelIdeal.Gen Idealize.ShloMosaic Idealize.ShloMosaic.ValueIdx
open Idealize.ShloMosaic.TcCoe
open Idealize.ShloMosaic.StableHlo (after_cons after_nil)

variable (m : (ℓ : Loc nD τ sig) → Buf (Elt Ideal) ℓ) (outs : Gen.Outs (F := Ideal)) (c : Dev nD)

set_option quotPrecheck false in
local notation "A(" r ")" => m ((c.tc : Thread nD τ).loc r)

/-! ## The edge list's two rows, as every stretch reads them -/

/-- The first stretch leaves the sources (row 0 of the edge list, flattened) in `main_v1`. -/
theorem V1_src : V1 m c main_v1 = Cert.ReferenceIdeal.Graph.srcOf A(main_arg1) := by
  dsimp only [Gen.V1]
  open Idealize.ShloMosaic.StableHlo in after_results_simp
  rfl

/-- The first stretch leaves the destinations (row 1 of the edge list, flattened) in `main_v3`. -/
theorem V1_dst : V1 m c main_v3 = Cert.ReferenceIdeal.Graph.dstOf A(main_arg1) := by
  dsimp only [Gen.V1]
  open Idealize.ShloMosaic.StableHlo in after_results_simp
  rfl

theorem V4_src : V4 m outs c main_v1 = Cert.ReferenceIdeal.Graph.srcOf A(main_arg1) := by
  rw [V4_of m outs c main_v1 (by decide), V3_of m outs c main_v1 (by decide), V2_of m outs c main_v1 (by decide), V1_src]
theorem V4_dst : V4 m outs c main_v3 = Cert.ReferenceIdeal.Graph.dstOf A(main_arg1) := by
  rw [V4_of m outs c main_v3 (by decide), V3_of m outs c main_v3 (by decide), V2_of m outs c main_v3 (by decide), V1_dst]
theorem V4_m1 : V4 m outs c main_v36 = outs 4 main_v36 c := by
  simp only [V4, Function.update_self]

theorem k_m1 : V5 m outs c main_v36 = outs 4 main_v36 c := by
  rw [V5_of m outs c main_v36 (by decide), V4_m1]

set_option maxHeartbeats 1600000 in
theorem k_agg1 : V5 m outs c main_v48 = Cert.ReferenceIdeal.Graph.aggK (Cert.ReferenceIdeal.Graph.srcOf A(main_arg1)) (Cert.ReferenceIdeal.Graph.dstOf A(main_arg1)) (outs 4 main_v36 c) := by
  have e : V5 m outs c main_v48 = Host.scatterAdd scatter_S50000x128_S600000x1_S600000x128_1_0_0_1
      (broadcastInDim S50000x128 ![] bcast_S_S50000x128 (constant (F := Ideal) S_ FTy.f32 0#32))
      (broadcastInDim S600000x1 ![0] bcast_S600000_S600000x1_0 (V4 m outs c main_v3))
      (extf FTy.f32
        (Host.gather gather_S50000x128_S600000x1_S600000x128_1_0_n_n_0_1_1128
          (truncf FTy.bf16 (V4 m outs c main_v36) bitsLt_bf16_f32)
          (broadcastInDim S600000x1 ![0] bcast_S600000_S600000x1_0
            (select
              (cmpi CmpIPredicate.slt (V4 m outs c main_v1)
                (broadcastInDim S600000 ![] bcast_S_S600000 (constantI S_ 32 0#32)))
              (addi (V4 m outs c main_v1)
                (broadcastInDim S600000 ![] bcast_S_S600000 (constantI S_ 32 50000#32)))
              (V4 m outs c main_v1))))
        bitsLt_bf16_f32) := by
    dsimp only [Gen.V5]
    open Idealize.ShloMosaic.StableHlo in after_results_simp
  rw [e, V4_src, V4_dst, V4_m1]
  rfl

/-! ## The second layer's bias row and weight, and its messages' aggregate -/

theorem V4_arg11 : V4 m outs c main_arg11 = A(main_arg11) := by
  rw [V4_of m outs c main_arg11 (by decide), V3_of m outs c main_arg11 (by decide), V2_of m outs c main_arg11 (by decide),
    V1_of m c main_arg11 (by decide)]
theorem V4_arg10 : V4 m outs c main_arg10 = A(main_arg10) := by
  rw [V4_of m outs c main_arg10 (by decide), V3_of m outs c main_arg10 (by decide), V2_of m outs c main_arg10 (by decide),
    V1_of m c main_arg10 (by decide)]

theorem k_b1 (k : Fin 128) : (V5 m outs c main_v51 : S1x128.Idx → EReal) (ix2 0 k) = A(main_arg11) (ix2 1 k) := by
  have e : (V5 m outs c main_v51 : S1x128.Idx → EReal) = shapeCast S1x128 (shapeCast S128
      (extractStridedSlice S1x128 ![1, 0] (V4 m outs c main_arg11) slices_S3x128_S1x128_1_0) shapeCasts_S1x128_S128) shapeCasts_S128_S1x128 := by
    dsimp only [Gen.V5]
    open Idealize.ShloMosaic.StableHlo in after_results_simp
    rfl
  rw [e, V4_arg11]
  rw [shapeCast_a_1a_apply, shapeCast_1a_a_apply]
  exact slice2_axis0_apply 1 _ _ 0 k 1 rfl

theorem k_w2 (k j : Fin 128) : (V5 m outs c main_v53 : S128x128.Idx → EReal) (ix2 k j) = A(main_arg10) (ix3 2 k j) := by
  have e : (V5 m outs c main_v53 : S128x128.Idx → EReal) = shapeCast S128x128
      (extractStridedSlice S1x128x128 ![2, 0, 0] (V4 m outs c main_arg10) slices_S3x128x128_S1x128x128_2_0_0) shapeCasts_S1x128x128_S128x128 := by
    dsimp only [Gen.V5]
    open Idealize.ShloMosaic.StableHlo in after_results_simp
    rfl
  rw [e, V4_arg10]
  rw [shapeCast_1ab_ab_apply]
  exact extractStridedSlice_apply _ _ _ _ (ix3 2 k j) (fun ax => by
    match ax with
    | ⟨0, _⟩ => rfl
    | ⟨1, _⟩ => exact (Nat.zero_add _).symm
    | ⟨2, _⟩ => exact (Nat.zero_add _).symm)

/-! ## The third layer's inputs: the second layer's messages, their aggregate, its bias row, the graph ids -/

theorem V6_src : V6 m outs c main_v1 = Cert.ReferenceIdeal.Graph.srcOf A(main_arg1) := by
  rw [V6_of m outs c main_v1 (by decide), V5_of m outs c main_v1 (by decide), V4_src]
theorem V6_dst : V6 m outs c main_v3 = Cert.ReferenceIdeal.Graph.dstOf A(main_arg1) := by
  rw [V6_of m outs c main_v3 (by decide), V5_of m outs c main_v3 (by decide), V4_dst]
theorem V6_m2 : V6 m outs c main_v54 = outs 6 main_v54 c := by
  simp only [V6, Function.update_self]
theorem V6_arg11 : V6 m outs c main_arg11 = A(main_arg11) := by
  rw [V6_of m outs c main_arg11 (by decide), V5_of m outs c main_arg11 (by decide), V4_arg11]

theorem k_m2 : V7 m outs c main_v54 = outs 6 main_v54 c := by
  rw [V7_of m outs c main_v54 (by decide), V6_m2]

set_option maxHeartbeats 1600000 in
theorem k_agg2 : V7 m outs c main_v66 = Cert.ReferenceIdeal.Graph.aggK (Cert.ReferenceIdeal.Graph.srcOf A(main_arg1)) (Cert.ReferenceIdeal.Graph.dstOf A(main_arg1)) (outs 6 main_v54 c) := by
  have e : V7 m outs c main_v66 = Host.scatterAdd scatter_S50000x128_S600000x1_S600000x128_1_0_0_1
      (broadcastInDim S50000x128 ![] bcast_S_S50000x128 (constant (F := Ideal) S_ FTy.f32 0#32))
      (broadcastInDim S600000x1 ![0] bcast_S600000_S600000x1_0 (V6 m outs c main_v3))
      (extf FTy.f32
        (Host.gather gather_S50000x128_S600000x1_S600000x128_1_0_n_n_0_1_1128
          (truncf FTy.bf16 (V6 m outs c main_v54) bitsLt_bf16_f32)
          (broadcastInDim S600000x1 ![0] bcast_S600000_S600000x1_0
            (select
              (cmpi CmpIPredicate.slt (V6 m outs c main_v1)
                (broadcastInDim S600000 ![] bcast_S_S600000 (constantI S_ 32 0#32)))
              (addi (V6 m outs c main_v1)
                (broadcastInDim S600000 ![] bcast_S_S600000 (constantI S_ 32 50000#32)))
              (V6 m outs c main_v1))))
        bitsLt_bf16_f32) := by
    dsimp only [Gen.V7]
    open Idealize.ShloMosaic.StableHlo in after_results_simp
  rw [e, V6_src, V6_dst, V6_m2]
  rfl

theorem k_b2 (k : Fin 128) : (V7 m outs c main_v69 : S1x128.Idx → EReal) (ix2 0 k) = A(main_arg11) (ix2 2 k) := by
  have e : (V7 m outs c main_v69 : S1x128.Idx → EReal) = shapeCast S1x128 (shapeCast S128
      (extractStridedSlice S1x128 ![2, 0] (V6 m outs c main_arg11) slices_S3x128_S1x128_2_0) shapeCasts_S1x128_S128) shapeCasts_S128_S1x128 := by
    dsimp only [Gen.V7]
    open Idealize.ShloMosaic.StableHlo in after_results_simp
    rfl
  rw [e, V6_arg11]
  rw [shapeCast_a_1a_apply, shapeCast_1a_a_apply]
  exact slice2_axis0_apply 2 _ _ 0 k 2 rfl

theorem k_bt (n : Fin 50000) : (V7 m outs c main_v4 : S50000x1.Idx → BitVec 32) (ix2 n 0) = A(main_arg3) (ix1 n) := by
  have e : (V1 m c main_v4 : S50000x1.Idx → BitVec 32) = shapeCast S50000x1 (V0 m c main_arg3) shapeCasts_S50000_S50000x1 := by
    dsimp only [Gen.V1]
    open Idealize.ShloMosaic.StableHlo in after_results_simp
    rfl
  rw [V7_of m outs c main_v4 (by decide), V6_of m outs c main_v4 (by decide), V5_of m outs c main_v4 (by decide),
    V4_of m outs c main_v4 (by decide), V3_of m outs c main_v4 (by decide), V2_of m outs c main_v4 (by decide), e]
  exact shapeCast_apply _ _ _ (ix1 n) (by
    rw [Shape.rowMajor_val_two, Shape.rowMajor_val_one]
    show n.val = n.val * 1 + 0
    omega)

/-! ## The classifier tail over the per-graph sums -/

/-- An array no stretch writes and no fused step changes still holds its launch contents before the last stretches. -/
theorem V8_launch (r : Ref sig .tc) (h0 : r ∉ hostOps0_W) (h1 : r ∉ hostOps1_W) (h2 : r ∉ hostOps2_W) (h3 : r ∉ hostOps3_W)
    (h : r ∉ ([main_v18, main_v36, main_v54, main_v70] : List (Ref sig .tc))) : V8 m outs c r = A(r) := by
  rw [V8_of m outs c r (fun hh => h (by simp only [List.mem_cons, List.mem_nil_iff, or_false] at hh ⊢; exact Or.inr (Or.inr (Or.inr hh)))),
    V7_of m outs c r h3,
    V6_of m outs c r (fun hh => h (by simp only [List.mem_cons, List.mem_nil_iff, or_false] at hh ⊢; exact Or.inr (Or.inr (Or.inl hh)))),
    V5_of m outs c r h2,
    V4_of m outs c r (fun hh => h (by simp only [List.mem_cons, List.mem_nil_iff, or_false] at hh ⊢; exact Or.inr (Or.inl hh))),
    V3_of m outs c r h1,
    V2_of m outs c r (fun hh => h (by simp only [List.mem_cons, List.mem_nil_iff, or_false] at hh ⊢; exact Or.inl hh)),
    V1_of m c r h0]

theorem V8_sums : V8 m outs c main_v70 = outs 8 main_v70 c := by
  simp only [V8, Function.update_self]

set_option maxHeartbeats 1600000 in
theorem k_out : V11 m outs c main_v88 = Cert.ReferenceIdeal.Graph.tailR (outs 8 main_v70 c) A(main_arg3) A(main_arg12) A(main_arg13)
    A(main_arg14) A(main_arg15) := by
  dsimp only [Gen.V11]
  open Idealize.ShloMosaic.StableHlo in after_results_simp
  simp only [StableHlo.TRef.ofBuf, StableHlo.TRef.toBuf, cast_eq]
  rw [V8_sums, V8_launch m outs c main_arg3 (by decide) (by decide) (by decide) (by decide) (by decide),
    V8_launch m outs c main_arg12 (by decide) (by decide) (by decide) (by decide) (by decide),
    V8_launch m outs c main_arg13 (by decide) (by decide) (by decide) (by decide) (by decide),
    V8_launch m outs c main_arg14 (by decide) (by decide) (by decide) (by decide) (by decide),
    V8_launch m outs c main_arg15 (by decide) (by decide) (by decide) (by decide) (by decide)]
  rfl

end Cert.KernelIdeal.Hand

end
-- ==== Proof.RRead.lean ====
import proofs.«430762_j39556648796267_2_alg».proof.Proof.Gen.ReferenceIdeal.Read
import proofs.«430762_j39556648796267_2_alg».proof.Proof.Spec
import proofs.«430762_j39556648796267_2_alg».proof.Proof.RGraphDefs
import Idealize.ShloMosaic.Lib.ValueIdx
import Idealize.ShloMosaic.Lib.Pipeline.Value
import Idealize.ShloMosaic.PureOps.Ideal.Laws

noncomputable section

/-! The whole-array program read stage by stage: each of its stages is the plain function of rows and columns that
    the network's description names, or the graph operation of that name applied to earlier stages. -/

namespace Cert.ReferenceIdeal.Bridge

open Cert.ReferenceIdeal Idealize.ShloMosaic Idealize.ShloMosaic.ValueIdx

/-! ### The encoder and its layer norm -/

/-- The encoder before normalisation, at a node and a feature. -/
theorem r_y (x0 : (⟨S50000x64, .f32⟩ : BufTy).Contents (Elt Ideal)) (x4 : (⟨S64x128, .f32⟩ : BufTy).Contents (Elt Ideal)) (x5 : (⟨S128, .f32⟩ : BufTy).Contents (Elt Ideal)) (n : Fin 50000) (k : Fin 128) :
    Read.val_main_v8 (F := Ideal) x0 x4 x5 (ix2 n k) = Cert.Spec.encY x0 x4 x5 n k := by
  have e1 : Read.idx_main_v5 (Read.idx_main_v6 (ix2 n k)) = ix1 k := funext fun a => Fin.ext (by match a with | ⟨0, _⟩ => rfl)
  have e2 : ∀ q : Fin 64, Read.lidx_main_v4 (ix2 n k) q = ix2 n q := fun q => funext fun a => Fin.ext (by match a with | ⟨0, _⟩ => rfl | ⟨1, _⟩ => rfl)
  have e3 : ∀ q : Fin 64, Read.ridx_main_v4 (ix2 n k) q = ix2 q k := fun q => funext fun a => Fin.ext (by match a with | ⟨0, _⟩ => rfl | ⟨1, _⟩ => rfl)
  rw [Read.val_main_v8_apply, Read.val_main_v7_apply, Read.val_main_v4_apply, Read.val_main_v6_apply,
    Read.val_main_v5_apply, Read.val_main_call0_v0_apply, Read.val_main_call0_cst_apply, e1]
  simp only [e2, e3, Ideal.maximumf_def, Ideal.addf_def, Ideal.ofBits_def, Ideal.ofBits_zero_f32]
  rfl

/-- A row's mean, as the program's one-column array holds it. -/
theorem r_mean (x0 : (⟨S50000x64, .f32⟩ : BufTy).Contents (Elt Ideal)) (x4 : (⟨S64x128, .f32⟩ : BufTy).Contents (Elt Ideal)) (x5 : (⟨S128, .f32⟩ : BufTy).Contents (Elt Ideal)) (n : Fin 50000) :
    Read.val_main_v12 (F := Ideal) x0 x4 x5 (ix2 n (0 : Fin 1)) = Cert.Spec.rowMean (Cert.Spec.encY x0 x4 x5) n := by
  have e1 : Read.idx_main_v10 (ix2 n (0 : Fin 1)) = ix1 n := funext fun a => Fin.ext (by match a with | ⟨0, _⟩ => rfl)
  have e2 : ∀ k : Fin 128, Read.idx_main_v9 (ix1 n) k = ix2 n k := fun k => funext fun a => Fin.ext (by match a with | ⟨0, _⟩ => rfl | ⟨1, _⟩ => rfl)
  rw [Read.val_main_v12_apply, Read.val_main_v10_apply, Read.val_main_v11_apply, Read.val_main_cst_0_apply, e1,
    Read.val_main_v9_apply, Read.val_main_cst_apply]
  simp only [e2, r_y, Ideal.hostDivf_def, Ideal.ofBits_def, Ideal.ofBits_zero_f32, zero_add]
  rfl

/-- A row's variance, as the program's one-column array holds it. -/
theorem r_var (x0 : (⟨S50000x64, .f32⟩ : BufTy).Contents (Elt Ideal)) (x4 : (⟨S64x128, .f32⟩ : BufTy).Contents (Elt Ideal)) (x5 : (⟨S128, .f32⟩ : BufTy).Contents (Elt Ideal)) (n : Fin 50000) :
    Read.val_main_v19 (F := Ideal) x0 x4 x5 (ix2 n (0 : Fin 1)) = Cert.Spec.rowVar (Cert.Spec.encY x0 x4 x5) n := by
  have e1 : Read.idx_main_v17 (ix2 n (0 : Fin 1)) = ix1 n := funext fun a => Fin.ext (by match a with | ⟨0, _⟩ => rfl)
  have e2 : ∀ k : Fin 128, Read.idx_main_v16 (ix1 n) k = ix2 n k := fun k => funext fun a => Fin.ext (by match a with | ⟨0, _⟩ => rfl | ⟨1, _⟩ => rfl)
  have e3 : ∀ k : Fin 128, Read.idx_main_v13 (ix2 n k) = ix2 n (0 : Fin 1) := fun k => funext fun a => Fin.ext (by match a with | ⟨0, _⟩ => rfl | ⟨1, _⟩ => rfl)
  rw [Read.val_main_v19_apply, Read.val_main_v17_apply, Read.val_main_v18_apply, Read.val_main_cst_2_apply, e1,
    Read.val_main_v16_apply, Read.val_main_cst_1_apply]
  simp only [e2, Read.val_main_v15_apply, Read.val_main_v14_apply, Read.val_main_v13_apply, e3, r_y, r_mean,
    Ideal.hostDivf_def, Ideal.mulf_def, Ideal.subf_def, Ideal.ofBits_def, Ideal.ofBits_zero_f32, zero_add]
  rfl

/-- The encoder's output `h₀` at a node and a feature. -/
theorem r_h0 (x0 : (⟨S50000x64, .f32⟩ : BufTy).Contents (Elt Ideal)) (x4 : (⟨S64x128, .f32⟩ : BufTy).Contents (Elt Ideal)) (x5 x6 x7 : (⟨S128, .f32⟩ : BufTy).Contents (Elt Ideal)) (n : Fin 50000) (k : Fin 128) :
    Read.val_main_v32 (F := Ideal) x0 x4 x5 x6 x7 (ix2 n k) = Cert.Spec.enc x0 x4 x5 x6 x7 n k := by
  have e1 : Read.idx_main_v20 (ix2 n k) = ix2 n (0 : Fin 1) := funext fun a => Fin.ext (by match a with | ⟨0, _⟩ => rfl | ⟨1, _⟩ => rfl)
  have e2 : Read.idx_main_v25 (ix2 n k) = ix2 n (0 : Fin 1) := funext fun a => Fin.ext (by match a with | ⟨0, _⟩ => rfl | ⟨1, _⟩ => rfl)
  have e3 : Read.idx_main_v27 (Read.idx_main_v28 (ix2 n k)) = ix1 k := funext fun a => Fin.ext (by match a with | ⟨0, _⟩ => rfl)
  have e4 : Read.idx_main_v30 (Read.idx_main_v31 (ix2 n k)) = ix1 k := funext fun a => Fin.ext (by match a with | ⟨0, _⟩ => rfl)
  rw [Read.val_main_v32_apply, Read.val_main_v29_apply, Read.val_main_v26_apply, Read.val_main_v21_apply,
    Read.val_main_v20_apply, Read.val_main_v25_apply, Read.val_main_v24_apply, Read.val_main_v23_apply,
    Read.val_main_v22_apply, Read.val_main_cst_3_apply, Read.val_main_v28_apply, Read.val_main_v27_apply,
    Read.val_main_v31_apply, Read.val_main_v30_apply, e1, e2, e3, e4, r_y, r_mean, r_var]
  simp only [Ideal.addf_def, Ideal.mulf_def, Ideal.subf_def, Ideal.hostUnary_rsqrt_def, Ideal.ofBits_def]
  rfl

/-! ### The graph side: whole-array equations -/

/-- The normalisation factor is one over the square root of the in-degree plus one. -/
theorem r_dis (x1 : (⟨S2x600000, .i32⟩ : BufTy).Contents (Elt Ideal)) : Read.val_main_v44 (F := Ideal) x1 = Graph.disOf (Graph.dstOf x1) := rfl

/-- The first layer's edge aggregate. -/
theorem r_agg0 (x0 : (⟨S50000x64, .f32⟩ : BufTy).Contents (Elt Ideal)) (x1 : (⟨S2x600000, .i32⟩ : BufTy).Contents (Elt Ideal)) (x4 : (⟨S64x128, .f32⟩ : BufTy).Contents (Elt Ideal)) (x5 x6 x7 : (⟨S128, .f32⟩ : BufTy).Contents (Elt Ideal)) (x10 : (⟨S3x128x128, .f32⟩ : BufTy).Contents (Elt Ideal)) :
    Read.val_main_v77 (F := Ideal) x0 x1 x4 x5 x6 x7 x10 = Graph.aggR (Graph.srcOf x1) (Graph.dstOf x1) (Read.val_main_v65 (F := Ideal) x0 x4 x5 x6 x7 x10) (Read.val_main_v44 (F := Ideal) x1) := rfl

/-- The second layer's edge aggregate. -/
theorem r_agg1 (x0 : (⟨S50000x64, .f32⟩ : BufTy).Contents (Elt Ideal)) (x1 : (⟨S2x600000, .i32⟩ : BufTy).Contents (Elt Ideal)) (x4 : (⟨S64x128, .f32⟩ : BufTy).Contents (Elt Ideal)) (x5 x6 x7 : (⟨S128, .f32⟩ : BufTy).Contents (Elt Ideal)) (x10 : (⟨S3x128x128, .f32⟩ : BufTy).Contents (Elt Ideal)) (x11 : (⟨S3x128, .f32⟩ : BufTy).Contents (Elt Ideal)) :
    Read.val_main_v101 (F := Ideal) x0 x1 x4 x5 x6 x7 x10 x11 = Graph.aggR (Graph.srcOf x1) (Graph.dstOf x1) (Read.val_main_v89 (F := Ideal) x0 x1 x4 x5 x6 x7 x10 x11) (Read.val_main_v44 (F := Ideal) x1) := rfl

/-- The third layer's edge aggregate. -/
theorem r_agg2 (x0 : (⟨S50000x64, .f32⟩ : BufTy).Contents (Elt Ideal)) (x1 : (⟨S2x600000, .i32⟩ : BufTy).Contents (Elt Ideal)) (x4 : (⟨S64x128, .f32⟩ : BufTy).Contents (Elt Ideal)) (x5 x6 x7 : (⟨S128, .f32⟩ : BufTy).Contents (Elt Ideal)) (x10 : (⟨S3x128x128, .f32⟩ : BufTy).Contents (Elt Ideal)) (x11 : (⟨S3x128, .f32⟩ : BufTy).Contents (Elt Ideal)) :
    Read.val_main_v125 (F := Ideal) x0 x1 x4 x5 x6 x7 x10 x11 = Graph.aggR (Graph.srcOf x1) (Graph.dstOf x1) (Read.val_main_v113 (F := Ideal) x0 x1 x4 x5 x6 x7 x10 x11) (Read.val_main_v44 (F := Ideal) x1) := rfl

/-- The per-graph sums of the last layer's rows. -/
theorem r_sums (x0 : (⟨S50000x64, .f32⟩ : BufTy).Contents (Elt Ideal)) (x1 : (⟨S2x600000, .i32⟩ : BufTy).Contents (Elt Ideal)) (x3 : (⟨S50000, .i32⟩ : BufTy).Contents (Elt Ideal)) (x4 : (⟨S64x128, .f32⟩ : BufTy).Contents (Elt Ideal)) (x5 x6 x7 : (⟨S128, .f32⟩ : BufTy).Contents (Elt Ideal)) (x10 : (⟨S3x128x128, .f32⟩ : BufTy).Contents (Elt Ideal)) (x11 : (⟨S3x128, .f32⟩ : BufTy).Contents (Elt Ideal)) :
    Read.val_main_v137 (F := Ideal) x0 x1 x3 x4 x5 x6 x7 x10 x11 = Graph.poolR x3 (Read.val_main_v134 (F := Ideal) x0 x1 x4 x5 x6 x7 x10 x11) := rfl

/-- The classifier tail applied to the per-graph sums. -/
theorem r_out (x0 : (⟨S50000x64, .f32⟩ : BufTy).Contents (Elt Ideal)) (x1 : (⟨S2x600000, .i32⟩ : BufTy).Contents (Elt Ideal)) (x3 : (⟨S50000, .i32⟩ : BufTy).Contents (Elt Ideal)) (x4 : (⟨S64x128, .f32⟩ : BufTy).Contents (Elt Ideal)) (x5 x6 x7 : (⟨S128, .f32⟩ : BufTy).Contents (Elt Ideal)) (x10 : (⟨S3x128x128, .f32⟩ : BufTy).Contents (Elt Ideal)) (x11 : (⟨S3x128, .f32⟩ : BufTy).Contents (Elt Ideal)) (x12 : (⟨S128x64, .f32⟩ : BufTy).Contents (Elt Ideal)) (x13 : (⟨S64, .f32⟩ : BufTy).Contents (Elt Ideal)) (x14 : (⟨S64x1, .f32⟩ : BufTy).Contents (Elt Ideal)) (x15 : (⟨S1, .f32⟩ : BufTy).Contents (Elt Ideal)) :
    Read.val_main_v155 (F := Ideal) x0 x1 x3 x4 x5 x6 x7 x10 x11 x12 x13 x14 x15 = Graph.tailR (Read.val_main_v137 (F := Ideal) x0 x1 x3 x4 x5 x6 x7 x10 x11) x3 x12 x13 x14 x15 := rfl

/-! ### The three convolution layers: the linear step and the combine step of each -/

/-- The first layer's linear step: the rows before it times slice 0 of the stacked weights. -/
theorem r_hw0 (x0 : (⟨S50000x64, .f32⟩ : BufTy).Contents (Elt Ideal)) (x4 : (⟨S64x128, .f32⟩ : BufTy).Contents (Elt Ideal)) (x5 x6 x7 : (⟨S128, .f32⟩ : BufTy).Contents (Elt Ideal)) (x10 : (⟨S3x128x128, .f32⟩ : BufTy).Contents (Elt Ideal)) (n : Fin 50000) (j : Fin 128) :
    Read.val_main_v65 (F := Ideal) x0 x4 x5 x6 x7 x10 (ix2 n j) =
      Cert.Spec.lin (fun n k => Read.val_main_v32 (F := Ideal) x0 x4 x5 x6 x7 (ix2 n k)) (fun k j => x10 (ix3 (0 : Fin 3) k j)) n j := by
  have e1 : ∀ k : Fin 128, Read.lidx_main_v65 (ix2 n j) k = ix2 n k := fun k => funext fun a => Fin.ext (by match a with | ⟨0, _⟩ => rfl | ⟨1, _⟩ => rfl)
  have e2 : ∀ k : Fin 128, Read.idx_main_v63 (Read.idx_main_v64 (Read.ridx_main_v65 (ix2 n j) k)) = ix3 (0 : Fin 3) k j :=
    fun k => funext fun a => Fin.ext (by
      have hk := k.isLt
      have hj := j.isLt
      match a with
      | ⟨0, _⟩ => rfl
      | ⟨1, _⟩ => show (k.val * 128 + j.val) / 128 % 128 = k.val; omega
      | ⟨2, _⟩ => show (k.val * 128 + j.val) % 128 = j.val; omega)
  rw [Read.val_main_v65_apply]
  simp only [Read.val_main_v64_apply, Read.val_main_v63_apply, e1, e2]
  rfl

/-- The first layer's combine step: the edge aggregate, plus the node's own row scaled by the square of its factor,
    plus row 0 of the stacked biases, clipped at zero. -/
theorem r_h1 (x0 : (⟨S50000x64, .f32⟩ : BufTy).Contents (Elt Ideal)) (x1 : (⟨S2x600000, .i32⟩ : BufTy).Contents (Elt Ideal)) (x4 : (⟨S64x128, .f32⟩ : BufTy).Contents (Elt Ideal)) (x5 x6 x7 : (⟨S128, .f32⟩ : BufTy).Contents (Elt Ideal)) (x10 : (⟨S3x128x128, .f32⟩ : BufTy).Contents (Elt Ideal)) (x11 : (⟨S3x128, .f32⟩ : BufTy).Contents (Elt Ideal)) (n : Fin 50000) (k : Fin 128) :
    Read.val_main_v86 (F := Ideal) x0 x1 x4 x5 x6 x7 x10 x11 (ix2 n k) =
      Cert.Spec.combR (fun n k => Read.val_main_v77 (F := Ideal) x0 x1 x4 x5 x6 x7 x10 (ix2 n k)) (fun n k => Read.val_main_v65 (F := Ideal) x0 x4 x5 x6 x7 x10 (ix2 n k))
        (fun n => Read.val_main_v44 (F := Ideal) x1 (ix1 n)) (fun k => x11 (ix2 (0 : Fin 3) k)) n k := by
  have e1 : Read.idx_main_v62 (Read.idx_main_v78 (ix2 n k)) = ix1 n := funext fun a => Fin.ext (by match a with | ⟨0, _⟩ => rfl)
  have e2 : Read.idx_main_v81 (Read.idx_main_v82 (Read.idx_main_v83 (Read.idx_main_v84 (ix2 n k)))) = ix2 (0 : Fin 3) k :=
    funext fun a => Fin.ext (by
      have hk := k.isLt
      match a with
      | ⟨0, _⟩ => rfl
      | ⟨1, _⟩ => show k.val % 128 = k.val; omega)
  rw [Read.val_main_v86_apply, Read.val_main_v85_apply, Read.val_main_v80_apply, Read.val_main_v79_apply,
    Read.val_main_v78_apply, Read.val_main_v62_apply, Read.val_main_v61_apply, Read.val_main_v84_apply, Read.val_main_v83_apply,
    Read.val_main_v82_apply, Read.val_main_v81_apply, Read.val_main_call2_v0_apply, Read.val_main_call2_cst_apply, e1, e2]
  simp only [Ideal.maximumf_def, Ideal.addf_def, Ideal.mulf_def, Ideal.ofBits_def, Ideal.ofBits_zero_f32]
  rfl

/-- The second layer's linear step: the rows before it times slice 1 of the stacked weights. -/
theorem r_hw1 (x0 : (⟨S50000x64, .f32⟩ : BufTy).Contents (Elt Ideal)) (x1 : (⟨S2x600000, .i32⟩ : BufTy).Contents (Elt Ideal)) (x4 : (⟨S64x128, .f32⟩ : BufTy).Contents (Elt Ideal)) (x5 x6 x7 : (⟨S128, .f32⟩ : BufTy).Contents (Elt Ideal)) (x10 : (⟨S3x128x128, .f32⟩ : BufTy).Contents (Elt Ideal)) (x11 : (⟨S3x128, .f32⟩ : BufTy).Contents (Elt Ideal)) (n : Fin 50000) (j : Fin 128) :
    Read.val_main_v89 (F := Ideal) x0 x1 x4 x5 x6 x7 x10 x11 (ix2 n j) =
      Cert.Spec.lin (fun n k => Read.val_main_v86 (F := Ideal) x0 x1 x4 x5 x6 x7 x10 x11 (ix2 n k)) (fun k j => x10 (ix3 (1 : Fin 3) k j)) n j := by
  have e1 : ∀ k : Fin 128, Read.lidx_main_v89 (ix2 n j) k = ix2 n k := fun k => funext fun a => Fin.ext (by match a with | ⟨0, _⟩ => rfl | ⟨1, _⟩ => rfl)
  have e2 : ∀ k : Fin 128, Read.idx_main_v87 (Read.idx_main_v88 (Read.ridx_main_v89 (ix2 n j) k)) = ix3 (1 : Fin 3) k j :=
    fun k => funext fun a => Fin.ext (by
      have hk := k.isLt
      have hj := j.isLt
      match a with
      | ⟨0, _⟩ => rfl
      | ⟨1, _⟩ => show (k.val * 128 + j.val) / 128 % 128 = k.val; omega
      | ⟨2, _⟩ => show (k.val * 128 + j.val) % 128 = j.val; omega)
  rw [Read.val_main_v89_apply]
  simp only [Read.val_main_v88_apply, Read.val_main_v87_apply, e1, e2]
  rfl

/-- The second layer's combine step: the edge aggregate, plus the node's own row scaled by the square of its factor,
    plus row 1 of the stacked biases, clipped at zero. -/
theorem r_h2 (x0 : (⟨S50000x64, .f32⟩ : BufTy).Contents (Elt Ideal)) (x1 : (⟨S2x600000, .i32⟩ : BufTy).Contents (Elt Ideal)) (x4 : (⟨S64x128, .f32⟩ : BufTy).Contents (Elt Ideal)) (x5 x6 x7 : (⟨S128, .f32⟩ : BufTy).Contents (Elt Ideal)) (x10 : (⟨S3x128x128, .f32⟩ : BufTy).Contents (Elt Ideal)) (x11 : (⟨S3x128, .f32⟩ : BufTy).Contents (Elt Ideal)) (n : Fin 50000) (k : Fin 128) :
    Read.val_main_v110 (F := Ideal) x0 x1 x4 x5 x6 x7 x10 x11 (ix2 n k) =
      Cert.Spec.combR (fun n k => Read.val_main_v101 (F := Ideal) x0 x1 x4 x5 x6 x7 x10 x11 (ix2 n k)) (fun n k => Read.val_main_v89 (F := Ideal) x0 x1 x4 x5 x6 x7 x10 x11 (ix2 n k))
        (fun n => Read.val_main_v44 (F := Ideal) x1 (ix1 n)) (fun k => x11 (ix2 (1 : Fin 3) k)) n k := by
  have e1 : Read.idx_main_v62 (Read.idx_main_v102 (ix2 n k)) = ix1 n := funext fun a => Fin.ext (by match a with | ⟨0, _⟩ => rfl)
  have e2 : Read.idx_main_v105 (Read.idx_main_v106 (Read.idx_main_v107 (Read.idx_main_v108 (ix2 n k)))) = ix2 (1 : Fin 3) k :=
    funext fun a => Fin.ext (by
      have hk := k.isLt
      match a with
      | ⟨0, _⟩ => rfl
      | ⟨1, _⟩ => show k.val % 128 = k.val; omega)
  rw [Read.val_main_v110_apply, Read.val_main_v109_apply, Read.val_main_v104_apply, Read.val_main_v103_apply,
    Read.val_main_v102_apply, Read.val_main_v62_apply, Read.val_main_v61_apply, Read.val_main_v108_apply, Read.val_main_v107_apply,
    Read.val_main_v106_apply, Read.val_main_v105_apply, Read.val_main_call3_v0_apply, Read.val_main_call3_cst_apply, e1, e2]
  simp only [Ideal.maximumf_def, Ideal.addf_def, Ideal.mulf_def, Ideal.ofBits_def, Ideal.ofBits_zero_f32]
  rfl

/-- The third layer's linear step: the rows before it times slice 2 of the stacked weights. -/
theorem r_hw2 (x0 : (⟨S50000x64, .f32⟩ : BufTy).Contents (Elt Ideal)) (x1 : (⟨S2x600000, .i32⟩ : BufTy).Contents (Elt Ideal)) (x4 : (⟨S64x128, .f32⟩ : BufTy).Contents (Elt Ideal)) (x5 x6 x7 : (⟨S128, .f32⟩ : BufTy).Contents (Elt Ideal)) (x10 : (⟨S3x128x128, .f32⟩ : BufTy).Contents (Elt Ideal)) (x11 : (⟨S3x128, .f32⟩ : BufTy).Contents (Elt Ideal)) (n : Fin 50000) (j : Fin 128) :
    Read.val_main_v113 (F := Ideal) x0 x1 x4 x5 x6 x7 x10 x11 (ix2 n j) =
      Cert.Spec.lin (fun n k => Read.val_main_v110 (F := Ideal) x0 x1 x4 x5 x6 x7 x10 x11 (ix2 n k)) (fun k j => x10 (ix3 (2 : Fin 3) k j)) n j := by
  have e1 : ∀ k : Fin 128, Read.lidx_main_v113 (ix2 n j) k = ix2 n k := fun k => funext fun a => Fin.ext (by match a with | ⟨0, _⟩ => rfl | ⟨1, _⟩ => rfl)
  have e2 : ∀ k : Fin 128, Read.idx_main_v111 (Read.idx_main_v112 (Read.ridx_main_v113 (ix2 n j) k)) = ix3 (2 : Fin 3) k j :=
    fun k => funext fun a => Fin.ext (by
      have hk := k.isLt
      have hj := j.isLt
      match a with
      | ⟨0, _⟩ => rfl
      | ⟨1, _⟩ => show (k.val * 128 + j.val) / 128 % 128 = k.val; omega
      | ⟨2, _⟩ => show (k.val * 128 + j.val) % 128 = j.val; omega)
  rw [Read.val_main_v113_apply]
  simp only [Read.val_main_v112_apply, Read.val_main_v111_apply, e1, e2]
  rfl

/-- The third layer's combine step: the edge aggregate, plus the node's own row scaled by the square of its factor,
    plus row 2 of the stacked biases, clipped at zero. -/
theorem r_h3 (x0 : (⟨S50000x64, .f32⟩ : BufTy).Contents (Elt Ideal)) (x1 : (⟨S2x600000, .i32⟩ : BufTy).Contents (Elt Ideal)) (x4 : (⟨S64x128, .f32⟩ : BufTy).Contents (Elt Ideal)) (x5 x6 x7 : (⟨S128, .f32⟩ : BufTy).Contents (Elt Ideal)) (x10 : (⟨S3x128x128, .f32⟩ : BufTy).Contents (Elt Ideal)) (x11 : (⟨S3x128, .f32⟩ : BufTy).Contents (Elt Ideal)) (n : Fin 50000) (k : Fin 128) :
    Read.val_main_v134 (F := Ideal) x0 x1 x4 x5 x6 x7 x10 x11 (ix2 n k) =
      Cert.Spec.combR (fun n k => Read.val_main_v125 (F := Ideal) x0 x1 x4 x5 x6 x7 x10 x11 (ix2 n k)) (fun n k => Read.val_main_v113 (F := Ideal) x0 x1 x4 x5 x6 x7 x10 x11 (ix2 n k))
        (fun n => Read.val_main_v44 (F := Ideal) x1 (ix1 n)) (fun k => x11 (ix2 (2 : Fin 3) k)) n k := by
  have e1 : Read.idx_main_v62 (Read.idx_main_v126 (ix2 n k)) = ix1 n := funext fun a => Fin.ext (by match a with | ⟨0, _⟩ => rfl)
  have e2 : Read.idx_main_v129 (Read.idx_main_v130 (Read.idx_main_v131 (Read.idx_main_v132 (ix2 n k)))) = ix2 (2 : Fin 3) k :=
    funext fun a => Fin.ext (by
      have hk := k.isLt
      match a with
      | ⟨0, _⟩ => rfl
      | ⟨1, _⟩ => show k.val % 128 = k.val; omega)
  rw [Read.val_main_v134_apply, Read.val_main_v133_apply, Read.val_main_v128_apply, Read.val_main_v127_apply,
    Read.val_main_v126_apply, Read.val_main_v62_apply, Read.val_main_v61_apply, Read.val_main_v132_apply, Read.val_main_v131_apply,
    Read.val_main_v130_apply, Read.val_main_v129_apply, Read.val_main_call4_v0_apply, Read.val_main_call4_cst_apply, e1, e2]
  simp only [Ideal.maximumf_def, Ideal.addf_def, Ideal.mulf_def, Ideal.ofBits_def, Ideal.ofBits_zero_f32]
  rfl

end Cert.ReferenceIdeal.Bridge

end
-- ==== Proof.RGraphLayer.lean ====
import proofs.«430762_j39556648796267_2_alg».proof.Proof.RGraphDefs
import Idealize.ShloMosaic.Lib.StableHlo.Predicate
import Idealize.ShloMosaic.Lib.ValueIdx
import Mathlib.Data.EReal.Operations
import Mathlib.Algebra.BigOperators.Group.Finset.Basic

noncomputable section

namespace Cert.ReferenceIdeal.Graph

open Cert.ReferenceIdeal Cert.ReferenceIdeal.Facts₀ Idealize.ShloMosaic Idealize.ShloMosaic.ValueIdx

/-! One graph-convolution layer's combine step, read index by index at the extended reals: what a row gather, a
    vector take and the scatter-add of this program's shapes are at one element, the two edge aggregates as sums
    over the edges that end at a node, and from them that the combine step over scaled messages equals the
    combine step over unscaled rows with per-edge weights. -/

/-- A row gather out of a 50000 × 128 array: result row `e` is the row the start index `idx (e, 0)` names,
    read signed and clamped into `0 … 49999`; the column passes through. -/
theorem gather_row {α : Type} (x : S50000x128.Idx → α) (idx : IVec S600000x1 32) (e : Fin 600000) (k : Fin 128) :
    Host.gather gather_S50000x128_S600000x1_S600000x128_1_0_n_n_0_1_1128 x idx (ix2 e k)
      = x (ix2 ⟨min (idx (ix2 e 0)).toInt.toNat 49999, by omega⟩ k) := by
  unfold Host.gather
  congr 1
  funext a
  refine Fin.ext ?_
  match a with
  | ⟨0, h0⟩ =>
    show GatherDims.start _ _ _ _ + GatherDims.batchCoord _ _ _ + GatherDims.offCoord _ _ _ = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    have hm : (⟨0, h0⟩ : Fin S50000x128.rank) ∈ gather_S50000x128_S600000x1_S600000x128_1_0_n_n_0_1_1128.startIndexMap :=
      List.mem_singleton.mpr rfl
    unfold GatherDims.start
    rw [dif_pos hm]
    have hsi : gather_S50000x128_S600000x1_S600000x128_1_0_n_n_0_1_1128.siIdx (ix2 e k)
        ⟨List.idxOf (⟨0, h0⟩ : Fin S50000x128.rank) gather_S50000x128_S600000x1_S600000x128_1_0_n_n_0_1_1128.startIndexMap,
          List.idxOf_lt_length_iff.2 hm⟩ = ix2 e 0 := by
      funext b; refine Fin.ext ?_
      match b with
      | ⟨0, _⟩ => rfl
      | ⟨1, _⟩ => rfl
    rw [hsi]
    rfl
  | ⟨1, h1⟩ =>
    show GatherDims.start _ _ _ _ + GatherDims.batchCoord _ _ _ + GatherDims.offCoord _ _ _ = _
    rw [GatherDims.batchCoord_eq_zero _ _ _ List.not_mem_nil]
    have hm : (⟨1, h1⟩ : Fin S50000x128.rank) ∉ gather_S50000x128_S600000x1_S600000x128_1_0_n_n_0_1_1128.startIndexMap := by
      show (1 : Fin 2) ∉ ([0] : List (Fin 2)); decide
    unfold GatherDims.start
    rw [dif_neg hm, Nat.zero_add]
    rfl

/-- The column index `(e, 0)` and the vector index `e` in the library's two spellings. -/
theorem ixP_eq {n : Nat} (e : Fin n) : StableHlo.Predicate.ixP e = ix2 e (0 : Fin 1) := by
  funext a; match a with | ⟨0, _⟩ => rfl | ⟨1, _⟩ => rfl
theorem ofFin_eq {n : Nat} (e : Fin n) : (Shape.Idx.ofFin e : (⟨1, ![n]⟩ : Shape).Idx) = ix1 e := by
  funext a; match a with | ⟨0, _⟩ => rfl

/-- A list of node ids as a column reads, at `(e, 0)`, the list at `e`. -/
theorem col_apply (v : IVec S600000 32) (e : Fin 600000) : col (F := Ideal) v (ix2 e 0) = v (ix1 e) := by
  unfold col
  rw [← ixP_eq, ← ofFin_eq]
  exact StableHlo.Predicate.bcast_col1 _ v e

/-- A take out of a 50000-vector: result position `e` is the entry the start index `idx (e, 0)` names, read signed
    and clamped into `0 … 49999`. -/
theorem gather_vec {α : Type} (x : S50000.Idx → α) (idx : IVec S600000x1 32) (e : Fin 600000) :
    Host.gather gather_S50000_S600000x1_S600000_n_0_n_n_0_1_1 x idx (ix1 e)
      = x (ix1 ⟨min (idx (ix2 e 0)).toInt.toNat 49999, by omega⟩) := by
  have h := StableHlo.Predicate.gather_take gather_S50000_S600000x1_S600000_n_0_n_n_0_1_1 rfl rfl rfl rfl x idx e (by decide)
  simp only [ixP_eq, ofFin_eq] at h
  exact h

/-- The scatter's start on the row axis is the scatter index at `(e, 0)`, read signed, -/
theorem sc_start0 (idx : IVec S600000x1 32) (e : Fin 600000) (k : Fin 128) :
    scatter_S50000x128_S600000x1_S600000x128_1_0_0_1.start (ix2 e k) idx 0 = (idx (ix2 e 0)).toInt := by
  have hm : (0 : Fin S50000x128.rank) ∈ scatter_S50000x128_S600000x1_S600000x128_1_0_0_1.scatterDimsToOperandDims := List.mem_singleton.mpr rfl
  unfold ScatterDims.start
  rw [dif_pos hm]
  have hsi : scatter_S50000x128_S600000x1_S600000x128_1_0_0_1.siIdx (ix2 e k) ⟨List.idxOf (0 : Fin S50000x128.rank) scatter_S50000x128_S600000x1_S600000x128_1_0_0_1.scatterDimsToOperandDims,
      List.idxOf_lt_length_iff.2 hm⟩ = ix2 e 0 := by
    funext b; refine Fin.ext ?_
    match b with
    | ⟨0, _⟩ => rfl
    | ⟨1, _⟩ => rfl
  rw [hsi]

/-- and nothing on the column axis, -/
theorem sc_start1 (idx : IVec S600000x1 32) (e : Fin 600000) (k : Fin 128) :
    scatter_S50000x128_S600000x1_S600000x128_1_0_0_1.start (ix2 e k) idx 1 = 0 := by
  have hm : (1 : Fin S50000x128.rank) ∉ scatter_S50000x128_S600000x1_S600000x128_1_0_0_1.scatterDimsToOperandDims := by
    show (1 : Fin 2) ∉ ([0] : List (Fin 2)); decide
  unfold ScatterDims.start
  rw [dif_neg hm]

/-- while the window coordinate is nothing on the row axis -/
theorem sc_window0 (e : Fin 600000) (k : Fin 128) : scatter_S50000x128_S600000x1_S600000x128_1_0_0_1.window (ix2 e k) 0 = 0 := by
  have hm : (0 : Fin S50000x128.rank) ∉ scatter_S50000x128_S600000x1_S600000x128_1_0_0_1.sKept := by
    show (0 : Fin 2) ∉ ([1] : List (Fin 2)); decide
  unfold ScatterDims.window
  rw [dif_neg hm]

/-- and the update's column on the column axis. -/
theorem sc_window1 (e : Fin 600000) (k : Fin 128) : scatter_S50000x128_S600000x1_S600000x128_1_0_0_1.window (ix2 e k) 1 = k.val := by
  have hm : (1 : Fin S50000x128.rank) ∈ scatter_S50000x128_S600000x1_S600000x128_1_0_0_1.sKept := by
    show (1 : Fin 2) ∈ ([1] : List (Fin 2)); decide
  unfold ScatterDims.window
  rw [dif_pos hm]
  rfl

/-- Where an update lands: update `(e, k)` lands on `(n, k')` exactly when its scatter index, read signed, is
    `n` and the columns agree; an index outside `0 … 49999` lands nowhere. -/
theorem sc_lands_iff (idx : IVec S600000x1 32) (e : Fin 600000) (k : Fin 128) (n : Fin 50000) (k' : Fin 128) :
    scatter_S50000x128_S600000x1_S600000x128_1_0_0_1.resultIdx? (ix2 e k) idx = some (ix2 n k') ↔ (idx (ix2 e 0)).toInt = (n.val : Int) ∧ k = k' := by
  unfold ScatterDims.resultIdx?
  constructor
  · intro h
    split at h
    · next hin =>
      have hf := Option.some.inj h
      have h0 := congrArg Fin.val (congrFun hf 0)
      have h1 := congrArg Fin.val (congrFun hf 1)
      have hin0 := hin 0
      simp only [sc_start0, sc_window0, sc_start1, sc_window1] at h0 h1 hin0
      change ((idx (ix2 e 0)).toInt + ((0 : Nat) : Int)).toNat = n.val at h0
      change ((0 : Int) + (k.val : Int)).toNat = k'.val at h1
      refine ⟨by omega, Fin.ext (by omega)⟩
    · exact absurd h (by simp)
  · rintro ⟨hn, rfl⟩
    have hin : ∀ a, 0 ≤ scatter_S50000x128_S600000x1_S600000x128_1_0_0_1.start (ix2 e k) idx a + scatter_S50000x128_S600000x1_S600000x128_1_0_0_1.window (ix2 e k) a
        ∧ scatter_S50000x128_S600000x1_S600000x128_1_0_0_1.start (ix2 e k) idx a + scatter_S50000x128_S600000x1_S600000x128_1_0_0_1.window (ix2 e k) a < S50000x128.size a := by
      intro a
      match a with
      | ⟨0, _⟩ =>
        show 0 ≤ scatter_S50000x128_S600000x1_S600000x128_1_0_0_1.start (ix2 e k) idx 0 + scatter_S50000x128_S600000x1_S600000x128_1_0_0_1.window (ix2 e k) 0 ∧ scatter_S50000x128_S600000x1_S600000x128_1_0_0_1.start (ix2 e k) idx 0 + scatter_S50000x128_S600000x1_S600000x128_1_0_0_1.window (ix2 e k) 0 < (50000 : Nat)
        rw [sc_start0, sc_window0, hn]; have := n.isLt; omega
      | ⟨1, _⟩ =>
        show 0 ≤ scatter_S50000x128_S600000x1_S600000x128_1_0_0_1.start (ix2 e k) idx 1 + scatter_S50000x128_S600000x1_S600000x128_1_0_0_1.window (ix2 e k) 1 ∧ scatter_S50000x128_S600000x1_S600000x128_1_0_0_1.start (ix2 e k) idx 1 + scatter_S50000x128_S600000x1_S600000x128_1_0_0_1.window (ix2 e k) 1 < (128 : Nat)
        rw [sc_start1, sc_window1]; have := k.isLt; omega
    rw [dif_pos hin]
    congr 1
    funext a
    refine Fin.ext ?_
    match a with
    | ⟨0, _⟩ =>
      show (scatter_S50000x128_S600000x1_S600000x128_1_0_0_1.start (ix2 e k) idx 0 + scatter_S50000x128_S600000x1_S600000x128_1_0_0_1.window (ix2 e k) 0).toNat = n.val
      rw [sc_start0, sc_window0, hn]; omega
    | ⟨1, _⟩ =>
      show (scatter_S50000x128_S600000x1_S600000x128_1_0_0_1.start (ix2 e k) idx 1 + scatter_S50000x128_S600000x1_S600000x128_1_0_0_1.window (ix2 e k) 1).toNat = k.val
      rw [sc_start1, sc_window1]; omega

theorem ij_eq {n m : Nat} (p : Fin n) (q : Fin m) : StableHlo.Predicate.ij p q = ix2 p q := by
  funext a; match a with | ⟨0, _⟩ => rfl | ⟨1, _⟩ => rfl

/-- The sum of the updates that land on `(n, k)`, edge by edge: edge `e` lands there with its column `k` when
    its scatter index, read signed, is `n`. -/
theorem scatter_sum (idx : IVec S600000x1 32) (f : S600000x128.Idx → EReal) (n : Fin 50000) (k : Fin 128)
    [DecidablePred fun j => scatter_S50000x128_S600000x1_S600000x128_1_0_0_1.resultIdx? j idx = some (ix2 n k)] :
    ∑ j ∈ Finset.univ.filter (fun j => scatter_S50000x128_S600000x1_S600000x128_1_0_0_1.resultIdx? j idx = some (ix2 n k)), f j
      = ∑ e : Fin 600000, if (idx (ix2 e 0)).toInt = (n.val : Int) then f (ix2 e k) else 0 := by
  rw [Finset.sum_filter, sum_idx2]
  refine Finset.sum_congr rfl fun e _ => ?_
  simp only [sc_lands_iff]
  by_cases h : (idx (ix2 e 0)).toInt = (n.val : Int)
  · simp only [h, true_and, if_true]
    exact Finset.sum_ite_eq' Finset.univ k (fun k' => f (ix2 e k')) |>.trans (if_pos (Finset.mem_univ k))
  · simp only [h, false_and, if_false]
    exact Finset.sum_const_zero

/-- A node id that is not negative is read as it is. -/
theorem nrm_of_nonneg (v : IVec S600000 32) (e : Fin 600000) (h : 0 ≤ (v (ix1 e)).toInt) :
    nrm (F := Ideal) v (ix1 e) = v (ix1 e) := by
  have hs : (v (ix1 e)).slt 0#32 = false := by
    unfold BitVec.slt
    exact decide_eq_false (by simpa using h)
  show Scalar.select (IntOp.cmpi .slt (v (ix1 e)) 0#32) _ _ = _
  unfold IntOp.cmpi
  simp only [hs]
  exact select_zero _ _

/-- The node an edge's gather reads: its id with a negative one wrapped, then clamped into `0 … 49999`. -/
def gidx (v : IVec S600000 32) (e : Fin 600000) : Fin 50000 :=
  ⟨min (nrm (F := Ideal) v (ix1 e)).toInt.toNat 49999, by omega⟩

/-- An edge whose id, read signed, is the node `n` reads node `n`. -/
theorem gidx_of_lands (v : IVec S600000 32) (e : Fin 600000) (n : Fin 50000) (h : (v (ix1 e)).toInt = (n.val : Int)) :
    gidx v e = n := by
  unfold gidx
  refine Fin.ext ?_
  show min (nrm (F := Ideal) v (ix1 e)).toInt.toNat 49999 = n.val
  rw [nrm_of_nonneg v e (by omega), h]
  have := n.isLt
  omega

/-- The all-zero array is zero everywhere. -/
theorem zeros2_apply (i : S50000x128.Idx) : zeros2 (F := Ideal) i = 0 := by
  show Ideal.ofBits .f32 0x00000000#32 = 0
  exact Ideal.ofBits_zero_f32

/-- The exact scatter-add into a 50000 × 128 array at `(n, k)`: the operand there plus, edge by edge, the update
    of column `k` of every edge whose scatter index, read signed, is `n`. -/
theorem scatterAdd_apply (x : S50000x128.Idx → EReal) (idx : IVec S600000x1 32) (upd : S600000x128.Idx → EReal)
    (n : Fin 50000) (k : Fin 128) :
    Host.scatterAdd (F := Ideal) (φ := .f32) scatter_S50000x128_S600000x1_S600000x128_1_0_0_1 x idx upd (ix2 n k)
      = x (ix2 n k) + ∑ e : Fin 600000, if (idx (ix2 e 0)).toInt = (n.val : Int) then upd (ix2 e k) else 0 := by
  unfold Host.scatterAdd
  show Ideal.hostScatterAdd _ _ _ _ _ = _
  unfold Ideal.hostScatterAdd
  rw [scatter_sum]

/-- The aggregate over scaled messages at `(n, k)`: every edge that ends at `n` adds the message row it reads. -/
theorem aggK_apply (src dst : IVec S600000 32) (M : S50000x128.Idx → EReal) (n : Fin 50000) (k : Fin 128) :
    aggK (F := Ideal) src dst M (ix2 n k)
      = 0 + ∑ e : Fin 600000, if (dst (ix1 e)).toInt = (n.val : Int) then M (ix2 (gidx src e) k) else 0 := by
  unfold aggK
  rw [scatterAdd_apply, zeros2_apply]
  refine congrArg _ (Finset.sum_congr rfl fun e _ => ?_)
  rw [col_apply]
  simp only [gather_row, col_apply]
  rfl

/-- An edge's weight at `(e, 0)`: the factor of the node its source reads times that of the node its destination reads. -/
theorem edgeNorm_apply (src dst : IVec S600000 32) (D : S50000.Idx → EReal) (e : Fin 600000) :
    edgeNorm (F := Ideal) src dst D (ix2 e 0) = D (ix1 (gidx src e)) * D (ix1 (gidx dst e)) := by
  unfold edgeNorm
  rw [← ixP_eq, StableHlo.Predicate.bcast_col1, ofFin_eq]
  show Host.gather _ D _ (ix1 e) * Host.gather _ D _ (ix1 e) = _
  simp only [gather_vec, col_apply]
  rfl

/-- The aggregate over unscaled rows at `(n, k)`: every edge that ends at `n` adds the row it reads times its weight. -/
theorem aggR_apply (src dst : IVec S600000 32) (HW : S50000x128.Idx → EReal) (D : S50000.Idx → EReal) (n : Fin 50000) (k : Fin 128) :
    aggR (F := Ideal) src dst HW D (ix2 n k)
      = 0 + ∑ e : Fin 600000, if (dst (ix1 e)).toInt = (n.val : Int)
          then HW (ix2 (gidx src e) k) * (D (ix1 (gidx src e)) * D (ix1 (gidx dst e))) else 0 := by
  unfold aggR
  rw [scatterAdd_apply, zeros2_apply]
  refine congrArg _ (Finset.sum_congr rfl fun e _ => ?_)
  rw [col_apply]
  show (if _ then Host.gather _ HW _ (ix2 e k) * broadcastInDim S600000x128 ![0, 1] _ (edgeNorm (F := Ideal) src dst D) (ix2 e k) else 0) = _
  rw [← ij_eq, StableHlo.Predicate.bcast_of_col, ixP_eq, edgeNorm_apply, ij_eq]
  simp only [gather_row, col_apply]
  rfl

/-- A nonnegative real factor goes through a finite sum of extended reals (it distributes over each addition). -/
theorem coe_mul_sum {ι : Type} (s : Finset ι) (r : ℝ) (hr : 0 ≤ r) (f : ι → EReal) :
    (r : EReal) * ∑ i ∈ s, f i = ∑ i ∈ s, (r : EReal) * f i := by
  classical
  induction s using Finset.induction_on with
  | empty => simp
  | insert a s ha ih =>
    rw [Finset.sum_insert ha, Finset.sum_insert ha,
      EReal.left_distrib_of_nonneg_of_ne_top (EReal.coe_nonneg.mpr hr) (EReal.coe_ne_top r), ih]

/-- One layer's combine step is the same in the two programs' spellings. An edge that ends at `n` contributes
    `HW (g e, k) · D (g e)` to the aggregate of scaled messages and `HW (g e, k) · (D (g e) · D n)` to the aggregate
    of unscaled rows — its destination is not negative, so the gather reads `n` itself there —; `D n` is a
    nonnegative real, so it distributes over the aggregate's sum and over the node's own term. -/
theorem layer_step (src dst : (⟨S600000, .i32⟩ : BufTy).Contents (Elt Ideal)) (HW M : (⟨S50000x128, .f32⟩ : BufTy).Contents (Elt Ideal))
    (D : (⟨S50000, .f32⟩ : BufTy).Contents (Elt Ideal)) (hD : ∀ i, ∃ r : ℝ, 0 ≤ r ∧ D i = (r : EReal))
    (hM : ∀ (n : Fin 50000) (k : Fin 128), M (ix2 n k) = HW (ix2 n k) * D (ix1 n)) (b : Fin 128 → EReal) (n : Fin 50000) (k : Fin 128) :
    Cert.Spec.combK (fun n k => aggK src dst M (ix2 n k)) (fun n k => M (ix2 n k)) (fun n => D (ix1 n)) b n k
      = Cert.Spec.combR (fun n k => aggR src dst HW D (ix2 n k)) (fun n k => HW (ix2 n k)) (fun n => D (ix1 n)) b n k := by
  obtain ⟨r, hr0, hr⟩ := hD (ix1 n)
  have key : D (ix1 n) * (aggK (F := Ideal) src dst M (ix2 n k) + M (ix2 n k))
      = aggR (F := Ideal) src dst HW D (ix2 n k) + HW (ix2 n k) * (D (ix1 n) * D (ix1 n)) := by
    rw [aggK_apply, aggR_apply, zero_add, zero_add, hM n k]
    have hterm : ∀ e : Fin 600000,
        (if (dst (ix1 e)).toInt = (n.val : Int)
            then HW (ix2 (gidx src e) k) * (D (ix1 (gidx src e)) * D (ix1 (gidx dst e))) else 0)
          = D (ix1 n) * (if (dst (ix1 e)).toInt = (n.val : Int) then M (ix2 (gidx src e) k) else 0) := by
      intro e
      by_cases h : (dst (ix1 e)).toInt = (n.val : Int)
      · rw [if_pos h, if_pos h, gidx_of_lands dst e n h, hM, mul_comm (D (ix1 n)), mul_assoc]
      · rw [if_neg h, if_neg h, mul_zero]
    rw [Finset.sum_congr rfl fun e _ => hterm e, hr, ← coe_mul_sum _ r hr0,
      EReal.left_distrib_of_nonneg_of_ne_top (EReal.coe_nonneg.mpr hr0) (EReal.coe_ne_top r)]
    congr 1
    rw [mul_left_comm]
  show max (D (ix1 n) * (aggK (F := Ideal) src dst M (ix2 n k) + M (ix2 n k)) + b k) 0
    = max (aggR (F := Ideal) src dst HW D (ix2 n k) + HW (ix2 n k) * (D (ix1 n) * D (ix1 n)) + b k) 0
  rw [key]

end Cert.ReferenceIdeal.Graph

end
-- ==== Proof.RGraphPool.lean ====
import proofs.«430762_j39556648796267_2_alg».proof.Proof.RGraphDefs
import Idealize.ShloMosaic.Lib.IdealHost
import Idealize.ShloMosaic.Lib.StableHlo.Predicate

noncomputable section

namespace Cert.ReferenceIdeal.Graph

open Cert.ReferenceIdeal Cert.ReferenceIdeal.Facts₀ Idealize.ShloMosaic Idealize.ShloMosaic.ValueIdx

/-! Two facts about the graph side of the whole-array program, read at the level of single elements: every node's
    normalisation factor is a nonnegative real number, and the per-graph sums are, element by element, the sum over
    the nodes of the graph of the rows' entries. Both rest on what an accumulating scatter leaves at an element: what
    was there plus the sum of the updates whose landing index is that element. -/

/-- An accumulating scatter at an element: what was there plus the updates that land on it. -/
theorem scatterAdd_apply_any {s si u : Shape} {w : Nat} (d : ScatterDims s si u) (x : FVec Ideal s .f32) (idx : IVec si w)
    (upd : FVec Ideal u .f32) (i : s.Idx) :
    Host.scatterAdd d x idx upd i = x i + ∑ j ∈ Finset.univ.filter (fun j => d.resultIdx? j idx = some i), upd j := rfl

/-- A node's degree is a positive whole number: one more than the number of edges ending at it. -/
theorem degOf_eq (dst : (⟨S600000, .i32⟩ : BufTy).Contents (Elt Ideal)) (i : S50000.Idx) :
    ∃ n : ℕ, degOf (F := Ideal) dst i = (((n + 1 : ℕ) : ℝ) : EReal) := by
  unfold degOf
  rw [addf_apply, scatterAdd_apply_any]
  refine ⟨(Finset.univ.filter (fun j => scatter_S50000_S600000x1_S600000_n_0_0_1.resultIdx? j (col dst) = some i)).card, ?_⟩
  have h0 : (broadcastInDim S50000 ![] bcast_S_S50000 (constant (F := Ideal) S_ .f32 0x00000000#32)) i = 0 := Ideal.ofBits_zero_f32
  have h1 : (broadcastInDim S50000 ![] bcast_S_S50000 (constant (F := Ideal) S_ .f32 0x3F800000#32)) i = 1 := Ideal.ofBits_one_f32
  have h2 : ∀ j, (broadcastInDim S600000 ![] bcast_S_S600000 (constant (F := Ideal) S_ .f32 0x3F800000#32)) j = 1 := fun _ => Ideal.ofBits_one_f32
  rw [h0, h1, zero_add, Finset.sum_congr rfl (fun j _ => h2 j), Finset.sum_const, nsmul_one]
  generalize Finset.card _ = n
  rw [Nat.cast_add, Nat.cast_one, EReal.coe_add, EReal.coe_one, EReal.coe_natCast]

/-- A node's normalisation factor, one over the square root of its degree, is a nonnegative real number. -/
theorem dis_nonneg (dst : (⟨S600000, .i32⟩ : BufTy).Contents (Elt Ideal)) (i : S50000.Idx) : ∃ r : ℝ, 0 ≤ r ∧ disOf (F := Ideal) dst i = (r : EReal) := by
  obtain ⟨n, hn⟩ := degOf_eq dst i
  refine ⟨(Real.sqrt ((n + 1 : ℕ) : ℝ))⁻¹, inv_nonneg.mpr (Real.sqrt_nonneg _), ?_⟩
  have e : disOf (F := Ideal) dst i = Ideal.rsqrt (degOf (F := Ideal) dst i) := by
    unfold disOf Host.rsqrt
    exact Ideal.hostUnary_rsqrt_def _
  rw [e, hn, Ideal.rsqrt_coe, if_neg (not_lt.mpr (by positivity)), if_neg (by positivity)]

/-! ## The per-graph sums -/

local notation "dP" => scatter_S64x128_S50000x1_S50000x128_1_0_0_1

/-- The landing row of update `(n, b)`: the index column's entry for `n`, read signed. -/
theorem pool_start0 (idx : IVec S50000x1 32) (n : Fin 50000) (b : Fin 128) :
    ScatterDims.start dP (ix2 n b) idx 0 = (idx (ix2 n 0)).toInt := by
  show (idx _).toInt = (idx (ix2 n 0)).toInt
  congr 2
  funext a
  match a with
  | ⟨0, _⟩ => rfl
  | ⟨1, _⟩ => rfl

/-- No start index on the feature axis. -/
theorem pool_start1 (idx : IVec S50000x1 32) (n : Fin 50000) (b : Fin 128) :
    ScatterDims.start dP (ix2 n b) idx 1 = 0 := by
  rfl

/-- The row axis is not a window axis. -/
theorem pool_window0 (n : Fin 50000) (b : Fin 128) : ScatterDims.window dP (ix2 n b) 0 = 0 := by
  rfl

/-- The feature axis is the window axis: update `(n, b)` keeps its feature `b`. -/
theorem pool_window1 (n : Fin 50000) (b : Fin 128) : ScatterDims.window dP (ix2 n b) 1 = b.val := by
  rfl

/-- The index column made of a list of node or graph ids reads the list. -/
theorem col1_apply {α : Type} (batch : S50000.Idx → α) (n : Fin 50000) :
    broadcastInDim S50000x1 ![0] bcast_S50000_S50000x1_0 batch (ix2 n 0) = batch (ix1 n) := by
  simp only [broadcastInDim]
  congr 1
  funext a
  have ha : a = 0 := Subsingleton.elim _ _
  subst ha
  apply Fin.ext
  split
  · next h1 => exact absurd h1 (by decide)
  · rfl

/-- Where the row `(n, b)` of the updates lands: at `(g, k)` exactly when node `n`'s graph id, read signed, is `g` and `b = k`. -/
theorem pool_resultIdx_iff (idx : IVec S50000x1 32) (n : Fin 50000) (b : Fin 128) (g : Fin 64) (k : Fin 128) :
    ScatterDims.resultIdx? dP (ix2 n b) idx = some (ix2 g k) ↔ (idx (ix2 n 0)).toInt = (g.val : Int) ∧ b = k := by
  unfold ScatterDims.resultIdx?
  constructor
  · intro h
    split at h
    · next hh =>
      have e := Option.some.inj h
      have e0 := congrArg (fun f => (f 0).val) e
      have e1 := congrArg (fun f => (f 1).val) e
      simp only [pool_start0, pool_start1, pool_window0, pool_window1] at e0 e1
      have h0 := hh 0
      rw [pool_start0, pool_window0] at h0
      refine ⟨?_, Fin.ext ?_⟩
      · change ((idx (ix2 n 0)).toInt + 0).toNat = g.val at e0
        omega
      · change ((0 : Int) + (b.val : Int)).toNat = k.val at e1
        omega
    · exact absurd h (by simp)
  · rintro ⟨h0, rfl⟩
    have hh : ∀ a, 0 ≤ ScatterDims.start dP (ix2 n b) idx a + ScatterDims.window dP (ix2 n b) a
        ∧ ScatterDims.start dP (ix2 n b) idx a + ScatterDims.window dP (ix2 n b) a < S64x128.size a := by
      intro a
      match a with
      | ⟨0, _⟩ =>
        have := g.isLt
        rw [show (⟨0, _⟩ : Fin 2) = 0 from rfl, pool_start0, pool_window0, h0]
        exact ⟨by omega, by show (g.val : Int) + (0 : Nat) < (64 : Nat); omega⟩
      | ⟨1, _⟩ =>
        have := b.isLt
        rw [show (⟨1, _⟩ : Fin 2) = 1 from rfl, pool_start1, pool_window1]
        exact ⟨by omega, by show (0 : Int) + (b.val : Nat) < (128 : Nat); omega⟩
    rw [dif_pos hh]
    congr 1
    funext a
    match a with
    | ⟨0, _⟩ =>
      apply Fin.ext
      show (ScatterDims.start dP (ix2 n b) idx 0 + (ScatterDims.window dP (ix2 n b) 0 : Nat)).toNat = g.val
      rw [pool_start0, pool_window0, h0]; omega
    | ⟨1, _⟩ =>
      apply Fin.ext
      show (ScatterDims.start dP (ix2 n b) idx 1 + (ScatterDims.window dP (ix2 n b) 1 : Nat)).toNat = b.val
      rw [pool_start1, pool_window1]; omega

/-- A 32-bit word read signed is the small number `g` exactly when it is the word `g`. -/
theorem toInt_eq_small (x : BitVec 32) (g : Fin 64) : x.toInt = (g.val : Int) ↔ x = BitVec.ofNat 32 g.val := by
  have hg := g.isLt
  constructor
  · intro h
    have hx := x.isLt
    rw [BitVec.toInt_eq_toNat_cond] at h
    apply BitVec.eq_of_toNat_eq
    rw [BitVec.toNat_ofNat]
    split at h <;> omega
  · rintro rfl
    rw [BitVec.toInt_eq_toNat_cond, BitVec.toNat_ofNat]
    split <;> omega

/-- With the index column made of the graph ids: row `(n, b)` lands at `(g, k)` exactly when node `n`'s id is the word `g`
    and `b = k`. -/
theorem pool_lands_iff (batch : (⟨S50000, .i32⟩ : BufTy).Contents (Elt Ideal)) (n : Fin 50000) (b : Fin 128) (g : Fin 64) (k : Fin 128) :
    ScatterDims.resultIdx? dP (ix2 n b) (broadcastInDim S50000x1 ![0] bcast_S50000_S50000x1_0 batch) = some (ix2 g k)
      ↔ batch (ix1 n) = BitVec.ofNat 32 g.val ∧ b = k :=
  (pool_resultIdx_iff _ n b g k).trans
    (and_congr_left' ((congrArg (fun x : BitVec 32 => x.toInt = (g.val : Int)) (col1_apply batch n)).to_iff.trans (toInt_eq_small _ g)))

/-- The per-graph sums, element by element: entry `(g, k)` is the sum over the nodes whose graph id is the word `g` of
    their rows' entry `k`: the updates landing at `(g, k)` are the rows `(n, k)` of those nodes. -/
theorem pool_eq (batch : (⟨S50000, .i32⟩ : BufTy).Contents (Elt Ideal)) (h : (⟨S50000x128, .f32⟩ : BufTy).Contents (Elt Ideal)) (g : Fin 64) (k : Fin 128) :
    poolR batch h (ix2 g k) = Cert.Spec.pool (fun n => batch (ix1 n)) (fun n k => h (ix2 n k)) g k := by
  unfold poolR Cert.Spec.pool
  rw [scatterAdd_apply_any]
  have h0 : (broadcastInDim S64x128 ![] bcast_S_S64x128 (constant (F := Ideal) S_ .f32 0x00000000#32)) (ix2 g k) = 0 := Ideal.ofBits_zero_f32
  rw [h0, zero_add, Finset.sum_filter, sum_idx2]
  apply Finset.sum_congr rfl
  intro n _
  refine (Finset.sum_congr rfl (fun b _ => if_congr (pool_lands_iff batch n b g k) rfl rfl)).trans ?_
  by_cases hb : batch (ix1 n) = BitVec.ofNat 32 g.val
  · rw [if_pos hb, one_mul]
    simp only [hb, true_and]
    rw [Finset.sum_ite_eq' Finset.univ k (fun b => h (ix2 n b)), if_pos (Finset.mem_univ k)]
  · rw [if_neg hb, zero_mul]
    simp only [hb, false_and, if_false, Finset.sum_const_zero]

end Cert.ReferenceIdeal.Graph

end
-- ==== Proof.Bridge.lean ====
import proofs.«430762_j39556648796267_2_alg».proof.Proof.KIRun
import proofs.«430762_j39556648796267_2_alg».proof.Proof.KIVal0
import proofs.«430762_j39556648796267_2_alg».proof.Proof.KIVal1
import proofs.«430762_j39556648796267_2_alg».proof.Proof.KIVal2
import proofs.«430762_j39556648796267_2_alg».proof.Proof.KIVal3
import proofs.«430762_j39556648796267_2_alg».proof.Proof.KIHostA
import proofs.«430762_j39556648796267_2_alg».proof.Proof.KIHostB
import proofs.«430762_j39556648796267_2_alg».proof.Proof.RRead
import proofs.«430762_j39556648796267_2_alg».proof.Proof.RGraphLayer
import proofs.«430762_j39556648796267_2_alg».proof.Proof.RGraphPool

set_option maxRecDepth 16384

noncomputable section

/-! The two programs compute the same result. The tiled program keeps, after each of its first three pipelines, the
    rows `hw` of the whole-array program's linear step scaled by the node factor `d` (a nonnegative real): the
    message `m = hw · d`. With that, one layer's combine step `d · (Σ_edges m[src] + m) + b` is the whole-array
    program's `Σ_edges hw[src] · (d[src] · d[dst]) + hw · (d · d) + b` by distributing `d`; the next linear step and
    the scaling by `d` are the same on both sides, the last pipeline's per-graph sums are the whole-array program's
    scatter-add by graph id, and the classifier tail is the same chain of operations on both sides. -/

namespace Cert.Bridge

open Idealize.ShloMosaic Idealize.ShloMosaic.TcCoe Idealize.ShloMosaic.ValueIdx Idealize.SL.Sem
open Cert.KernelIdeal.Hand Cert.ReferenceIdeal.Bridge Cert.ReferenceIdeal.Graph Cert.ReferenceIdeal.Read

variable (m : (ℓ : Loc Cert.KernelIdeal.nD Cert.KernelIdeal.τ Cert.KernelIdeal.sig) → Buf (Elt Ideal) ℓ) (c : Dev Cert.KernelIdeal.nD)

local notation "OUTS" => outsH (F := Ideal) m

/-- The program's arguments, read as the whole-array program types them. -/
abbrev x0 : (⟨Cert.ReferenceIdeal.S50000x64, .f32⟩ : BufTy).Contents (Elt Ideal) := m ((c.tc : Thread Cert.KernelIdeal.nD Cert.KernelIdeal.τ).loc Cert.KernelIdeal.main_arg0)
abbrev x1 : (⟨Cert.ReferenceIdeal.S2x600000, .i32⟩ : BufTy).Contents (Elt Ideal) := m ((c.tc : Thread Cert.KernelIdeal.nD Cert.KernelIdeal.τ).loc Cert.KernelIdeal.main_arg1)
abbrev x3 : (⟨Cert.ReferenceIdeal.S50000, .i32⟩ : BufTy).Contents (Elt Ideal) := m ((c.tc : Thread Cert.KernelIdeal.nD Cert.KernelIdeal.τ).loc Cert.KernelIdeal.main_arg3)
abbrev x4 : (⟨Cert.ReferenceIdeal.S64x128, .f32⟩ : BufTy).Contents (Elt Ideal) := m ((c.tc : Thread Cert.KernelIdeal.nD Cert.KernelIdeal.τ).loc Cert.KernelIdeal.main_arg4)
abbrev x5 : (⟨Cert.ReferenceIdeal.S128, .f32⟩ : BufTy).Contents (Elt Ideal) := m ((c.tc : Thread Cert.KernelIdeal.nD Cert.KernelIdeal.τ).loc Cert.KernelIdeal.main_arg5)
abbrev x6 : (⟨Cert.ReferenceIdeal.S128, .f32⟩ : BufTy).Contents (Elt Ideal) := m ((c.tc : Thread Cert.KernelIdeal.nD Cert.KernelIdeal.τ).loc Cert.KernelIdeal.main_arg6)
abbrev x7 : (⟨Cert.ReferenceIdeal.S128, .f32⟩ : BufTy).Contents (Elt Ideal) := m ((c.tc : Thread Cert.KernelIdeal.nD Cert.KernelIdeal.τ).loc Cert.KernelIdeal.main_arg7)
abbrev x10 : (⟨Cert.ReferenceIdeal.S3x128x128, .f32⟩ : BufTy).Contents (Elt Ideal) := m ((c.tc : Thread Cert.KernelIdeal.nD Cert.KernelIdeal.τ).loc Cert.KernelIdeal.main_arg10)
abbrev x11 : (⟨Cert.ReferenceIdeal.S3x128, .f32⟩ : BufTy).Contents (Elt Ideal) := m ((c.tc : Thread Cert.KernelIdeal.nD Cert.KernelIdeal.τ).loc Cert.KernelIdeal.main_arg11)
abbrev x12 : (⟨Cert.ReferenceIdeal.S128x64, .f32⟩ : BufTy).Contents (Elt Ideal) := m ((c.tc : Thread Cert.KernelIdeal.nD Cert.KernelIdeal.τ).loc Cert.KernelIdeal.main_arg12)
abbrev x13 : (⟨Cert.ReferenceIdeal.S64, .f32⟩ : BufTy).Contents (Elt Ideal) := m ((c.tc : Thread Cert.KernelIdeal.nD Cert.KernelIdeal.τ).loc Cert.KernelIdeal.main_arg13)
abbrev x14 : (⟨Cert.ReferenceIdeal.S64x1, .f32⟩ : BufTy).Contents (Elt Ideal) := m ((c.tc : Thread Cert.KernelIdeal.nD Cert.KernelIdeal.τ).loc Cert.KernelIdeal.main_arg14)
abbrev x15 : (⟨Cert.ReferenceIdeal.S1, .f32⟩ : BufTy).Contents (Elt Ideal) := m ((c.tc : Thread Cert.KernelIdeal.nD Cert.KernelIdeal.τ).loc Cert.KernelIdeal.main_arg15)

/-- The node factors: one over the square root of the degree. -/
abbrev dd : (⟨Cert.ReferenceIdeal.S50000, .f32⟩ : BufTy).Contents (Elt Ideal) := disOf (F := Ideal) (dstOf (x1 m c))
/-- The edges' sources and destinations. -/
abbrev ss : (⟨Cert.ReferenceIdeal.S600000, .i32⟩ : BufTy).Contents (Elt Ideal) := srcOf (F := Ideal) (x1 m c)
abbrev tt : (⟨Cert.ReferenceIdeal.S600000, .i32⟩ : BufTy).Contents (Elt Ideal) := dstOf (F := Ideal) (x1 m c)

/-- The whole-array program's rows after each linear step. -/
abbrev hw0 := val_main_v65 (F := Ideal) (x0 m c) (x4 m c) (x5 m c) (x6 m c) (x7 m c) (x10 m c)
abbrev hw1 := val_main_v89 (F := Ideal) (x0 m c) (x1 m c) (x4 m c) (x5 m c) (x6 m c) (x7 m c) (x10 m c) (x11 m c)
abbrev hw2 := val_main_v113 (F := Ideal) (x0 m c) (x1 m c) (x4 m c) (x5 m c) (x6 m c) (x7 m c) (x10 m c) (x11 m c)
abbrev h3 := val_main_v134 (F := Ideal) (x0 m c) (x1 m c) (x4 m c) (x5 m c) (x6 m c) (x7 m c) (x10 m c) (x11 m c)

/-- A linear step of rows that agree entry by entry is the same step. -/
theorem lin_congr {f g : Cert.Spec.Rows} (W : Fin 128 → Fin 128 → EReal) (h : ∀ n k, f n k = g n k) (n : Fin 50000) (j : Fin 128) :
    Cert.Spec.lin f W n j = Cert.Spec.lin g W n j := by
  rw [show f = g from funext fun n => funext fun k => h n k]

/-- After the first pipeline: the encoder's rows through the first linear step, scaled by the node factor. -/
theorem msg0 (n : Fin 50000) (j : Fin 128) :
    (OUTS 2 Cert.KernelIdeal.main_v18 c : Cert.ReferenceIdeal.S50000x128.Idx → EReal) (ix2 n j) = hw0 m c (ix2 n j) * dd m c (ix1 n) := by
  unfold hw0
  rw [outs2_eq m c,
    val0 (EV (Cert.KernelIdeal.Gen.V1 m)) c (x0 m c) (x4 m c) (x5 m c) (x6 m c) (x7 m c) (fun k j => x10 m c (ix3 (0 : Fin 3) k j))
      (fun n => dd m c (ix1 n)) (fun n q => congrFun (k_x m c) (ix2 n q)) (fun q k => congrFun (k_ew m c) (ix2 q k))
      (k_eb m c) (k_g m c) (k_be m c) (k_w0 m c) (k_dis1 m c) n j,
    r_hw0]
  exact congrArg (· * dd m c (ix1 n)) (lin_congr _ (fun n k => (r_h0 (x0 m c) (x4 m c) (x5 m c) (x6 m c) (x7 m c) n k).symm) n j)

/-- After the second pipeline: the second linear step's rows, scaled by the node factor. -/
theorem msg1 (n : Fin 50000) (j : Fin 128) :
    (OUTS 4 Cert.KernelIdeal.main_v36 c : Cert.ReferenceIdeal.S50000x128.Idx → EReal) (ix2 n j) = hw1 m c (ix2 n j) * dd m c (ix1 n) := by
  unfold hw1
  rw [outs4_eq m c,
    val1 (EV (Cert.KernelIdeal.Gen.V3 m (OUTS))) c
      (fun n k => aggK (ss m c) (tt m c) (OUTS 2 Cert.KernelIdeal.main_v18 c) (ix2 n k))
      (fun n k => (OUTS 2 Cert.KernelIdeal.main_v18 c : Cert.ReferenceIdeal.S50000x128.Idx → EReal) (ix2 n k))
      (fun n => dd m c (ix1 n)) (fun k => x11 m c (ix2 (0 : Fin 3) k)) (fun k j => x10 m c (ix3 (1 : Fin 3) k j))
      (fun n k => congrFun (k_agg0 m (OUTS) c) (ix2 n k)) (fun n k => congrFun (k_m0 m (OUTS) c) (ix2 n k))
      (k_dis3 m (OUTS) c) (k_b0 m (OUTS) c) (k_w1 m (OUTS) c) n j,
    r_hw1]
  refine congrArg (· * dd m c (ix1 n)) (lin_congr _ (fun n k => ?_) n j)
  rw [r_h1, r_agg0, r_dis]
  exact layer_step (ss m c) (tt m c) (hw0 m c) (OUTS 2 Cert.KernelIdeal.main_v18 c) (dd m c) (dis_nonneg (tt m c)) (msg0 m c)
    (fun k => x11 m c (ix2 (0 : Fin 3) k)) n k

/-- After the third pipeline: the third linear step's rows, scaled by the node factor. -/
theorem msg2 (n : Fin 50000) (j : Fin 128) :
    (OUTS 6 Cert.KernelIdeal.main_v54 c : Cert.ReferenceIdeal.S50000x128.Idx → EReal) (ix2 n j) = hw2 m c (ix2 n j) * dd m c (ix1 n) := by
  unfold hw2
  rw [outs6_eq m c,
    val2 (EV (Cert.KernelIdeal.Gen.V5 m (OUTS))) c
      (fun n k => aggK (ss m c) (tt m c) (OUTS 4 Cert.KernelIdeal.main_v36 c) (ix2 n k))
      (fun n k => (OUTS 4 Cert.KernelIdeal.main_v36 c : Cert.ReferenceIdeal.S50000x128.Idx → EReal) (ix2 n k))
      (fun n => dd m c (ix1 n)) (fun k => x11 m c (ix2 (1 : Fin 3) k)) (fun k j => x10 m c (ix3 (2 : Fin 3) k j))
      (fun n k => congrFun (k_agg1 m (OUTS) c) (ix2 n k)) (fun n k => congrFun (k_m1 m (OUTS) c) (ix2 n k))
      (k_dis5 m (OUTS) c) (k_b1 m (OUTS) c) (k_w2 m (OUTS) c) n j,
    r_hw2]
  refine congrArg (· * dd m c (ix1 n)) (lin_congr _ (fun n k => ?_) n j)
  rw [r_h2, r_agg1, r_dis]
  exact layer_step (ss m c) (tt m c) (hw1 m c) (OUTS 4 Cert.KernelIdeal.main_v36 c) (dd m c) (dis_nonneg (tt m c)) (msg1 m c)
    (fun k => x11 m c (ix2 (1 : Fin 3) k)) n k

/-- After the last pipeline: the per-graph sums of the last layer's rows. -/
theorem sums3 : (OUTS 8 Cert.KernelIdeal.main_v70 c : Cert.ReferenceIdeal.S64x128.Idx → EReal) = poolR (x3 m c) (h3 m c) := by
  refine funext fun (i : Cert.ReferenceIdeal.S64x128.Idx) => ?_
  obtain ⟨g, k, rfl⟩ : ∃ (g : Fin 64) (k : Fin 128), i = ix2 g k := ⟨i 0, i 1, eq_ix2 i⟩
  unfold h3
  rw [outs8_eq m c,
    val3 (EV (Cert.KernelIdeal.Gen.V7 m (OUTS))) c
      (fun n k => aggK (ss m c) (tt m c) (OUTS 6 Cert.KernelIdeal.main_v54 c) (ix2 n k))
      (fun n k => (OUTS 6 Cert.KernelIdeal.main_v54 c : Cert.ReferenceIdeal.S50000x128.Idx → EReal) (ix2 n k))
      (fun n => dd m c (ix1 n)) (fun k => x11 m c (ix2 (2 : Fin 3) k)) (fun n => x3 m c (ix1 n))
      (fun n k => congrFun (k_agg2 m (OUTS) c) (ix2 n k)) (fun n k => congrFun (k_m2 m (OUTS) c) (ix2 n k))
      (k_dis7 m (OUTS) c) (k_b2 m (OUTS) c) (k_bt m (OUTS) c) g k,
    pool_eq]
  refine congrArg (fun h : Cert.Spec.Rows => Cert.Spec.pool (fun n => x3 m c (ix1 n)) h g k) (funext fun n => funext fun k => ?_)
  rw [r_h3, r_agg2, r_dis]
  exact layer_step (ss m c) (tt m c) (hw2 m c) (OUTS 6 Cert.KernelIdeal.main_v54 c) (dd m c) (dis_nonneg (tt m c)) (msg2 m c)
    (fun k => x11 m c (ix2 (2 : Fin 3) k)) n k

/-- The tiled program's result is the whole-array program's. -/
theorem result_eq :
    (Cert.KernelIdeal.Gen.V11 m (OUTS) c Cert.KernelIdeal.main_v88 : Cert.ReferenceIdeal.S64x1.Idx → EReal)
      = val_main_v155 (F := Ideal) (x0 m c) (x1 m c) (x3 m c) (x4 m c) (x5 m c) (x6 m c) (x7 m c) (x10 m c) (x11 m c) (x12 m c) (x13 m c) (x14 m c) (x15 m c) := by
  rw [k_out m (OUTS) c, r_out, r_sums, sums3 m c]

end Cert.Bridge

end
-- ==== Proof.lean ====
/- The certificate's claim. The three frames: each tiled program runs its four pipelines between the host
   stretches, every pipeline's body leaving its windows as the proof data say, and no argument array is written;
   the whole-array program is a straight line of host operations. The idealization rewrote nothing. The two
   idealized programs end with the same result: after each of the first three pipelines the tiled program holds
   the whole-array program's linear-step rows scaled by the node factor, the last pipeline's accumulator holds
   the per-graph sums, and the classifier tail is the same on both sides. -/
import proofs.«430762_j39556648796267_2_alg».proof.Defs
import proofs.«430762_j39556648796267_2_alg».proof.Proof.Gen.Kernel
import proofs.«430762_j39556648796267_2_alg».proof.Proof.Gen.KernelIdeal
import proofs.«430762_j39556648796267_2_alg».proof.Proof.Gen.ReferenceIdeal
import proofs.«430762_j39556648796267_2_alg».proof.Proof.Gen.ReferenceIdeal.Run
import proofs.«430762_j39556648796267_2_alg».proof.Proof.Gen.ReferenceIdeal.Read
import proofs.«430762_j39556648796267_2_alg».proof.Proof.Gen.Pre_finite_inputs
import proofs.«430762_j39556648796267_2_alg».proof.Proof.KRun
import proofs.«430762_j39556648796267_2_alg».proof.Proof.KIRun
import proofs.«430762_j39556648796267_2_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

/-- The whole-array program's result, from a memory that agrees with the tiled program's on the arguments, is the
    tiled program's result. -/
theorem ref_result_eq
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (h13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (h14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (h15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) :
    Cert.ReferenceIdeal.Value.res_main_v155 (F := Ideal) m' c
      = Cert.KernelIdeal.Gen.V11 m (Cert.KernelIdeal.Hand.outsH (F := Ideal) m) c Cert.KernelIdeal.main_v88 := by
  rw [Cert.ReferenceIdeal.Read.val_main_v155_eq, h0, h1, h3, h4, h5, h6, h7, h10, h11, h12, h13, h14, h15]
  exact (Cert.Bridge.result_eq m c).symm

theorem claim : Cert.Claim :=
  ⟨Cert.Kernel.Gen.facts, Cert.KernelIdeal.Gen.facts, Cert.ReferenceIdeal.Gen.facts, Cert.Pre_finite_inputs.Gen.facts,
    fun m ρ _ => Cert.Kernel.Hand.frameH m ρ,
    fun m ρ _ => Cert.KernelIdeal.Hand.frameH m ρ,
    fun m ρ _ => (θ_run Cert.ReferenceIdeal.defs _ _).mono (fun _ h c => (h c).2) (Cert.ReferenceIdeal.Value.run (F := Ideal) m ρ),
    trivial,
    fun m ρ m' ρ' _ hagree =>
      ⟨fun c => Cert.KernelIdeal.Gen.V11 m (Cert.KernelIdeal.Hand.outsH (F := Ideal) m) c Cert.KernelIdeal.main_v88,
        Cert.KernelIdeal.Hand.runH m ρ,
        (θ_run Cert.ReferenceIdeal.defs _ _).mono
          (fun _ h c =>
            ⟨(h c).1.trans (by
                obtain ⟨h0, h1, -, h3, h4, h5, h6, h7, -, -, h10, h11, h12, h13, h14, h15⟩ := hagree c
                exact ref_result_eq m m' c h0 h1 h3 h4 h5 h6 h7 h10 h11 h12 h13 h14 h15),
              (h c).2⟩)
          (Cert.ReferenceIdeal.Value.run (F := Ideal) m' ρ')⟩⟩

end Cert.Proof

end
